-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩

class Facts : Prop where
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S1024 : S_.BroadcastsInDim S1024 (![] : Fin 0 → Fin S1024.rank)
  reducesTo_S1024_S_d0 : S1024.ReducesTo [0] S_
  reducesTo_S1024x1024_S_d0_1 : S1024x1024.ReducesTo [0, 1] S_

variable [Facts]

def fn_part2 {F : FTy → Type} [FloatOps F] (main_arg2 : IVec S1024 32) (main_arg3 : IVec S1024 32) (main_v5 : IVec S1024x1024 1) (main_v36 : IVec S_ 1) : IVec S_ 1 :=
  let main_v37 : IVec S1024x1 32 := broadcastInDim S1024x1 ![0] bcast_S1024_S1024x1_0 main_arg3
  let main_v38 : IVec S1x1024 32 := broadcastInDim S1x1024 ![1] bcast_S1024_S1x1024_1 main_arg3
  let main_v39 : IVec S1024x1024 32 := broadcastInDim S1024x1024 ![0, 1] bcast_S1024x1_S1024x1024_0_1 main_v37
  let main_v40 : IVec S1024x1024 32 := broadcastInDim S1024x1024 ![0, 1] bcast_S1x1024_S1024x1024_0_1 main_v38
  let main_v41 : IVec S1024x1024 1 := cmpi .ne main_v39 main_v40
  let main_v42 : IVec S1024x1024 1 := ori main_v41 main_v5
  let main_c_9 : IVec S_ 1 := constantI S_ 1 1#1
  let main_v43 : IVec S_ 1 := (fun x v => Host.reduce IntOp.andi x v reducesTo_S1024x1024_S_d0_1 h_S_) main_v42 main_c_9
  let main_v44 : IVec S_ 1 := andi main_v36 main_v43
  let main_v45 : IVec S1024x1 32 := broadcastInDim S1024x1 ![0] bcast_S1024_S1024x1_0 main_arg2
  let main_v46 : IVec S1x1024 32 := broadcastInDim S1x1024 ![1] bcast_S1024_S1x1024_1 main_arg3
  let main_v47 : IVec S1024x1024 32 := broadcastInDim S1024x1024 ![0, 1] bcast_S1024x1_S1024x1024_0_1 main_v45
  let main_v48 : IVec S1024x1024 32 := broadcastInDim S1024x1024 ![0, 1] bcast_S1x1024_S1024x1024_0_1 main_v46
  let main_v49 : IVec S1024x1024 1 := cmpi .ne main_v47 main_v48
  let main_c_10 : IVec S_ 1 := constantI S_ 1 1#1
  let main_v50 : IVec S_ 1 := (fun x v => Host.reduce IntOp.andi x v reducesTo_S1024x1024_S_d0_1 h_S_) main_v49 main_c_10
  let main_v51 : IVec S_ 1 := andi main_v44 main_v50
  main_v51

def fn_part1 {F : FTy → Type} [FloatOps F] (main_arg2 : IVec S1024 32) (main_arg3 : IVec S1024 32) (main_v5 : IVec S1024x1024 1) (main_v14 : IVec S_ 1) (main_v16 : IVec S1024 1) (main_v17 : IVec S1024 32) : IVec S_ 1 :=
  let main_v18 : IVec S1024 1 := cmpi .slt main_arg2 main_v17
  let main_v19 : IVec S1024 1 := andi main_v16 main_v18
  let main_c_4 : IVec S_ 1 := constantI S_ 1 1#1
  let main_v20 : IVec S_ 1 := (fun x v => Host.reduce IntOp.andi x v reducesTo_S1024_S_d0 h_S_) main_v19 main_c_4
  let main_v21 : IVec S_ 1 := andi main_v14 main_v20
  let main_c_5 : IVec S_ 32 := constantI S_ 32 0#32
  let main_v22 : IVec S1024 32 := broadcastInDim S1024 ![] bcast_S_S1024 main_c_5
  let main_v23 : IVec S1024 1 := cmpi .sge main_arg3 main_v22
  let main_c_6 : IVec S_ 32 := constantI S_ 32 4096#32
  let main_v24 : IVec S1024 32 := broadcastInDim S1024 ![] bcast_S_S1024 main_c_6
  let main_v25 : IVec S1024 1 := cmpi .slt main_arg3 main_v24
  let main_v26 : IVec S1024 1 := andi main_v23 main_v25
  let main_c_7 : IVec S_ 1 := constantI S_ 1 1#1
  let main_v27 : IVec S_ 1 := (fun x v => Host.reduce IntOp.andi x v reducesTo_S1024_S_d0 h_S_) main_v26 main_c_7
  let main_v28 : IVec S_ 1 := andi main_v21 main_v27
  let main_v29 : IVec S1024x1 32 := broadcastInDim S1024x1 ![0] bcast_S1024_S1024x1_0 main_arg2
  let main_v30 : IVec S1x1024 32 := broadcastInDim S1x1024 ![1] bcast_S1024_S1x1024_1 main_arg2
  let main_v31 : IVec S1024x1024 32 := broadcastInDim S1024x1024 ![0, 1] bcast_S1024x1_S1024x1024_0_1 main_v29
  let main_v32 : IVec S1024x1024 32 := broadcastInDim S1024x1024 ![0, 1] bcast_S1x1024_S1024x1024_0_1 main_v30
  let main_v33 : IVec S1024x1024 1 := cmpi .ne main_v31 main_v32
  let main_v34 : IVec S1024x1024 1 := ori main_v33 main_v5
  let main_c_8 : IVec S_ 1 := constantI S_ 1 1#1
  let main_v35 : IVec S_ 1 := (fun x v => Host.reduce IntOp.andi x v reducesTo_S1024x1024_S_d0_1 h_S_) main_v34 main_c_8
  let main_v36 : IVec S_ 1 := andi main_v28 main_v35
  fn_part2 (F := F) main_arg2 main_arg3 main_v5 main_v36

def fn {F : FTy → Type} [FloatOps F] (main_arg0 : FVec F S4x4096x4096 .f32) (main_arg1 : FVec F S1024 .f32) (main_arg2 : IVec S1024 32) (main_arg3 : IVec S1024 32) : IVec S_ 1 :=
  let main_v0 : IVec S1024 32 := iotaInDim S1024 32 0
  let main_v1 : IVec S1024x1 32 := broadcastInDim S1024x1 ![0] bcast_S1024_S1024x1_0 main_v0
  let main_v2 : IVec S1x1024 32 := broadcastInDim S1x1024 ![1] bcast_S1024_S1x1024_1 main_v0
  let main_v3 : IVec S1024x1024 32 := broadcastInDim S1024x1024 ![0, 1] bcast_S1024x1_S1024x1024_0_1 main_v1
  let main_v4 : IVec S1024x1024 32 := broadcastInDim S1024x1024 ![0, 1] bcast_S1x1024_S1024x1024_0_1 main_v2
  let main_v5 : IVec S1024x1024 1 := cmpi .eq main_v3 main_v4
  let main_v6 : FVec F S4x4096x4096 .f32 := Host.absf main_arg0
  let main_cst : FVec F S_ .f32 := constant S_ .f32 0x7F800000#32
  let main_v7 : FVec F S4x4096x4096 .f32 := broadcastInDim S4x4096x4096 ![] bcast_S_S4x4096x4096 main_cst
  let main_v8 : IVec S4x4096x4096 1 := cmpf .olt main_v6 main_v7
  let main_c : IVec S_ 1 := constantI S_ 1 1#1
  let main_v9 : IVec S_ 1 := (fun x v => Host.reduce IntOp.andi x v reducesTo_S4x4096x4096_S_d0_1_2 h_S_) main_v8 main_c
  let main_v10 : FVec F S1024 .f32 := Host.absf main_arg1
  let main_cst_0 : FVec F S_ .f32 := constant S_ .f32 0x7F800000#32
  let main_v11 : FVec F S1024 .f32 := broadcastInDim S1024 ![] bcast_S_S1024 main_cst_0
  let main_v12 : IVec S1024 1 := cmpf .olt main_v10 main_v11
  let main_c_1 : IVec S_ 1 := constantI S_ 1 1#1
  let main_v13 : IVec S_ 1 := (fun x v => Host.reduce IntOp.andi x v reducesTo_S1024_S_d0 h_S_) main_v12 main_c_1
  let main_v14 : IVec S_ 1 := andi main_v9 main_v13
  let main_c_2 : IVec S_ 32 := constantI S_ 32 0#32
  let main_v15 : IVec S1024 32 := broadcastInDim S1024 ![] bcast_S_S1024 main_c_2
  let main_v16 : IVec S1024 1 := cmpi .sge main_arg2 main_v15
  let main_c_3 : IVec S_ 32 := constantI S_ 32 4096#32
  let main_v17 : IVec S1024 32 := broadcastInDim S1024 ![] bcast_S_S1024 main_c_3
  fn_part1 (F := F) main_arg2 main_arg3 main_v5 main_v14 main_v16 main_v17
-- ==== Kernel.lean ====
abbrev S4x4096x4096 : Shape := ⟨3, ![4, 4096, 4096]⟩
abbrev S1024 : Shape := ⟨1, ![1024]⟩
abbrev S_ : Shape := ⟨0, ![]⟩
abbrev S1x4096 : Shape := ⟨2, ![1, 4096]⟩
abbrev S1024x1 : Shape := ⟨2, ![1024, 1]⟩
abbrev S1024x2 : Shape := ⟨2, ![1024, 2]⟩
abbrev S4096x4096 : Shape := ⟨2, ![4096, 4096]⟩
abbrev S16384x4096 : Shape := ⟨2, ![16384, 4096]⟩
abbrev S512x1024 : Shape := ⟨2, ![512, 1024]⟩
abbrev S1024x2048 : Shape := ⟨2, ![1024, 2048]⟩
abbrev S512x2048 : Shape := ⟨2, ![512, 2048]⟩
abbrev S1x2048 : Shape := ⟨2, ![1, 2048]⟩

abbrev nBuf : Space → Nat
  | .hbm => 80
  | .vmem => 11
  | .smem => 0
  | _ => 0

abbrev bufTy : (tb : Table) → Fin (tcTables nBuf tb) → BufTy
  | .hbm, ⟨0, _⟩ => ⟨S4x4096x4096, .f32⟩
  | .hbm, ⟨1, _⟩ => ⟨S1024, .f32⟩
  | .hbm, ⟨2, _⟩ => ⟨S1024, .i32⟩
  | .hbm, ⟨3, _⟩ => ⟨S1024, .i32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S1x4096, .f32⟩
  | .hbm, ⟨8, _⟩ => ⟨S_, .i32⟩
  | .hbm, ⟨9, _⟩ => ⟨S1024, .i32⟩
  | .hbm, ⟨10, _⟩ => ⟨S1024, .i1⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S1024, .i32⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S1024x1, .i32⟩
  | .hbm, ⟨19, _⟩ => ⟨S1024x1, .i32⟩
  | .hbm, ⟨20, _⟩ => ⟨S1024x2, .i32⟩
  | .hbm, ⟨21, _⟩ => ⟨S1x4096, .f32⟩
  | .hbm, ⟨22, _⟩ => ⟨S_, .i32⟩
  | .hbm, ⟨23, _⟩ => ⟨S1024, .i32⟩
  | .hbm, ⟨24, _⟩ => ⟨S1024, .i1⟩
  | .hbm, ⟨25, _⟩ => ⟨S_, .i32⟩
  | .hbm, ⟨26, _⟩ => ⟨S1024, .i32⟩
  | .hbm, ⟨27, _⟩ => ⟨S1024, .i32⟩
  | .hbm, ⟨28, _⟩ => ⟨S1024, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024x1, .i32⟩
  | .hbm, ⟨33, _⟩ => ⟨S1024x1, .i32⟩
  | .hbm, ⟨34, _⟩ => ⟨S1024x2, .i32⟩
  | .hbm, ⟨35, _⟩ => ⟨S1x4096, .f32⟩
  | .hbm, ⟨36, _⟩ => ⟨S_, .bf16⟩
  | .hbm, ⟨37, _⟩ => ⟨S4096x4096, .bf16⟩
  | .hbm, ⟨38, _⟩ => ⟨S1024, .f32⟩
  | .hbm, ⟨39, _⟩ => ⟨S1024, .bf16⟩
  | .hbm, ⟨40, _⟩ => ⟨S_, .i32⟩
  | .hbm, ⟨41, _⟩ => ⟨S1024, .i32⟩
  | .hbm, ⟨42, _⟩ => ⟨S1024, .i1⟩
  | .hbm, ⟨43, _⟩ => ⟨S_, .i32⟩
  | .hbm, ⟨44, _⟩ => ⟨S1024, .i32⟩
  | .hbm, ⟨45, _⟩ => ⟨S1024, .i32⟩
  | .hbm, ⟨46, _⟩ => ⟨S1024, .i32⟩
  | .hbm, ⟨47, _⟩ => ⟨S_, .i32⟩
  | .hbm, ⟨48, _⟩ => ⟨S1024, .i32⟩
  | .hbm, ⟨49, _⟩ => ⟨S1024, .i1⟩
  | .hbm, ⟨50, _⟩ => ⟨S_, .i32⟩
  | .hbm, ⟨51, _⟩ => ⟨S1024, .i32⟩
  | .hbm, ⟨52, _⟩ => ⟨S1024, .i32⟩
  | .hbm, ⟨53, _⟩ => ⟨S1024, .i32⟩
  | .hbm, ⟨54, _⟩ => ⟨S1024x1, .i32⟩
  | .hbm, ⟨55, _⟩ => ⟨S1024x1, .i32⟩
  | .hbm, ⟨56, _⟩ => ⟨S1024x2, .i32⟩
  | .hbm, ⟨57, _⟩ => ⟨S4096x4096, .bf16⟩
  | .hbm, ⟨58, _⟩ => ⟨S1024, .bf16⟩
  | .hbm, ⟨59, _⟩ => ⟨S_, .i32⟩
  | .hbm, ⟨60, _⟩ => ⟨S1024, .i32⟩
  | .hbm, ⟨61, _⟩ => ⟨S1024, .i1⟩
  | .hbm, ⟨62, _⟩ => ⟨S_, .i32⟩
  | .hbm, ⟨63, _⟩ => ⟨S1024, .i32⟩
  | .hbm, ⟨64, _⟩ => ⟨S1024, .i32⟩
  | .hbm, ⟨65, _⟩ => ⟨S1024, .i32⟩
  | .hbm, ⟨66, _⟩ => ⟨S_, .i32⟩
  | .hbm, ⟨67, _⟩ => ⟨S1024, .i32⟩
  | .hbm, ⟨68, _⟩ => ⟨S1024, .i1⟩
  | .hbm, ⟨69, _⟩ => ⟨S_, .i32⟩
  | .hbm, ⟨70, _⟩ => ⟨S1024, .i32⟩
  | .hbm, ⟨71, _⟩ => ⟨S1024, .i32⟩
  | .hbm, ⟨72, _⟩ => ⟨S1024, .i32⟩
  | .hbm, ⟨73, _⟩ => ⟨S1024x1, .i32⟩
  | .hbm, ⟨74, _⟩ => ⟨S1024x1, .i32⟩
  | .hbm, ⟨75, _⟩ => ⟨S1024x2, .i32⟩
  | .hbm, ⟨76, _⟩ => ⟨S4096x4096, .bf16⟩
  | .hbm, ⟨77, _⟩ => ⟨S16384x4096, .f32⟩
  | .hbm, ⟨78, _⟩ => ⟨S16384x4096, .f32⟩
  | .hbm, ⟨79, _⟩ => ⟨S4x4096x4096, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_c_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_10 : Ref sig .tc := ⟨.hbm, 59, rfl⟩
abbrev main_v43 : Ref sig .tc := ⟨.hbm, 60, rfl⟩
abbrev main_v44 : Ref sig .tc := ⟨.hbm, 61, rfl⟩
abbrev main_c_11 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_12 : Ref sig .tc := ⟨.hbm, 66, rfl⟩
abbrev main_v48 : Ref sig .tc := ⟨.hbm, 67, rfl⟩
abbrev main_v49 : Ref sig .tc := ⟨.hbm, 68, rfl⟩
abbrev main_c_13 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![32, 2, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bcast_S_S1x4096 : S_.BroadcastsInDim S1x4096 (![] : Fin 0 → Fin S1x4096.rank)
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  bcast_S_S4096x4096 : S_.BroadcastsInDim S4096x4096 (![] : Fin 0 → Fin S4096x4096.rank)
  bitsLt_bf16_f32 : FTy.bits .bf16 < FTy.bits .f32
  shapeCasts_S4x4096x4096_S16384x4096 : S4x4096x4096.ShapeCasts S16384x4096
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S16384x4096_S4x4096x4096 : S16384x4096.ShapeCasts S4x4096x4096
  scatter_S1x4096_S1024x2_S1024_n_01_01_1_wf : ScatterDims.WF S1x4096 S1024x2 S1024 [] [0, 1] [0, 1] 1
  scatter_S4096x4096_S1024x2_S1024_n_01_01_1_wf : ScatterDims.WF S4096x4096 S1024x2 S1024 [] [0, 1] [0, 1] 1
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x4096.size a
  hwx0_0 : ∀ i : grid0.Coords, EltTy.bits .f32 = 32 ∨ (Rect.block (s := S16384x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .bf16 = 32 ∨ (Rect.block (s := S4096x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S16384x4096.size a
  hwx0_2 : ∀ i : grid0.Coords, EltTy.bits .f32 = 32 ∨ (Rect.block (s := S16384x4096) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x4096.size a
  hwx0_3 : ∀ i : grid0.Coords, EltTy.bits .f32 = 32 ∨ (Rect.block (s := S1x4096) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S16384x4096.size a
  hwx0_4 : ∀ i : grid0.Coords, EltTy.bits .f32 = 32 ∨ (Rect.block (s := S16384x4096) S512x2048.size (cc0_transform_4 i) (hinb0_4 i)).WholeWords (EltTy.packing .f32)

variable [Facts₀]

def scatter_S1x4096_S1024x2_S1024_n_01_01_1 : ScatterDims S1x4096 S1024x2 S1024 where
  updateWindowDims := []
  insertedWindowDims := [0, 1]
  scatterDimsToOperandDims := [0, 1]
  indexVectorDim := 1
  wf := scatter_S1x4096_S1024x2_S1024_n_01_01_1_wf
def scatter_S4096x4096_S1024x2_S1024_n_01_01_1 : ScatterDims S4096x4096 S1024x2 S1024 where
  updateWindowDims := []
  insertedWindowDims := [0, 1]
  scatterDimsToOperandDims := [0, 1]
  indexVectorDim := 1
  wf := scatter_S4096x4096_S1024x2_S1024_n_01_01_1_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_v57) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v56) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v57) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v58) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S1024 : Shape := ⟨1, ![1024]⟩
abbrev S_ : Shape := ⟨0, ![]⟩
abbrev S1024x1 : Shape := ⟨2, ![1024, 1]⟩
abbrev S4x4096x1024 : Shape := ⟨3, ![4, 4096, 1024]⟩
abbrev S1x1x1024 : Shape := ⟨3, ![1, 1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S1024, .f32⟩
  | .hbm, ⟨2, _⟩ => ⟨S1024, .i32⟩
  | .hbm, ⟨3, _⟩ => ⟨S1024, .i32⟩
  | .hbm, ⟨4, _⟩ => ⟨S1024, .f32⟩
  | .hbm, ⟨5, _⟩ => ⟨S1024, .f32⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S1024x1, .i32⟩
  | .hbm, ⟨14, _⟩ => ⟨S4x4096x1024, .f32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024, .i32⟩
  | .hbm, ⟨22, _⟩ => ⟨S1024x1, .i32⟩
  | .hbm, ⟨23, _⟩ => ⟨S4x4096x1024, .f32⟩
  | .hbm, ⟨24, _⟩ => ⟨S1x1x1024, .f32⟩
  | .hbm, ⟨25, _⟩ => ⟨S4x4096x1024, .f32⟩
  | .hbm, ⟨26, _⟩ => ⟨S4x4096x1024, .f32⟩
  | .hbm, ⟨27, _⟩ => ⟨S1x1x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S_, .i32⟩
  | .hbm, ⟨32, _⟩ => ⟨S1024, .i32⟩
  | .hbm, ⟨33, _⟩ => ⟨S1024, .i1⟩
  | .hbm, ⟨34, _⟩ => ⟨S_, .i32⟩
  | .hbm, ⟨35, _⟩ => ⟨S1024, .i32⟩
  | .hbm, ⟨36, _⟩ => ⟨S1024, .i32⟩
  | .hbm, ⟨37, _⟩ => ⟨S1024, .i32⟩
  | .hbm, ⟨38, _⟩ => ⟨S1024x1, .i32⟩
  | .hbm, ⟨39, _⟩ => ⟨S4x4096x4096, .f32⟩
  | .hbm, ⟨40, _⟩ => ⟨S1x1x1024, .f32⟩
  | .hbm, ⟨41, _⟩ => ⟨S4x4096x1024, .f32⟩
  | .hbm, ⟨42, _⟩ => ⟨S4x4096x1024, .f32⟩
  | .hbm, ⟨43, _⟩ => ⟨S1x1x1024, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | .hbm, ⟨47, _⟩ => ⟨S_, .i32⟩
  | .hbm, ⟨48, _⟩ => ⟨S1024, .i32⟩
  | .hbm, ⟨49, _⟩ => ⟨S1024, .i1⟩
  | .hbm, ⟨50, _⟩ => ⟨S_, .i32⟩
  | .hbm, ⟨51, _⟩ => ⟨S1024, .i32⟩
  | .hbm, ⟨52, _⟩ => ⟨S1024, .i32⟩
  | .hbm, ⟨53, _⟩ => ⟨S1024, .i32⟩
  | .hbm, ⟨54, _⟩ => ⟨S1024x1, .i32⟩
  | .hbm, ⟨55, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_3 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_5 : Ref sig .tc := ⟨.hbm, 47, rfl⟩
abbrev main_v37 : Ref sig .tc := ⟨.hbm, 48, rfl⟩
abbrev main_v38 : Ref sig .tc := ⟨.hbm, 49, rfl⟩
abbrev main_c_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  gather_S4x4096x4096_S1024x1_S4x4096x1024_01_2_n_n_2_1_440961_wf : GatherDims.WF S4x4096x4096 S1024x1 S4x4096x1024 [0, 1] [2] [] [2] [] 1 ![4, 4096, 1]
  scatter_S4x4096x4096_S1024x1_S4x4096x1024_01_2_2_1_wf : ScatterDims.WF S4x4096x4096 S1024x1 S4x4096x1024 [0, 1] [2] [2] 1

variable [Facts₀]

def gather_S4x4096x4096_S1024x1_S4x4096x1024_01_2_n_n_2_1_440961 : GatherDims S4x4096x4096 S1024x1 S4x4096x1024 where
  offsetDims := [0, 1]
  collapsedSliceDims := [2]
  operandBatchingDims := []
  startIndicesBatchingDims := []
  startIndexMap := [2]
  indexVectorDim := 1
  sliceSizes := ![4, 4096, 1]
  wf := gather_S4x4096x4096_S1024x1_S4x4096x1024_01_2_n_n_2_1_440961_wf
def scatter_S4x4096x4096_S1024x1_S4x4096x1024_01_2_2_1 : ScatterDims S4x4096x4096 S1024x1 S4x4096x1024 where
  updateWindowDims := [0, 1]
  insertedWindowDims := [2]
  scatterDimsToOperandDims := [2]
  indexVectorDim := 1
  wf := scatter_S4x4096x4096_S1024x1_S4x4096x1024_01_2_2_1_wf

class Facts : Prop extends Facts₀ where

variable [Facts]
-- ==== Proof.KDat.lean ====
/-
  The proof data of the one pipeline: what each staging buffer and the accumulator hold after the body at every grid
  point, as pure functions of the blocks the pipeline stages.

  The grid is 32 × 2 × 4, the last axis innermost: point t has k = t mod 4. At k = 0 the body resets the accumulator to
  zero; at every point it adds to it the product of the current 512 × 1024 block of the flattened input (narrowed to bf16)
  with the current 1024 × 2048 block of the sparse matrix; at k = 3 it stores into the output block the 512 × 2048 block of
  the input times the broadcast 1 × 2048 block of the diagonal scale, plus the accumulator. So the accumulator after point t
  is the sum of the products over the points of t's group of four up to t, and the output block written back at k = 3 is
  the whole row-block of  x · diag(c) + x · S.
-/
import proofs.«429250_j63041529970723_3_alg».proof.Proof.Gen.KernelIdeal.Launch
import proofs.«429250_j63041529970723_3_alg».proof.Proof.Gen.KernelIdeal.Skeleton
import proofs.«429250_j63041529970723_3_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: the launch contents after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four input blocks at a point, at their literal types: the matrix product's left block, the sparse matrix's block,
    the block of the input the diagonal term multiplies, and the block of the diagonal scale. -/
abbrev xa (c : Dev nD) (t : Fin cfg0.N) : Vec F S512x1024 .f32 := iblk m c 0 t
abbrev sb (c : Dev nD) (t : Fin cfg0.N) : Vec F S1024x2048 .bf16 := iblk m c 1 t
abbrev xe (c : Dev nD) (t : Fin cfg0.N) : Vec F S512x2048 .f32 := iblk m c 2 t
abbrev cb (c : Dev nD) (t : Fin cfg0.N) : Vec F S1x2048 .f32 := iblk m c 3 t

/-! ## The accumulator and the output, point by point -/

/-- The accumulator after the body at position `n`: at the first point of a group of four the product added to zero,
    afterwards added to what the point before left. -/
def accAt (c : Dev nD) : (n : ℕ) → n < cfg0.N → Vec F S512x2048 .f32
  | 0, hn => k0_pay2 (xa m c ⟨0, hn⟩) (k0_pay1 (F := F)) (sb m c ⟨0, hn⟩)
  | n + 1, hn =>
    if (n + 1) % 4 = 0 then k0_pay2 (xa m c ⟨n + 1, hn⟩) (k0_pay1 (F := F)) (sb m c ⟨n + 1, hn⟩)
    else k0_pay2 (xa m c ⟨n + 1, hn⟩) (accAt c n (Nat.lt_of_succ_lt hn)) (sb m c ⟨n + 1, hn⟩)

/-- What the body stores into the output block at a point where it stores (k = 3): the diagonal term plus the accumulator. -/
def outAt (c : Dev nD) (t : Fin cfg0.N) : Vec F S512x2048 .f32 :=
  k0_pay3 (xe m c t) (cb m c t) (accAt m c t.val t.isLt)

/-- The accumulator after a point that opens a group of four. -/
theorem accAt_first (c : Dev nD) (t : Fin cfg0.N) (h : t.val % 4 = 0) :
    accAt m c t.val t.isLt = k0_pay2 (xa m c t) (k0_pay1 (F := F)) (sb m c t) := by
  obtain ⟨n, hn⟩ := t
  cases n with
  | zero => rfl
  | succ n => exact (if_pos h).trans rfl

/-- The accumulator after any other point: the product added to what the point before left. -/
theorem accAt_next (c : Dev nD) (t : Fin cfg0.N) (h : ¬ t.val % 4 = 0) :
    accAt m c t.val t.isLt = k0_pay2 (xa m c t) (accAt m c (t.val - 1) (Nat.lt_of_le_of_lt (Nat.sub_le _ _) t.isLt)) (sb m c t) := by
  obtain ⟨n, hn⟩ := t
  cases n with
  | zero => exact absurd (Nat.zero_mod _) h
  | succ n => exact (if_neg h).trans rfl

/-! ## The invariant: the accumulator between points -/

/-- The scratch accumulator, a whole scoped buffer of the kernel's own. -/
abbrev scM : Memref sig .tc .vmem S512x2048 .f32 := Memref.whole cc0_scratch0

/-- The region invariant before position `n`: before the first point the scoped rest at anything and the generator
    register; afterwards the accumulator at what the point before left, and the generator register. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- The proof data on core `c`: the arrays as the region finds them; after the body every input's buffer at its block and
    the output's at `outAt`; the invariant `PhiS`; nothing owed. The flattened input is one array behind two windows
    (the product's and the diagonal term's): each holds one half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := match w with
    | ⟨0, _⟩ => fullShare.left
    | ⟨1, _⟩ => fullShare
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

end Cert.KernelIdeal.Hand

end
-- ==== Proof.KBody.lean ====
/-
  The kernel body at one grid point, over arbitrary whole staging memrefs and arbitrary contents.

  The body keeps a running sum in a scratch accumulator along the last grid axis (four points):
  at the axis' first point it resets the accumulator to the zero block; at every point it adds to the
  accumulator the matrix product of the left block, truncated to bf16, with the right block; at the
  axis' last point it writes the output block as the bias block times the broadcast scale row plus the
  accumulator. The two guards are never true together, so there are three cases; each lemma states what
  the body leaves in every buffer it is handed in that case, through the payload functions
  (`k0_pay1`: the zero block; `k0_pay2 x acc y = acc + truncf x · y`; `k0_pay3 b s acc = b * broadcast s + acc`).
-/
import proofs.«429250_j63041529970723_3_alg».proof.Proof.Gen.KernelIdeal.Skeleton
import proofs.«429250_j63041529970723_3_alg».proof.Proof.Gen.KernelIdeal.Launch
import proofs.«429250_j63041529970723_3_alg».proof.Proof.Gen.KernelIdeal.Points
import Idealize.ShloMosaic.Lib.Tactic
import Idealize.ShloMosaic.Lib.Pipeline.Value

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's guard at grid point `i`: the last coordinate is zero. -/
abbrev c1 (i : grid0.Coords) : Prop :=
  Scalar.cmpi .ne (Scalar.extui (Scalar.cmpi .eq (BitVec.ofNat 32 (i 2).val) 0#32)) 0#32 = 1#1

variable (c : Dev nD) (i : grid0.Coords)
variable (M3 : Memref sig .tc .vmem S512x1024 .f32) (h3 : M3.IsWhole)
variable (M4 : Memref sig .tc .vmem S1024x2048 .bf16) (h4 : M4.IsWhole)
variable (M5 : Memref sig .tc .vmem S512x2048 .f32) (h5 : M5.IsWhole)
variable (M6 : Memref sig .tc .vmem S1x2048 .f32) (h6 : M6.IsWhole)
variable (M7 : Memref sig .tc .vmem S512x2048 .f32) (h7 : M7.IsWhole)
variable (M8 : Memref sig .tc .vmem S512x2048 .f32) (h8 : M8.IsWhole)

/-- The zero offsets of a rank-two rectangle, as the constant function. -/
theorem hz2 : (![0, 0] : Fin 2 → Nat) = fun _ => 0 := by
  funext a; fin_cases a <;> rfl

section Whole

variable {sg : RefSig} {κ : Kind} {sp : Space} {S : Shape} {e : EltTy} {Val : EltTy → Type}

/-- A load through the rectangle of the whole shape at zero offsets reads the contents. -/
theorem readAt_whole (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

/-- After one store through that rectangle the contents read as the payload. -/
theorem read_store_whole [∀ e, Nonempty (Val e)] (v : View sg κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h]

/-- After two stores through that rectangle the contents read as the later payload. -/
theorem read_store_whole₂ [∀ e, Nonempty (Val e)] (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

end Whole

/-- A point that neither resets the accumulator nor writes the output: the accumulator gains the
    product of the truncated left block with the right block; every other buffer is left as it was. -/
theorem run_mid (hc1 : ¬ c1 i) (hc2 : ¬ k0_cond2 i = 1#1)
    (x3 : Vec F S512x1024 .f32) (x4 : Vec F S1024x2048 .bf16) (x5 : Vec F S512x2048 .f32) (x6 : Vec F S1x2048 .f32)
    (o7 s8 : Vec F S512x2048 .f32) (E : Set ℕ) (Q : PUnit → sProp 𝕄) :
    iprop(owns (c : Thread nD τ) M3 fullShare x3 ∗ owns (c : Thread nD τ) M4 fullShare x4 ∗ owns (c : Thread nD τ) M5 fullShare x5
          ∗ owns (c : Thread nD τ) M6 fullShare x6 ∗ owns (c : Thread nD τ) M7 fullShare o7 ∗ owns (c : Thread nD τ) M8 fullShare s8
          ∗ (iprop(owns (c : Thread nD τ) M3 fullShare x3 ∗ owns (c : Thread nD τ) M4 fullShare x4 ∗ owns (c : Thread nD τ) M5 fullShare x5
                ∗ owns (c : Thread nD τ) M6 fullShare x6 ∗ owns (c : Thread nD τ) M7 fullShare o7
                ∗ owns (c : Thread nD τ) M8 fullShare (k0_pay2 x3 s8 x4)) -∗ Q ⟨⟩))
      ⊢ wp frame (wpE (defs₀ (F := F)) Variants.none c none) E (cc0__rotate_kernel i M3 h3 M4 h4 M5 h5 M6 h6 M7 h7 M8 h8) Q := by
  unfold owns
  iintro ⟨⟨%f3, %e3, H3⟩, ⟨%f4, %e4, H4⟩, H5, H6, H7, ⟨%f8, %e8, H8⟩, Hk⟩
  sl_unfold [cc0__rotate_kernel]
  sl_exec (disch := first | exact hc1 | exact hc2)
  sl_step
  iapply Hk
  isplitl [H3]
  · iexists f3; isplitr; · ipureintro; exact e3
    iexact H3
  isplitl [H4]
  · iexists f4; isplitr; · ipureintro; exact e4
    iexact H4
  isplitl [H5]; · iexact H5
  isplitl [H6]; · iexact H6
  isplitl [H7]; · iexact H7
  iexists _; isplitr
  swap; · iexact H8
  ipureintro
  refine (read_store_whole (Val := Elt F) M8.view f8 hz2 _ _).trans ?_
  rw [readAt_whole M3.view f3 hz2, readAt_whole M8.view f8 hz2, readAt_whole M4.view f4 hz2, e3, e4, e8]

/-- The axis' first point: the accumulator is reset to the zero block, then gains the product; what it
    held before is irrelevant. Every other buffer is left as it was. -/
theorem run_first (hc1 : c1 i) (hc2 : ¬ k0_cond2 i = 1#1)
    (x3 : Vec F S512x1024 .f32) (x4 : Vec F S1024x2048 .bf16) (x5 : Vec F S512x2048 .f32) (x6 : Vec F S1x2048 .f32)
    (o7 s8 : Vec F S512x2048 .f32) (E : Set ℕ) (Q : PUnit → sProp 𝕄) :
    iprop(owns (c : Thread nD τ) M3 fullShare x3 ∗ owns (c : Thread nD τ) M4 fullShare x4 ∗ owns (c : Thread nD τ) M5 fullShare x5
          ∗ owns (c : Thread nD τ) M6 fullShare x6 ∗ owns (c : Thread nD τ) M7 fullShare o7 ∗ owns (c : Thread nD τ) M8 fullShare s8
          ∗ (iprop(owns (c : Thread nD τ) M3 fullShare x3 ∗ owns (c : Thread nD τ) M4 fullShare x4 ∗ owns (c : Thread nD τ) M5 fullShare x5
                ∗ owns (c : Thread nD τ) M6 fullShare x6 ∗ owns (c : Thread nD τ) M7 fullShare o7
                ∗ owns (c : Thread nD τ) M8 fullShare (k0_pay2 x3 (k0_pay1 (F := F)) x4)) -∗ Q ⟨⟩))
      ⊢ wp frame (wpE (defs₀ (F := F)) Variants.none c none) E (cc0__rotate_kernel i M3 h3 M4 h4 M5 h5 M6 h6 M7 h7 M8 h8) Q := by
  unfold owns
  iintro ⟨⟨%f3, %e3, H3⟩, ⟨%f4, %e4, H4⟩, H5, H6, H7, ⟨%f8, %e8, H8⟩, Hk⟩
  sl_unfold [cc0__rotate_kernel]
  sl_exec (disch := first | exact hc1 | exact hc2)
  sl_step
  iapply Hk
  isplitl [H3]
  · iexists f3; isplitr; · ipureintro; exact e3
    iexact H3
  isplitl [H4]
  · iexists f4; isplitr; · ipureintro; exact e4
    iexact H4
  isplitl [H5]; · iexact H5
  isplitl [H6]; · iexact H6
  isplitl [H7]; · iexact H7
  iexists _; isplitr
  swap; · iexact H8
  ipureintro
  refine (read_store_whole₂ (Val := Elt F) M8.view f8 hz2 _ _ _).trans ?_
  rw [readAt_whole M3.view f3 hz2, readAt_whole M4.view f4 hz2, e3, e4]
  sl_unfold_run_names
  rw [View.readCov_unit_zero (S := S512x2048) M8.view hz2]

/-- The axis' last point: the accumulator gains the product, and the output block is written as the bias
    block times the broadcast scale row plus the new accumulator; what the output held before is
    irrelevant. The inputs are left as they were. -/
theorem run_last (hc1 : ¬ c1 i) (hc2 : k0_cond2 i = 1#1)
    (x3 : Vec F S512x1024 .f32) (x4 : Vec F S1024x2048 .bf16) (x5 : Vec F S512x2048 .f32) (x6 : Vec F S1x2048 .f32)
    (o7 s8 : Vec F S512x2048 .f32) (E : Set ℕ) (Q : PUnit → sProp 𝕄) :
    iprop(owns (c : Thread nD τ) M3 fullShare x3 ∗ owns (c : Thread nD τ) M4 fullShare x4 ∗ owns (c : Thread nD τ) M5 fullShare x5
          ∗ owns (c : Thread nD τ) M6 fullShare x6 ∗ owns (c : Thread nD τ) M7 fullShare o7 ∗ owns (c : Thread nD τ) M8 fullShare s8
          ∗ (iprop(owns (c : Thread nD τ) M3 fullShare x3 ∗ owns (c : Thread nD τ) M4 fullShare x4 ∗ owns (c : Thread nD τ) M5 fullShare x5
                ∗ owns (c : Thread nD τ) M6 fullShare x6 ∗ owns (c : Thread nD τ) M7 fullShare (k0_pay3 x5 x6 (k0_pay2 x3 s8 x4))
                ∗ owns (c : Thread nD τ) M8 fullShare (k0_pay2 x3 s8 x4)) -∗ Q ⟨⟩))
      ⊢ wp frame (wpE (defs₀ (F := F)) Variants.none c none) E (cc0__rotate_kernel i M3 h3 M4 h4 M5 h5 M6 h6 M7 h7 M8 h8) Q := by
  unfold owns
  iintro ⟨⟨%f3, %e3, H3⟩, ⟨%f4, %e4, H4⟩, ⟨%f5, %e5, H5⟩, ⟨%f6, %e6, H6⟩, ⟨%f7, %e7, H7⟩, ⟨%f8, %e8, H8⟩, Hk⟩
  sl_unfold [cc0__rotate_kernel]
  sl_exec (disch := first | exact hc1 | exact hc2)
  sl_step
  iapply Hk
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists _; isplitr
    swap; · iexact H7
    ipureintro
    refine (read_store_whole (Val := Elt F) M7.view f7 hz2 _ _).trans ?_
    rw [readAt_whole M5.view f5 hz2, readAt_whole M6.view f6 hz2, e5, e6]
    sl_unfold_run_names
    rw [View.readCov_unit_zero (S := S512x2048) M8.view hz2, readAt_whole M3.view f3 hz2, readAt_whole M8.view f8 hz2,
      readAt_whole M4.view f4 hz2, e3, e4, e8]
  iexists _; isplitr
  swap; · iexact H8
  ipureintro
  sl_unfold_run_names
  refine (read_store_whole (Val := Elt F) M8.view f8 hz2 _ _).trans ?_
  rw [readAt_whole M3.view f3 hz2, readAt_whole M8.view f8 hz2, readAt_whole M4.view f4 hz2, e3, e4, e8]

end Cert.KernelIdeal.Hand

end
-- ==== Proof.KObl.lean ====
/-
  The body obligation of the pipeline's proof data: at every grid point, from the invariant and every window's current
  staging buffer at what it then holds, the kernel body runs to the invariant at the next point and every buffer at what
  the proof data says the body leaves.

  The point's position k = t mod 4 along the innermost grid axis selects one of three courses of the body: k = 0 resets the
  accumulator before adding the block product to it; k = 1, 2 only add; k = 3 adds and then stores the output block. The
  two windows of the diagonal term are fetched only at k = 0 and keep their blocks through the group of four, because their
  block indices do not depend on k; the output window is idle except at k = 3, where its block is written back.
-/
import proofs.«429250_j63041529970723_3_alg».proof.Proof.KDat
import proofs.«429250_j63041529970723_3_alg».proof.Proof.KBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions of the body in closed form -/

/-- The body resets the accumulator exactly at the points that open a group of four. -/
theorem c1_iff : ∀ t : Fin cfg0.N, c1 (grid0.coords t) ↔ t.val % 4 = 0 :=
  (by decide +kernel : ∀ t : Fin grid0.N, c1 (grid0.coords t) ↔ t.val % 4 = 0)

/-- The body stores the output block exactly at the points that close a group of four. -/
theorem c2_iff : ∀ t : Fin cfg0.N, k0_cond2 (grid0.coords t) = 1#1 ↔ t.val % 4 = 3 :=
  (by decide +kernel : ∀ t : Fin grid0.N, k0_cond2 (grid0.coords t) = 1#1 ↔ t.val % 4 = 3)

/-! ## Where the windows are idle and where the output is written back -/

/-- The four input windows are never idle. -/
theorem live_0 : ∀ i : grid0.Coords, cfg0.idle 0 i = false := fun _ => rfl
theorem live_1 : ∀ i : grid0.Coords, cfg0.idle 1 i = false := fun _ => rfl
theorem live_2 : ∀ i : grid0.Coords, cfg0.idle 2 i = false := fun _ => rfl
theorem live_3 : ∀ i : grid0.Coords, cfg0.idle 3 i = false := fun _ => rfl

/-- The output window is idle at every point that does not close a group of four, -/
theorem idle_4 : ∀ t : Fin cfg0.N, ¬ t.val % 4 = 3 → cfg0.idle 4 (grid0.coords t) = true :=
  (by decide +kernel : ∀ t : Fin grid0.N, ¬ t.val % 4 = 3 → cfg0.idle 4 (grid0.coords t) = true)
/-- is not written back there, -/
theorem noflush_4 : ∀ t : Fin cfg0.N, ¬ t.val % 4 = 3 → (cfg0.win 4).flush t = false :=
  (by decide +kernel : ∀ t : Fin grid0.N, ¬ t.val % 4 = 3 → win0_4.flush t = false)
/-- and is live at the points that do. -/
theorem live_4 : ∀ t : Fin cfg0.N, t.val % 4 = 3 → cfg0.idle 4 (grid0.coords t) = false :=
  (by decide +kernel : ∀ t : Fin grid0.N, t.val % 4 = 3 → cfg0.idle 4 (grid0.coords t) = false)

/-! ## What the inputs' staging buffers hold when the body runs -/

/-- The product's left block is in its buffer at every point. -/
theorem before_0 (c : Dev nD) (t : Fin cfg0.N) (d : (cfg0.win 0).block.Idx → Elt F (cfg0.win 0).elt) :
    (dats m 0 c).before 0 t d = iblk m c 0 t := by
  have hk : ∀ s, (cfg0.win 0).cut (cfg0.grid.coords s) ((dats m 0 c).after 0 s) = (dats m 0 c).blockOf 0 s := fun s => by
    rw [after0_0]; unfold Dat.blockOf iblk; rw [A_eq]
  rw [(dats m 0 c).before_in_eq_fetched 0 rfl live_0 (fun _ _ _ => rfl) hk t d]
  unfold Dat.fetched Dat.blockOf iblk; rw [A_eq]; rfl

/-- The sparse matrix's block is in its buffer at every point. -/
theorem before_1 (c : Dev nD) (t : Fin cfg0.N) (d : (cfg0.win 1).block.Idx → Elt F (cfg0.win 1).elt) :
    (dats m 0 c).before 1 t d = iblk m c 1 t := by
  have hk : ∀ s, (cfg0.win 1).cut (cfg0.grid.coords s) ((dats m 0 c).after 1 s) = (dats m 0 c).blockOf 1 s := fun s => by
    rw [after0_1]; unfold Dat.blockOf iblk; rw [A_eq]
  rw [(dats m 0 c).before_in_eq_fetched 1 rfl live_1 (fun _ _ _ => rfl) hk t d]
  unfold Dat.fetched Dat.blockOf iblk; rw [A_eq]; rfl

/-- The diagonal term's input block is fetched only when a group of four opens; its index does not depend on the position
    in the group, so the buffer holds the point's block at the other three points too. -/
theorem before_2 (c : Dev nD) (t : Fin cfg0.N) (d : (cfg0.win 2).block.Idx → Elt F (cfg0.win 2).elt) :
    (dats m 0 c).before 2 t d = iblk m c 2 t := by
  have hk : ∀ s, (cfg0.win 2).cut (cfg0.grid.coords s) ((dats m 0 c).after 2 s) = (dats m 0 c).blockOf 2 s := fun s => by
    rw [after0_2]; unfold Dat.blockOf iblk; rw [A_eq]
  rw [(dats m 0 c).before_in_eq_fetched 2 rfl live_2 (fun _ _ _ => rfl) hk t d]
  unfold Dat.fetched Dat.blockOf iblk; rw [A_eq]; rfl

/-- The same for the block of the diagonal scale. -/
theorem before_3 (c : Dev nD) (t : Fin cfg0.N) (d : (cfg0.win 3).block.Idx → Elt F (cfg0.win 3).elt) :
    (dats m 0 c).before 3 t d = iblk m c 3 t := by
  have hk : ∀ s, (cfg0.win 3).cut (cfg0.grid.coords s) ((dats m 0 c).after 3 s) = (dats m 0 c).blockOf 3 s := fun s => by
    rw [after0_3]; unfold Dat.blockOf iblk; rw [A_eq]
  rw [(dats m 0 c).before_in_eq_fetched 3 rfl live_3 (fun _ _ _ => rfl) hk t d]
  unfold Dat.fetched Dat.blockOf iblk; rw [A_eq]; rfl

/-! ## The invariant at a point's two ends -/

/-- What the launch hands the region, with the accumulator as a memref owned at some contents. -/
theorem PhiA_eq (c : Dev nD) :
    (Pipeline.ΦA spec0 c : sProp 𝕄) = iprop(iprop(∃ d, owns (c : Thread nD τ) scM fullShare d) ∗ (∃ r, prngReg c r)) := by
  unfold Pipeline.ΦA; rw [scopedRest0_eq]; simp only [scM, owns_whole]; rfl

/-- The invariant as a point finds it, at the point's position. -/
theorem Phi_castSucc (c : Dev nD) (t : Fin cfg0.N) :
    (dats m 0 c).Φ t.castSucc = PhiS m c t.val (Nat.le_of_lt t.isLt) := by
  dsimp only [dats]; simp only [Fin.coe_castSucc]

/-- The invariant as a point leaves it: the accumulator at what the point left. -/
theorem Phi_succ (c : Dev nD) (t : Fin cfg0.N) :
    (dats m 0 c).Φ t.succ = iprop(iprop(owns (c : Thread nD τ) scM fullShare (accAt m c t.val t.isLt)) ∗ (∃ r, prngReg c r)) := rfl

/-! ## The body at a point -/

/-- The staging buffer each window is on at a point, at its literal type, and that it is a whole buffer. -/
abbrev ms_0 (t : Fin cfg0.N) : Memref sig .tc .vmem S512x1024 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1024x2048 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x2048 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x2048 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S512x2048 .f32 := win0_4.stage (cfg0.slots t 4)
abbrev hs_4 (t : Fin cfg0.N) : (ms_4 t).IsWhole := hstage0_4 ((cfg0.slots t 4).cast nbuf0_4)

/-- What the body is called with at a point: the invariant, what the core owes, and each window's current buffer at what
    it then holds. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d)))

/-- What it must return: the invariant at the next point, the same debt, and each buffer at what the proof data says the
    body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- An input window, never idle, is left at its block. -/
theorem leaves_0 (c : Dev nD) (t : Fin cfg0.N) :
    (dats m 0 c).leavesExact 0 t = owns (c : Thread nD τ) (ms_0 t) fullShare (xa m c t) := by
  unfold Dat.leavesExact; rw [live_0, after0_0]
theorem leaves_1 (c : Dev nD) (t : Fin cfg0.N) :
    (dats m 0 c).leavesExact 1 t = owns (c : Thread nD τ) (ms_1 t) fullShare (sb m c t) := by
  unfold Dat.leavesExact; rw [live_1, after0_1]
theorem leaves_2 (c : Dev nD) (t : Fin cfg0.N) :
    (dats m 0 c).leavesExact 2 t = owns (c : Thread nD τ) (ms_2 t) fullShare (xe m c t) := by
  unfold Dat.leavesExact; rw [live_2, after0_2]
theorem leaves_3 (c : Dev nD) (t : Fin cfg0.N) :
    (dats m 0 c).leavesExact 3 t = owns (c : Thread nD τ) (ms_3 t) fullShare (cb m c t) := by
  unfold Dat.leavesExact; rw [live_3, after0_3]

/-- The output window, where the body does not store, is handed back as it was found; -/
theorem leaves_4_idle (c : Dev nD) (t : Fin cfg0.N) (h : ¬ t.val % 4 = 3) :
    (dats m 0 c).leavesExact 4 t = iprop(∃ d, owns (c : Thread nD τ) (ms_4 t) fullShare ((dats m 0 c).before 4 t d)) :=
  Dat.leavesExact_idle (dats m 0 c) 4 t (idle_4 t h) (noflush_4 t h)
/-- where it stores, at the diagonal term plus the accumulator. -/
theorem leaves_4_live (c : Dev nD) (t : Fin cfg0.N) (h : t.val % 4 = 3) :
    (dats m 0 c).leavesExact 4 t = owns (c : Thread nD τ) (ms_4 t) fullShare (outAt m c t) := by
  unfold Dat.leavesExact; rw [live_4 t h, after0_4]

/-- Before a point that opens a group of four the invariant holds the accumulator at something: what the launch left
    there at the very first point, what the group before accumulated afterwards. Either is overwritten. -/
theorem Phi_any (c : Dev nD) (t : Fin cfg0.N) :
    (dats m 0 c).Φ t.castSucc ⊢ iprop(iprop(∃ s, owns (c : Thread nD τ) scM fullShare s) ∗ (∃ r, prngReg c r)) := by
  rw [Phi_castSucc]
  by_cases hz : t.val = 0
  · rw [PhiS_zero m c _ _ hz, PhiA_eq]
  · rw [PhiS_pos m c _ _ hz]
    iintro ⟨Hacc, Hg⟩
    isplitl [Hacc]
    · iexists _; iexact Hacc
    iexact Hg

set_option maxHeartbeats 1600000 in
/-- A point that opens a group of four: the accumulator is reset and receives the first product; the output block is not
    touched. -/
theorem pt_first (c : Dev nD) (t : Fin cfg0.N) (h0 : t.val % 4 = 0) :
    bodyPre m c t ⊢ wp frame (wpE (defs₀ (F := F)) Variants.none c none) Set.univ (bodyAt0 t) (fun _ => bodyPost m c t) := by
  have h3 : ¬ t.val % 4 = 3 := by omega
  unfold bodyPre bodyPost bodyAt0
  simp only [before_0, before_1, before_2, before_3]
  rw [leaves_0, leaves_1, leaves_2, leaves_3, leaves_4_idle m c t h3]
  rw [show (dats m 0 c).owesAt () t.succ = (dats m 0 c).owesAt () t.castSucc from rfl]
  rw [Phi_succ, accAt_first m c t h0]
  refine BIBase.Entails.trans (sep_mono_left (Phi_any m c t)) ?_
  iintro ⟨⟨⟨%s, Hacc⟩, Hg⟩, Ho, ⟨%d0, H0⟩, ⟨%d1, H1⟩, ⟨%d2, H2⟩, ⟨%d3, H3⟩, ⟨%d4, H4⟩⟩
  iapply (run_first (c := c) (i := grid0.coords t) (M3 := ms_0 t) (h3 := hs_0 t) (M4 := ms_1 t) (h4 := hs_1 t)
    (M5 := ms_2 t) (h5 := hs_2 t) (M6 := ms_3 t) (h6 := hs_3 t) (M7 := ms_4 t) (h7 := hs_4 t) (M8 := scM) (h8 := Memref.isWhole_whole _)
    (hc1 := (c1_iff t).mpr h0) (hc2 := fun h => h3 ((c2_iff t).mp h))
    (x3 := xa m c t) (x4 := sb m c t) (x5 := xe m c t) (x6 := cb m c t) (o7 := (dats m 0 c).before 4 t d4) (s8 := s) (E := Set.univ))
  isplitl [H0]; · iexact H0
  isplitl [H1]; · iexact H1
  isplitl [H2]; · iexact H2
  isplitl [H3]; · iexact H3
  isplitl [H4]; · iexact H4
  isplitl [Hacc]; · iexact Hacc
  iintro ⟨H0, H1, H2, H3, H4, Hacc⟩
  isplitl [Hacc Hg]
  · isplitl [Hacc]; · iexact Hacc
    iexact Hg
  isplitl [Ho]; · iexact Ho
  isplitl [H0]; · iexact H0
  isplitl [H1]; · iexact H1
  isplitl [H2]; · iexact H2
  isplitl [H3]; · iexact H3
  iexists d4; iexact H4

set_option maxHeartbeats 1600000 in
/-- A point inside a group of four: the product is added to what the point before left; the output block is not touched. -/
theorem pt_mid (c : Dev nD) (t : Fin cfg0.N) (h0 : ¬ t.val % 4 = 0) (h3 : ¬ t.val % 4 = 3) :
    bodyPre m c t ⊢ wp frame (wpE (defs₀ (F := F)) Variants.none c none) Set.univ (bodyAt0 t) (fun _ => bodyPost m c t) := by
  have hz : t.val ≠ 0 := fun e => h0 (by rw [e])
  unfold bodyPre bodyPost bodyAt0
  simp only [before_0, before_1, before_2, before_3]
  rw [leaves_0, leaves_1, leaves_2, leaves_3, leaves_4_idle m c t h3]
  rw [show (dats m 0 c).owesAt () t.succ = (dats m 0 c).owesAt () t.castSucc from rfl]
  rw [Phi_succ, accAt_next m c t h0, Phi_castSucc, PhiS_pos m c _ _ hz]
  iintro ⟨⟨Hacc, Hg⟩, Ho, ⟨%d0, H0⟩, ⟨%d1, H1⟩, ⟨%d2, H2⟩, ⟨%d3, H3⟩, ⟨%d4, H4⟩⟩
  iapply (run_mid (c := c) (i := grid0.coords t) (M3 := ms_0 t) (h3 := hs_0 t) (M4 := ms_1 t) (h4 := hs_1 t)
    (M5 := ms_2 t) (h5 := hs_2 t) (M6 := ms_3 t) (h6 := hs_3 t) (M7 := ms_4 t) (h7 := hs_4 t) (M8 := scM) (h8 := Memref.isWhole_whole _)
    (hc1 := fun h => h0 ((c1_iff t).mp h)) (hc2 := fun h => h3 ((c2_iff t).mp h))
    (x3 := xa m c t) (x4 := sb m c t) (x5 := xe m c t) (x6 := cb m c t) (o7 := (dats m 0 c).before 4 t d4)
    (s8 := accAt m c (t.val - 1) (Nat.lt_of_le_of_lt (Nat.sub_le _ _) t.isLt)) (E := Set.univ))
  isplitl [H0]; · iexact H0
  isplitl [H1]; · iexact H1
  isplitl [H2]; · iexact H2
  isplitl [H3]; · iexact H3
  isplitl [H4]; · iexact H4
  isplitl [Hacc]; · iexact Hacc
  iintro ⟨H0, H1, H2, H3, H4, Hacc⟩
  isplitl [Hacc Hg]
  · isplitl [Hacc]; · iexact Hacc
    iexact Hg
  isplitl [Ho]; · iexact Ho
  isplitl [H0]; · iexact H0
  isplitl [H1]; · iexact H1
  isplitl [H2]; · iexact H2
  isplitl [H3]; · iexact H3
  iexists d4; iexact H4

set_option maxHeartbeats 1600000 in
/-- A point that closes a group of four: the last product is added, and the output block receives the diagonal term plus
    the finished sum. -/
theorem pt_last (c : Dev nD) (t : Fin cfg0.N) (h3 : t.val % 4 = 3) :
    bodyPre m c t ⊢ wp frame (wpE (defs₀ (F := F)) Variants.none c none) Set.univ (bodyAt0 t) (fun _ => bodyPost m c t) := by
  have h0 : ¬ t.val % 4 = 0 := by omega
  have hz : t.val ≠ 0 := fun e => h0 (by rw [e])
  unfold bodyPre bodyPost bodyAt0
  simp only [before_0, before_1, before_2, before_3]
  rw [leaves_0, leaves_1, leaves_2, leaves_3, leaves_4_live m c t h3]
  rw [show (dats m 0 c).owesAt () t.succ = (dats m 0 c).owesAt () t.castSucc from rfl]
  unfold outAt
  rw [Phi_succ, accAt_next m c t h0, Phi_castSucc, PhiS_pos m c _ _ hz]
  iintro ⟨⟨Hacc, Hg⟩, Ho, ⟨%d0, H0⟩, ⟨%d1, H1⟩, ⟨%d2, H2⟩, ⟨%d3, H3⟩, ⟨%d4, H4⟩⟩
  iapply (run_last (c := c) (i := grid0.coords t) (M3 := ms_0 t) (h3 := hs_0 t) (M4 := ms_1 t) (h4 := hs_1 t)
    (M5 := ms_2 t) (h5 := hs_2 t) (M6 := ms_3 t) (h6 := hs_3 t) (M7 := ms_4 t) (h7 := hs_4 t) (M8 := scM) (h8 := Memref.isWhole_whole _)
    (hc1 := fun h => h0 ((c1_iff t).mp h)) (hc2 := (c2_iff t).mpr h3)
    (x3 := xa m c t) (x4 := sb m c t) (x5 := xe m c t) (x6 := cb m c t) (o7 := (dats m 0 c).before 4 t d4)
    (s8 := accAt m c (t.val - 1) (Nat.lt_of_le_of_lt (Nat.sub_le _ _) t.isLt)) (E := Set.univ))
  isplitl [H0]; · iexact H0
  isplitl [H1]; · iexact H1
  isplitl [H2]; · iexact H2
  isplitl [H3]; · iexact H3
  isplitl [H4]; · iexact H4
  isplitl [Hacc]; · iexact Hacc
  iintro ⟨H0, H1, H2, H3, H4, Hacc⟩
  isplitl [Hacc Hg]
  · isplitl [Hacc]; · iexact Hacc
    iexact Hg
  isplitl [Ho]; · iexact Ho
  isplitl [H0]; · iexact H0
  isplitl [H1]; · iexact H1
  isplitl [H2]; · iexact H2
  isplitl [H3]; · iexact H3
  iexact H4

/-- The body at any point, by the point's position in its group of four. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact pt_first m c t h0
  · by_cases h3 : t.val % 4 = 3
    · exact pt_last m c t h3
    · exact pt_mid m c t h0 h3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the scoped rest back: the accumulator's contents are forgotten. -/
theorem hout (c : Dev nD) : (dats m 0 c).Φ (Fin.last cfg0.N) ⊢ Pipeline.ΦA spec0 c := by
  have hN : cfg0.N = 256 := N_0
  rw [show (dats m 0 c).Φ (Fin.last cfg0.N) = PhiS m c cfg0.N (Nat.le_refl _) from rfl,
    PhiS_pos m c _ _ (by omega), PhiA_eq]
  iintro ⟨Hacc, Hg⟩
  isplitl [Hacc]
  · iexists _; iexact Hacc
  iexact Hg

end Cert.KernelIdeal.Hand

end
-- ==== Proof.KTail.lean ====
/-
  The line after the pallas_call: the reshape that gives the kernel's 16384 × 4096 result back its three axes.

  When the region is left, the five windows' arrays are at their final contents and every other unscoped buffer is as the
  region found it. The reshape reads the output array and writes one buffer that is no window's array. So its run needs two
  points-tos only: the output array's, taken out of the windows' arrays (it is held whole at the full share, being the
  output), and the result buffer's, taken out of the bypassing buffers. Afterwards both go back, the result buffer at the
  reshaped output. The flattened input, held in two halves by the two windows that read it, is not touched.
-/
import proofs.«429250_j63041529970723_3_alg».proof.Proof.KObl

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The reshape after the region -/

/-- The unscoped buffers that are no window's array: what bypasses the region. -/
def restRefs0 : Finset (Ref sig .tc) :=
  (Finset.univ.filter fun b : Ref sig .tc => ¬ b.isScoped) \ Finset.univ.image (Pipeline.arrRef spec0)

/-- The output array and the reshape's result, as device buffers. -/
abbrev d58 : DevRef τ sig := Proc.devRef .tc main_v58
abbrev d59 : DevRef τ sig := Proc.devRef .tc main_v59

/-- The buffer contents when the reshape runs: the entry contents with the output array at what the write-backs left. -/
def Wt (c : Dev nD) : Valuation τ sig (Elt F) :=
  Function.update (V0 m c) d58 ((dats m 0 c).arrAt 4 cfg0.N)

/-- What the reshape leaves in its result buffer. -/
def res59 (c : Dev nD) : Buf (Elt F) ((c.tc : Thread nD τ).loc main_v59) :=
  StableHlo.after hostOps1 (Wt m c) d59

/-- The bypassing buffers after the reshape: its result buffer at the new contents, every other one as it was. -/
def Zt (c : Dev nD) : sProp 𝕄 :=
  iprop((((c.tc : Thread nD τ).loc main_v59) ↦{fullShare} res59 m c)
    ∗ bigSep (restRefs0.erase main_v59) fun b => (((c.tc : Thread nD τ).loc b) ↦{fullShare} V m c b))

theorem mem59 : main_v59 ∈ (restRefs0 : Finset (Ref sig .tc)) := by decide

theorem Z_split (c : Dev nD) :
    (Pipeline.unscopedRestP (Ix := Unit) (Name := ℕ) (U := UR sig nD τ) (Lvl := ℕ) Pipeline.Prefetch.none spec0 c (V m c) : sProp 𝕄)
      = iprop((((c.tc : Thread nD τ).loc main_v59) ↦{fullShare} V m c main_v59)
          ∗ bigSep (restRefs0.erase main_v59) fun b => (((c.tc : Thread nD τ).loc b) ↦{fullShare} V m c b)) := by
  rw [Pipeline.unscopedRestP_none]
  unfold Pipeline.unscopedRest
  exact bigSep_erase mem59

/-- The output array's points-to apart from the four input windows' (its share is the full one: it is the output). -/
theorem arrays_split4 (c : Dev nD) (G : (w : Fin cfg0.W) → Buf (Elt F) ((cfg0.win w).arr.view.loc (c.tc : Thread nD τ))) :
    ((dats m 0 c).arrays G : sProp 𝕄)
      = iprop((((c.tc : Thread nD τ).loc main_v58) ↦{fullShare} G 4)
          ∗ bigSep ((Finset.univ : Finset (Fin cfg0.W)).erase 4) fun w =>
              (((cfg0.win w).arr.view.loc (c.tc : Thread nD τ)) ↦[(cfg0.win w).arr.view.set]{(dats m 0 c).share w} G w)) := by
  have e : ((((cfg0.win 4).arr.view.loc (c.tc : Thread nD τ)) ↦[(cfg0.win 4).arr.view.set]{(dats m 0 c).share 4} G 4) : sProp 𝕄)
      = (((c.tc : Thread nD τ).loc main_v58) ↦{fullShare} G 4) := by
    rw [(arr_whole0 4).set_eq_univ]; rfl
  unfold Dat.arrays
  rw [bigSep_univ_split (4 : Fin cfg0.W)]
  beta_reduce
  rw [e]
  rfl

/-- Two buffers held at a valuation. -/
theorem held2 (c : Dev nD) (W : Valuation τ sig (Elt F)) :
    (StableHlo.held (c.tc : Thread nD τ) ({d58, d59} : Finset (DevRef τ sig)) W : sProp 𝕄)
      = iprop((((c.tc : Thread nD τ).loc main_v58) ↦{fullShare} W d58) ∗ (((c.tc : Thread nD τ).loc main_v59) ↦{fullShare} W d59)) := by
  unfold StableHlo.held
  rw [bigSep_insert (by decide), bigSep_singleton]
  rfl

theorem Wt_58 (c : Dev nD) : Wt m c d58 = (dats m 0 c).arrAt 4 cfg0.N := by
  unfold Wt; exact Function.update_self _ _ _

theorem Wt_59 (c : Dev nD) : Wt m c d59 = V m c main_v59 := by
  unfold Wt; exact Function.update_of_ne (by decide) _ _

/-- The reshape writes its result buffer only. -/
theorem after_58 (c : Dev nD) (W : Valuation τ sig (Elt F)) : StableHlo.after hostOps1 W d58 = W d58 :=
  StableHlo.after_of_forall_not_mem hostOps1 W fun op hop => by
    simp only [hostOps1, List.mem_cons, List.mem_nil_iff, or_false] at hop
    subst hop
    simp only [StableHlo.reshape_writes, Finset.mem_singleton]
    exact StableHlo.devRef_ne_of_ne (by decide)

/-- The reshape reads the output array and writes its result buffer: it touches only these two. -/
theorem tail_sub : ∀ ops ∈ ([hostOps1] : List (List (HloOp τ sig (Elt F)))), ∀ op ∈ ops, op.bufs ⊆ ({d58, d59} : Finset (DevRef τ sig)) := by
  intro ops hops op hop
  simp only [List.mem_cons, List.mem_nil_iff, or_false] at hops
  subst hops
  simp only [hostOps1, List.mem_cons, List.mem_nil_iff, or_false] at hop
  subst hop
  exact Finset.Subset.refl _

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  simp only [hostOps1, List.mem_cons, List.mem_nil_iff, or_false] at hop
  subst hop
  rfl

set_option backward.isDefEq.respectTransparency.types false in
/-- THE LINE AFTER THE REGION: from the region's exit — the arrays at their final contents, the bypassing buffers as the
    region found them — the reshape runs, reading the output array and writing its result buffer, and hands back the arrays
    unchanged and the bypassing buffers with the result buffer at the reshaped output. -/
theorem htail (c : Dev nD) (Q' : PUnit → sProp 𝕄) :
    iprop((iprop((dats m 0 c).arrays ((dats m 0 c).arrAt · cfg0.N) ∗ Zt m c) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) (defs₀ (F := F))) (Variants.lift Variants.none) (c.tc : Thread nD τ) none) Set.univ
          (Pipeline.chain [StableHlo.seq hostOps1]) Q' := by
  rw [Z_split, arrays_split4]
  unfold Zt
  have hW : (StableHlo.held (c.tc : Thread nD τ) ({d58, d59} : Finset (DevRef τ sig)) (Wt m c) : sProp 𝕄)
      = iprop((((c.tc : Thread nD τ).loc main_v58) ↦{fullShare} (dats m 0 c).arrAt 4 cfg0.N)
          ∗ (((c.tc : Thread nD τ).loc main_v59) ↦{fullShare} V m c main_v59)) := by
    rw [held2 c, Wt_58 m c, Wt_59 m c]
  have hW' : (StableHlo.held (c.tc : Thread nD τ) ({d58, d59} : Finset (DevRef τ sig)) (StableHlo.after ([hostOps1] : List (List (HloOp τ sig (Elt F)))).flatten (Wt m c)) : sProp 𝕄)
      = iprop((((c.tc : Thread nD τ).loc main_v58) ↦{fullShare} (dats m 0 c).arrAt 4 cfg0.N)
          ∗ (((c.tc : Thread nD τ).loc main_v59) ↦{fullShare} res59 m c)) := by
    rw [held2 c, show ([hostOps1] : List (List (HloOp τ sig (Elt F)))).flatten = hostOps1 from by simp only [List.flatten_cons, List.flatten_nil, List.append_nil],
      after_58 c, Wt_58 m c]
    rfl
  rw [show (Pipeline.chain [StableHlo.seq (hostOps1 (F := F))] : Prog (TpuEff nD τ sig (Elt F) (Pipeline.Sig Λ₀ (Fin 1) fun p => (pcfgs (F := F) p).Adm) .tc) PUnit)
      = Pipeline.chain ((([hostOps1] : List (List (HloOp τ sig (Elt F)))).map StableHlo.seq) ++ []) from rfl]
  iintro ⟨Hk, Hb, ⟨H58, Hr4⟩, ⟨H59, Hrest⟩⟩
  iapply (Pipeline.wp_seqs_then (fun q => (cfgs q).toPCfg (Val := Elt F)) (defs₀ (F := F)) Variants.none c ({d58, d59} : Finset (DevRef τ sig)) [] [hostOps1] tail_sub tail_fresh (Wt m c)) $$ [Hb H58 H59]
  · rw [hW]
    isplitl [Hb]; · iexact Hb
    isplitl [H58]; · iexact H58
    iexact H59
  iintro Hb
  rw [Pipeline.chain_nil, wp_pure, hW']
  imodintro
  icases Hb with ⟨-, H58, H59⟩
  iapply Hk
  isplitl [H58 Hr4]
  · isplitl [H58]; · iexact H58
    iexact Hr4
  isplitl [H59]; · iexact H59
  iexact Hrest

end Cert.KernelIdeal.Hand

end
-- ==== Proof.KSplit.lean ====
/-
  The arrays at entry. The five windows stand over four distinct arrays: the first and the third window read the same
  one. The launch hands over each of the four buffers whole, at the full share, at the contents the region finds; the
  proof data holds, per window, its array at the window's share. The two agree: the shared buffer is split into the two
  halves of the full share, one for each of the two windows on it; the three other buffers pass as they are.
-/
import proofs.«429250_j63041529970723_3_alg».proof.Proof.KDat
import Idealize.ShloMosaic.Lib.Pipeline.Launch
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The four distinct arrays behind the five windows (the first and the third window read one array). -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc (Pipeline.arrRef spec0 0)) ↦{fullShare} W (Pipeline.arrRef spec0 0))
          ∗ (((c : Thread nD τ).loc (Pipeline.arrRef spec0 1)) ↦{fullShare} W (Pipeline.arrRef spec0 1))
          ∗ (((c : Thread nD τ).loc (Pipeline.arrRef spec0 3)) ↦{fullShare} W (Pipeline.arrRef spec0 3))
          ∗ (((c : Thread nD τ).loc (Pipeline.arrRef spec0 4)) ↦{fullShare} W (Pipeline.arrRef spec0 4))) := by
  unfold Pipeline.arrBufs
  exact bigSep_eq_bigSepL_of_eq [Pipeline.arrRef spec0 0, Pipeline.arrRef spec0 1, Pipeline.arrRef spec0 3, Pipeline.arrRef spec0 4]
    (by decide) (by decide) _

/-- A window's array is a whole buffer: held through the window's view it is held over every element. -/
theorem arr_univ (c : Dev nD) (w : Fin 5) (q : PosShare TreeShare) (f : Buf (Elt F) (View.loc (c : Thread nD τ) (cfg0.win w).arr.view)) :
    (View.loc (c : Thread nD τ) (cfg0.win w).arr.view ↦[(cfg0.win w).arr.view.set]{q} f : sProp 𝕄)
      = (View.loc (c : Thread nD τ) (cfg0.win w).arr.view ↦{q} f) :=
  congrArg (fun S => (View.loc (c : Thread nD τ) (cfg0.win w).arr.view ↦[S]{q} f : sProp 𝕄)) (arr_whole0 w).set_eq_univ

theorem share_0 (c : Dev nD) : (dats m 0 c).share 0 = fullShare.left := rfl
theorem share_1 (c : Dev nD) : (dats m 0 c).share 1 = fullShare := rfl
theorem share_2 (c : Dev nD) : (dats m 0 c).share 2 = fullShare.right := rfl
theorem share_3 (c : Dev nD) : (dats m 0 c).share 3 = fullShare := rfl
theorem share_4 (c : Dev nD) : (dats m 0 c).share 4 = fullShare := rfl

/-- Window w's conjunct of the arrays at entry: its array's buffer, whole, at the window's share, at the entry contents. -/
theorem win_pt (c : Dev nD) (w : Fin 5) (q : PosShare TreeShare) (hq : (dats m 0 c).share w = q) :
    (View.loc (c : Thread nD τ) (cfg0.win w).arr.view ↦[(cfg0.win w).arr.view.set]{(dats m 0 c).share w} (dats m 0 c).arrAt w 0 : sProp 𝕄)
      = (((c : Thread nD τ).loc (Pipeline.arrRef spec0 w)) ↦{q} V m c (Pipeline.arrRef spec0 w)) := by
  rw [hq]; exact arr_univ c w q _

/-- The third window's array is the first's. -/
theorem ref_2 : Pipeline.arrRef spec0 2 = Pipeline.arrRef spec0 0 := by decide

/-- A buffer's points-to along an equation of references. -/
theorem pt_congr_ref (c : Dev nD) (W : (b : Ref sig .tc) → Buf (Elt F) ((c : Thread nD τ).loc b)) (q : PosShare TreeShare)
    {b b' : Ref sig .tc} (h : b = b') :
    (((c : Thread nD τ).loc b) ↦{q} W b : sProp 𝕄) = (((c : Thread nD τ).loc b') ↦{q} W b') := by
  subst h; rfl

theorem arrays0_eq (c : Dev nD) :
    ((dats m 0 c).arrays ((dats m 0 c).arrAt · 0) : sProp 𝕄)
      = iprop((((c : Thread nD τ).loc (Pipeline.arrRef spec0 0)) ↦{fullShare.left} V m c (Pipeline.arrRef spec0 0))
          ∗ (((c : Thread nD τ).loc (Pipeline.arrRef spec0 1)) ↦{fullShare} V m c (Pipeline.arrRef spec0 1))
          ∗ (((c : Thread nD τ).loc (Pipeline.arrRef spec0 0)) ↦{fullShare.right} V m c (Pipeline.arrRef spec0 0))
          ∗ (((c : Thread nD τ).loc (Pipeline.arrRef spec0 3)) ↦{fullShare} V m c (Pipeline.arrRef spec0 3))
          ∗ (((c : Thread nD τ).loc (Pipeline.arrRef spec0 4)) ↦{fullShare} V m c (Pipeline.arrRef spec0 4))) := by
  unfold Dat.arrays
  rw [bigSep_W0]
  exact congrArg₂ BI.sep (win_pt m c 0 _ (share_0 m c)) (congrArg₂ BI.sep (win_pt m c 1 _ (share_1 m c))
    (congrArg₂ BI.sep ((win_pt m c 2 _ (share_2 m c)).trans (pt_congr_ref c (V m c) _ ref_2)) (congrArg₂ BI.sep (win_pt m c 3 _ (share_3 m c)) (win_pt m c 4 _ (share_4 m c)))))

/-- The buffers behind the windows' arrays, each whole at the full share at the entry contents, are the proof data's arrays
    at entry: the flattened input's buffer is split into its two halves, one for each of the two windows that read it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq, arrays0_eq]
  iintro ⟨H0, H1, H3, H4⟩
  ihave H0 := (pointsTo_share (PosShare.mem_left_op_right fullShare)).1 $$ H0
  icases H0 with ⟨Hl, Hr⟩
  isplitl [Hl]; · iexact Hl
  isplitl [H1]; · iexact H1
  isplitl [Hr]; · iexact Hr
  isplitl [H3]; · iexact H3
  iexact H4

end Cert.KernelIdeal.Hand

end
-- ==== Proof.KLaunch.lean ====
/-
  The launch of the whole program: every weakly fair execution of @main terminates without a fault, leaving the reshape's
  result at what the reshape computes from the output array's final contents, and every buffer that is no window's array
  and not that result as the region found it.

  @main is 74 host operations, the pallas_call, and one reshape. The host operations before the call run over the
  unscoped buffers and leave them at the fold of their results; the call is the pipeline library's region rule at the
  proof data of the five windows, whose two input windows on the flattened input each take one half of that array; the
  reshape is the line after the region.
-/
import proofs.«429250_j63041529970723_3_alg».proof.Proof.KTail
import proofs.«429250_j63041529970723_3_alg».proof.Proof.KSplit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor

/-- @main reduces to the region continued by the reshape, at the contents after the host operations before it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- What the run establishes on every core: the reshape's result, and every bypassing buffer but it unchanged since the
    region was entered. -/
def Post : PUnit × MemSt nD τ sig (Elt F) → Prop := fun r => ∀ c : Dev nD,
  r.2.mem ((c.tc : Thread nD τ).loc main_v59) = res59 m c
  ∧ (∀ b ∈ (restRefs0 : Finset (Ref sig .tc)).erase main_v59, r.2.mem ((c.tc : Thread nD τ).loc b) = V m c b)

set_option maxHeartbeats 4000000 in
set_option backward.isDefEq.respectTransparency.types false in
/-- At the compiled mesh, from any memory with zero counters: every weakly fair execution of @main on the TensorCores
    terminates, nothing faulting, in a state satisfying `Post`. -/
theorem run_main : θ_run defs (onTc (τ := τ) (main (F := F))) (s₀ m ρ) (Post m) :=
  Pipeline.θ_run_region_pf_tail (fun q => (cfgs q).toPCfg (Val := Elt F)) (fun q => (cfgs q).toPCfg_adm) (dats m) () cellOf_inj 0
    winFacts₀0 (Pipeline.OwnSemFacts.none _) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit m c)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Zt m c)
    (hX := fun c => by
      iintro ⟨HU, -, -, -, Hp, -⟩; imodintro
      isplitl [Hp]; · iexists _; iexact Hp
      iexact HU)
    (hin := fun c => (show _ ⊢ Pipeline.ΦA spec0 c from by
      unfold Pipeline.ΦA
      iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m c Q')
    (QY := fun c s => s.mem ((c.tc : Thread nD τ).loc main_v59) = res59 m c
      ∧ (∀ b ∈ (restRefs0 : Finset (Ref sig .tc)).erase main_v59, s.mem ((c.tc : Thread nD τ).loc b) = V m c b))
    (hY := fun c s' => by
      unfold Zt
      iintro ⟨-, ⟨H59, Hrest⟩, HSI⟩
      icombine HSI H59 gives %h59
      ihave Hr := (pointsTo_read_all ((restRefs0 : Finset (Ref sig .tc)).erase main_v59) (fun b => (c.tc : Thread nD τ).loc b) (fun b => V m c b) s') $$ [Hrest HSI]
      · isplitl [Hrest] <;> iassumption
      icases Hr with ⟨%hr, HSI⟩
      imodintro
      isplitr; · ipureintro; exact ⟨Buf.eq_of_forall_mem_univ h59, hr⟩
      iexact HSI)
    (hQ := fun s h c => (h c).2.2)

end Cert.KernelIdeal.Hand

end
-- ==== Proof.KTerms.lean ====
/-
  The three arrays the kernel's host code hands the pallas_call, as pure functions of the program's arguments:
  the flattened input; the diagonal scale (one everywhere, then cos k written at column pi k, then at column pj k);
  the sparse sine matrix (zero everywhere, then −sin k written at row pj k, column pi k, then sin k at row pi k, column pj k).
  A plane index is first made non-negative the way jnp indexing does (a negative index counts from the end).
-/
import proofs.«429250_j63041529970723_3_alg».proof.Proof.Gen.KernelIdeal

noncomputable section

namespace Cert.KernelIdeal.Hand

open Cert.KernelIdeal Cert.KernelIdeal.Facts₀
open Idealize.ShloMosaic

variable {F : FTy → Type} [FloatOps F]

/-- A plane index as jnp reads it: a negative one counts from the end of the 4096 columns. -/
def wrapIdx (p : IVec S1024 32) : IVec S1024 32 :=
  select (cmpi .slt p (broadcastInDim S1024 ![] bcast_S_S1024 (constantI S_ 32 0#32)))
    (addi p (broadcastInDim S1024 ![] bcast_S_S1024 (constantI S_ 32 4096#32))) p

/-- The plane indices as a column of start indices. -/
def colOf (p : IVec S1024 32) : IVec S1024x1 32 :=
  broadcastInDim S1024x1 ![0] bcast_S1024_S1024x1_0 (wrapIdx p)

/-- A column of zeros: the row index of the one-row diagonal scale. -/
def zeroCol : IVec S1024x1 32 :=
  broadcastInDim S1024x1 ![0] bcast_S1024_S1024x1_0
    (id (broadcastInDim S1024 ![] bcast_S_S1024 (constantI S_ 32 0#32)))

/-- Two columns of start indices side by side: the (row, column) pairs a rank-2 scatter writes at. -/
def pairIdx (r q : IVec S1024x1 32) : IVec S1024x2 32 :=
  concatenate S1024x2 1 [⟨S1024x1, r⟩, ⟨S1024x1, q⟩] concatenates_S1024x1_S1024x1_S1024x2_d1

/-- The diagonal scale: ones, then the cosines written at the planes' first columns, then at their second columns. -/
def cfT (a : FVec F S1024 .f32) (pi pj : IVec S1024 32) : FVec F S1x4096 .f32 :=
  Host.scatter scatter_S1x4096_S1024x2_S1024_n_01_01_1 (fun _ b => b)
    (Host.scatter scatter_S1x4096_S1024x2_S1024_n_01_01_1 (fun _ b => b)
      (broadcastInDim S1x4096 ![] bcast_S_S1x4096 (constant S_ .f32 0x3F800000#32))
      (pairIdx zeroCol (colOf pi)) (Host.cos a))
    (pairIdx zeroCol (colOf pj)) (Host.cos a)

/-- The sparse sine matrix: zeros, then −sin k at (pj k, pi k), then sin k at (pi k, pj k), each narrowed to bf16. -/
def sT (a : FVec F S1024 .f32) (pi pj : IVec S1024 32) : FVec F S4096x4096 .bf16 :=
  Host.scatter scatter_S4096x4096_S1024x2_S1024_n_01_01_1 (fun _ b => b)
    (Host.scatter scatter_S4096x4096_S1024x2_S1024_n_01_01_1 (fun _ b => b)
      (broadcastInDim S4096x4096 ![] bcast_S_S4096x4096 (constant S_ .bf16 0x0000#16))
      (pairIdx (colOf pj) (colOf pi)) (truncf .bf16 (Host.negf (Host.sin a)) bitsLt_bf16_f32))
    (pairIdx (colOf pi) (colOf pj)) (truncf .bf16 (Host.sin a) bitsLt_bf16_f32)

/-- The input with its first two axes flattened into 16384 rows. -/
def xfT (x : FVec F S4x4096x4096 .f32) : FVec F S16384x4096 .f32 :=
  fun i => shapeCast S16384x4096 x shapeCasts_S4x4096x4096_S16384x4096 i

/-- The kernel's result array given back its first two axes. -/
def unflat (y : FVec F S16384x4096 .f32) : FVec F S4x4096x4096 .f32 :=
  fun i => shapeCast S4x4096x4096 y shapeCasts_S16384x4096_S4x4096x4096 i

end Cert.KernelIdeal.Hand

end
-- ==== Proof.KHostV.lean ====
/-
  What the region finds in the arrays it is handed. None of the host operations before the region writes an argument,
  so each argument is as launched; the flattened input, the diagonal scale and the sparse sine matrix are the host
  operations' composed terms of the arguments, which are the three pure terms named for them.
-/
import proofs.«429250_j63041529970723_3_alg».proof.Proof.KDat
import proofs.«429250_j63041529970723_3_alg».proof.Proof.KTerms
import Idealize.ShloMosaic.Lib.StableHlo.Run

set_option maxRecDepth 16384

noncomputable section

namespace Cert.KernelIdeal.Hand

open Cert.KernelIdeal Cert.KernelIdeal.Gen Cert.KernelIdeal.Facts₀
open Idealize.ShloMosaic Idealize.ShloMosaic.TcCoe Idealize.ShloMosaic.StableHlo

variable {F : FTy → Type} [FloatOps F]

variable (m : (ℓ : Loc nD τ sig) → Buf (Elt F) ℓ) (c : Dev nD)

/-- No host operation before the region writes argument 0: the region finds it as launched. -/
theorem V_arg0 : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- No host operation before the region writes argument 1: the region finds it as launched. -/
theorem V_arg1 : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- No host operation before the region writes argument 2: the region finds it as launched. -/
theorem V_arg2 : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- No host operation before the region writes argument 3: the region finds it as launched. -/
theorem V_arg3 : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

set_option maxHeartbeats 4000000 in
/-- The flattened input is the launch input with its first two axes merged: the one host operation that writes it is the reshape. -/
theorem V_xf : (V m c main_v57 : FVec F S16384x4096 .f32) = xfT (m ((c : Thread nD τ).loc main_arg0)) := by
  dsimp only [V, V0]
  simp only [hostOps0, List.flatten_cons, List.flatten_nil, List.append_nil]
  after_results
  rfl

end Cert.KernelIdeal.Hand

end
-- ==== Proof.KFrame.lean ====
/-
  The whole program's run, read at its result and its arguments.

  After the region the one remaining host operation reshapes the output array (16384 × 4096) into the
  result (4 × 4096 × 4096): the result holds the output array with its first two axes given back. The
  four arguments are neither a window's array the region writes nor the reshape's result, and no host
  operation before the region writes them, so they end as launched.
-/
import proofs.«429250_j63041529970723_3_alg».proof.Proof.KLaunch
import proofs.«429250_j63041529970723_3_alg».proof.Proof.KHostV
import proofs.«429250_j63041529970723_3_alg».proof.Proof.KTerms
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The reshape after the region gives the output array its first two axes back. -/
theorem res59_eq (c : Dev nD) : res59 m c = unflat ((dats m 0 c).arrAt 4 cfg0.N) := by
  unfold res59
  simp only [hostOps1, StableHlo.after_cons, StableHlo.after_nil]
  rw [StableHlo.reshape_result, Wt_58]
  rfl

/-- The program runs and leaves its four arguments as launched: none of them is a window's array the
    region writes, nor the reshape's result. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c =>
    ⟨((h c).2 main_arg0 (by decide)).trans (V_arg0 m c), ((h c).2 main_arg1 (by decide)).trans (V_arg1 m c),
      ((h c).2 main_arg2 (by decide)).trans (V_arg2 m c), ((h c).2 main_arg3 (by decide)).trans (V_arg3 m c)⟩) (run_main m ρ)

/-- The program runs, leaves in its result the output array with its first two axes back, and leaves its
    four arguments as launched. -/
theorem value : θ_run defs (onTc (τ := τ) (main (F := F))) ⟨m, fun _ => 0, ρ⟩ (fun r => ∀ c : Dev nD,
    r.2.mem ((c.tc : Thread nD τ).loc main_v59) = unflat ((dats m 0 c).arrAt 4 cfg0.N)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c =>
    ⟨((h c).1).trans (res59_eq m c),
      ((h c).2 main_arg0 (by decide)).trans (V_arg0 m c), ((h c).2 main_arg1 (by decide)).trans (V_arg1 m c),
      ((h c).2 main_arg2 (by decide)).trans (V_arg2 m c), ((h c).2 main_arg3 (by decide)).trans (V_arg3 m c)⟩) (run_main m ρ)

end Cert.KernelIdeal.Hand

end
-- ==== Proof.WDat.lean ====
/-
  The proof data of the one pipeline: what each staging buffer and the accumulator hold after the body at every grid
  point, as pure functions of the blocks the pipeline stages.

  The grid is 32 × 2 × 4, the last axis innermost: point t has k = t mod 4. At k = 0 the body resets the accumulator to
  zero; at every point it adds to it the product of the current 512 × 1024 block of the flattened input (narrowed to bf16)
  with the current 1024 × 2048 block of the sparse matrix; at k = 3 it stores into the output block the 512 × 2048 block of
  the input times the broadcast 1 × 2048 block of the diagonal scale, plus the accumulator. So the accumulator after point t
  is the sum of the products over the points of t's group of four up to t, and the output block written back at k = 3 is
  the whole row-block of  x · diag(c) + x · S.
-/
import proofs.«429250_j63041529970723_3_alg».proof.Proof.Gen.Kernel.Launch
import proofs.«429250_j63041529970723_3_alg».proof.Proof.Gen.Kernel.Skeleton
import proofs.«429250_j63041529970723_3_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: the launch contents after the host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four input blocks at a point, at their literal types: the matrix product's left block, the sparse matrix's block,
    the block of the input the diagonal term multiplies, and the block of the diagonal scale. -/
abbrev xa (c : Dev nD) (t : Fin cfg0.N) : Vec F S512x1024 .f32 := iblk m c 0 t
abbrev sb (c : Dev nD) (t : Fin cfg0.N) : Vec F S1024x2048 .bf16 := iblk m c 1 t
abbrev xe (c : Dev nD) (t : Fin cfg0.N) : Vec F S512x2048 .f32 := iblk m c 2 t
abbrev cb (c : Dev nD) (t : Fin cfg0.N) : Vec F S1x2048 .f32 := iblk m c 3 t

/-! ## The accumulator and the output, point by point -/

/-- The accumulator after the body at position `n`: at the first point of a group of four the product added to zero,
    afterwards added to what the point before left. -/
def accAt (c : Dev nD) : (n : ℕ) → n < cfg0.N → Vec F S512x2048 .f32
  | 0, hn => k0_pay2 (xa m c ⟨0, hn⟩) (k0_pay1 (F := F)) (sb m c ⟨0, hn⟩)
  | n + 1, hn =>
    if (n + 1) % 4 = 0 then k0_pay2 (xa m c ⟨n + 1, hn⟩) (k0_pay1 (F := F)) (sb m c ⟨n + 1, hn⟩)
    else k0_pay2 (xa m c ⟨n + 1, hn⟩) (accAt c n (Nat.lt_of_succ_lt hn)) (sb m c ⟨n + 1, hn⟩)

/-- What the body stores into the output block at a point where it stores (k = 3): the diagonal term plus the accumulator. -/
def outAt (c : Dev nD) (t : Fin cfg0.N) : Vec F S512x2048 .f32 :=
  k0_pay3 (xe m c t) (cb m c t) (accAt m c t.val t.isLt)

/-- The accumulator after a point that opens a group of four. -/
theorem accAt_first (c : Dev nD) (t : Fin cfg0.N) (h : t.val % 4 = 0) :
    accAt m c t.val t.isLt = k0_pay2 (xa m c t) (k0_pay1 (F := F)) (sb m c t) := by
  obtain ⟨n, hn⟩ := t
  cases n with
  | zero => rfl
  | succ n => exact (if_pos h).trans rfl

/-- The accumulator after any other point: the product added to what the point before left. -/
theorem accAt_next (c : Dev nD) (t : Fin cfg0.N) (h : ¬ t.val % 4 = 0) :
    accAt m c t.val t.isLt = k0_pay2 (xa m c t) (accAt m c (t.val - 1) (Nat.lt_of_le_of_lt (Nat.sub_le _ _) t.isLt)) (sb m c t) := by
  obtain ⟨n, hn⟩ := t
  cases n with
  | zero => exact absurd (Nat.zero_mod _) h
  | succ n => exact (if_neg h).trans rfl

/-! ## The invariant: the accumulator between points -/

/-- The scratch accumulator, a whole scoped buffer of the kernel's own. -/
abbrev scM : Memref sig .tc .vmem S512x2048 .f32 := Memref.whole cc0_scratch0

/-- The region invariant before position `n`: before the first point the scoped rest at anything and the generator
    register; afterwards the accumulator at what the point before left, and the generator register. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- The proof data on core `c`: the arrays as the region finds them; after the body every input's buffer at its block and
    the output's at `outAt`; the invariant `PhiS`; nothing owed. The flattened input is one array behind two windows
    (the product's and the diagonal term's): each holds one half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := match w with
    | ⟨0, _⟩ => fullShare.left
    | ⟨1, _⟩ => fullShare
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

end Cert.Kernel.Hand

end
-- ==== Proof.WBody.lean ====
/-
  The kernel body at one grid point, over arbitrary whole staging memrefs and arbitrary contents.

  The body keeps a running sum in a scratch accumulator along the last grid axis (four points):
  at the axis' first point it resets the accumulator to the zero block; at every point it adds to the
  accumulator the matrix product of the left block, truncated to bf16, with the right block; at the
  axis' last point it writes the output block as the bias block times the broadcast scale row plus the
  accumulator. The two guards are never true together, so there are three cases; each lemma states what
  the body leaves in every buffer it is handed in that case, through the payload functions
  (`k0_pay1`: the zero block; `k0_pay2 x acc y = acc + truncf x · y`; `k0_pay3 b s acc = b * broadcast s + acc`).
-/
import proofs.«429250_j63041529970723_3_alg».proof.Proof.Gen.Kernel.Skeleton
import proofs.«429250_j63041529970723_3_alg».proof.Proof.Gen.Kernel.Launch
import proofs.«429250_j63041529970723_3_alg».proof.Proof.Gen.Kernel.Points
import Idealize.ShloMosaic.Lib.Tactic
import Idealize.ShloMosaic.Lib.Pipeline.Value

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's guard at grid point `i`: the last coordinate is zero. -/
abbrev c1 (i : grid0.Coords) : Prop :=
  Scalar.cmpi .ne (Scalar.extui (Scalar.cmpi .eq (BitVec.ofNat 32 (i 2).val) 0#32)) 0#32 = 1#1

variable (c : Dev nD) (i : grid0.Coords)
variable (M3 : Memref sig .tc .vmem S512x1024 .f32) (h3 : M3.IsWhole)
variable (M4 : Memref sig .tc .vmem S1024x2048 .bf16) (h4 : M4.IsWhole)
variable (M5 : Memref sig .tc .vmem S512x2048 .f32) (h5 : M5.IsWhole)
variable (M6 : Memref sig .tc .vmem S1x2048 .f32) (h6 : M6.IsWhole)
variable (M7 : Memref sig .tc .vmem S512x2048 .f32) (h7 : M7.IsWhole)
variable (M8 : Memref sig .tc .vmem S512x2048 .f32) (h8 : M8.IsWhole)

/-- The zero offsets of a rank-two rectangle, as the constant function. -/
theorem hz2 : (![0, 0] : Fin 2 → Nat) = fun _ => 0 := by
  funext a; fin_cases a <;> rfl

section Whole

variable {sg : RefSig} {κ : Kind} {sp : Space} {S : Shape} {e : EltTy} {Val : EltTy → Type}

/-- A load through the rectangle of the whole shape at zero offsets reads the contents. -/
theorem readAt_whole (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

/-- After one store through that rectangle the contents read as the payload. -/
theorem read_store_whole [∀ e, Nonempty (Val e)] (v : View sg κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h]

/-- After two stores through that rectangle the contents read as the later payload. -/
theorem read_store_whole₂ [∀ e, Nonempty (Val e)] (v : View sg κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

end Whole

/-- A point that neither resets the accumulator nor writes the output: the accumulator gains the
    product of the truncated left block with the right block; every other buffer is left as it was. -/
theorem run_mid (hc1 : ¬ c1 i) (hc2 : ¬ k0_cond2 i = 1#1)
    (x3 : Vec F S512x1024 .f32) (x4 : Vec F S1024x2048 .bf16) (x5 : Vec F S512x2048 .f32) (x6 : Vec F S1x2048 .f32)
    (o7 s8 : Vec F S512x2048 .f32) (E : Set ℕ) (Q : PUnit → sProp 𝕄) :
    iprop(owns (c : Thread nD τ) M3 fullShare x3 ∗ owns (c : Thread nD τ) M4 fullShare x4 ∗ owns (c : Thread nD τ) M5 fullShare x5
          ∗ owns (c : Thread nD τ) M6 fullShare x6 ∗ owns (c : Thread nD τ) M7 fullShare o7 ∗ owns (c : Thread nD τ) M8 fullShare s8
          ∗ (iprop(owns (c : Thread nD τ) M3 fullShare x3 ∗ owns (c : Thread nD τ) M4 fullShare x4 ∗ owns (c : Thread nD τ) M5 fullShare x5
                ∗ owns (c : Thread nD τ) M6 fullShare x6 ∗ owns (c : Thread nD τ) M7 fullShare o7
                ∗ owns (c : Thread nD τ) M8 fullShare (k0_pay2 x3 s8 x4)) -∗ Q ⟨⟩))
      ⊢ wp frame (wpE (defs₀ (F := F)) Variants.none c none) E (cc0__rotate_kernel i M3 h3 M4 h4 M5 h5 M6 h6 M7 h7 M8 h8) Q := by
  unfold owns
  iintro ⟨⟨%f3, %e3, H3⟩, ⟨%f4, %e4, H4⟩, H5, H6, H7, ⟨%f8, %e8, H8⟩, Hk⟩
  sl_unfold [cc0__rotate_kernel]
  sl_exec (disch := first | exact hc1 | exact hc2)
  sl_step
  iapply Hk
  isplitl [H3]
  · iexists f3; isplitr; · ipureintro; exact e3
    iexact H3
  isplitl [H4]
  · iexists f4; isplitr; · ipureintro; exact e4
    iexact H4
  isplitl [H5]; · iexact H5
  isplitl [H6]; · iexact H6
  isplitl [H7]; · iexact H7
  iexists _; isplitr
  swap; · iexact H8
  ipureintro
  refine (read_store_whole (Val := Elt F) M8.view f8 hz2 _ _).trans ?_
  rw [readAt_whole M3.view f3 hz2, readAt_whole M8.view f8 hz2, readAt_whole M4.view f4 hz2, e3, e4, e8]

/-- The axis' first point: the accumulator is reset to the zero block, then gains the product; what it
    held before is irrelevant. Every other buffer is left as it was. -/
theorem run_first (hc1 : c1 i) (hc2 : ¬ k0_cond2 i = 1#1)
    (x3 : Vec F S512x1024 .f32) (x4 : Vec F S1024x2048 .bf16) (x5 : Vec F S512x2048 .f32) (x6 : Vec F S1x2048 .f32)
    (o7 s8 : Vec F S512x2048 .f32) (E : Set ℕ) (Q : PUnit → sProp 𝕄) :
    iprop(owns (c : Thread nD τ) M3 fullShare x3 ∗ owns (c : Thread nD τ) M4 fullShare x4 ∗ owns (c : Thread nD τ) M5 fullShare x5
          ∗ owns (c : Thread nD τ) M6 fullShare x6 ∗ owns (c : Thread nD τ) M7 fullShare o7 ∗ owns (c : Thread nD τ) M8 fullShare s8
          ∗ (iprop(owns (c : Thread nD τ) M3 fullShare x3 ∗ owns (c : Thread nD τ) M4 fullShare x4 ∗ owns (c : Thread nD τ) M5 fullShare x5
                ∗ owns (c : Thread nD τ) M6 fullShare x6 ∗ owns (c : Thread nD τ) M7 fullShare o7
                ∗ owns (c : Thread nD τ) M8 fullShare (k0_pay2 x3 (k0_pay1 (F := F)) x4)) -∗ Q ⟨⟩))
      ⊢ wp frame (wpE (defs₀ (F := F)) Variants.none c none) E (cc0__rotate_kernel i M3 h3 M4 h4 M5 h5 M6 h6 M7 h7 M8 h8) Q := by
  unfold owns
  iintro ⟨⟨%f3, %e3, H3⟩, ⟨%f4, %e4, H4⟩, H5, H6, H7, ⟨%f8, %e8, H8⟩, Hk⟩
  sl_unfold [cc0__rotate_kernel]
  sl_exec (disch := first | exact hc1 | exact hc2)
  sl_step
  iapply Hk
  isplitl [H3]
  · iexists f3; isplitr; · ipureintro; exact e3
    iexact H3
  isplitl [H4]
  · iexists f4; isplitr; · ipureintro; exact e4
    iexact H4
  isplitl [H5]; · iexact H5
  isplitl [H6]; · iexact H6
  isplitl [H7]; · iexact H7
  iexists _; isplitr
  swap; · iexact H8
  ipureintro
  refine (read_store_whole₂ (Val := Elt F) M8.view f8 hz2 _ _ _).trans ?_
  rw [readAt_whole M3.view f3 hz2, readAt_whole M4.view f4 hz2, e3, e4]
  sl_unfold_run_names
  rw [View.readCov_unit_zero (S := S512x2048) M8.view hz2]

/-- The axis' last point: the accumulator gains the product, and the output block is written as the bias
    block times the broadcast scale row plus the new accumulator; what the output held before is
    irrelevant. The inputs are left as they were. -/
theorem run_last (hc1 : ¬ c1 i) (hc2 : k0_cond2 i = 1#1)
    (x3 : Vec F S512x1024 .f32) (x4 : Vec F S1024x2048 .bf16) (x5 : Vec F S512x2048 .f32) (x6 : Vec F S1x2048 .f32)
    (o7 s8 : Vec F S512x2048 .f32) (E : Set ℕ) (Q : PUnit → sProp 𝕄) :
    iprop(owns (c : Thread nD τ) M3 fullShare x3 ∗ owns (c : Thread nD τ) M4 fullShare x4 ∗ owns (c : Thread nD τ) M5 fullShare x5
          ∗ owns (c : Thread nD τ) M6 fullShare x6 ∗ owns (c : Thread nD τ) M7 fullShare o7 ∗ owns (c : Thread nD τ) M8 fullShare s8
          ∗ (iprop(owns (c : Thread nD τ) M3 fullShare x3 ∗ owns (c : Thread nD τ) M4 fullShare x4 ∗ owns (c : Thread nD τ) M5 fullShare x5
                ∗ owns (c : Thread nD τ) M6 fullShare x6 ∗ owns (c : Thread nD τ) M7 fullShare (k0_pay3 x5 x6 (k0_pay2 x3 s8 x4))
                ∗ owns (c : Thread nD τ) M8 fullShare (k0_pay2 x3 s8 x4)) -∗ Q ⟨⟩))
      ⊢ wp frame (wpE (defs₀ (F := F)) Variants.none c none) E (cc0__rotate_kernel i M3 h3 M4 h4 M5 h5 M6 h6 M7 h7 M8 h8) Q := by
  unfold owns
  iintro ⟨⟨%f3, %e3, H3⟩, ⟨%f4, %e4, H4⟩, ⟨%f5, %e5, H5⟩, ⟨%f6, %e6, H6⟩, ⟨%f7, %e7, H7⟩, ⟨%f8, %e8, H8⟩, Hk⟩
  sl_unfold [cc0__rotate_kernel]
  sl_exec (disch := first | exact hc1 | exact hc2)
  sl_step
  iapply Hk
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists _; isplitr
    swap; · iexact H7
    ipureintro
    refine (read_store_whole (Val := Elt F) M7.view f7 hz2 _ _).trans ?_
    rw [readAt_whole M5.view f5 hz2, readAt_whole M6.view f6 hz2, e5, e6]
    sl_unfold_run_names
    rw [View.readCov_unit_zero (S := S512x2048) M8.view hz2, readAt_whole M3.view f3 hz2, readAt_whole M8.view f8 hz2,
      readAt_whole M4.view f4 hz2, e3, e4, e8]
  iexists _; isplitr
  swap; · iexact H8
  ipureintro
  sl_unfold_run_names
  refine (read_store_whole (Val := Elt F) M8.view f8 hz2 _ _).trans ?_
  rw [readAt_whole M3.view f3 hz2, readAt_whole M8.view f8 hz2, readAt_whole M4.view f4 hz2, e3, e4, e8]

end Cert.Kernel.Hand

end
-- ==== Proof.WObl.lean ====
/-
  The body obligation of the pipeline's proof data: at every grid point, from the invariant and every window's current
  staging buffer at what it then holds, the kernel body runs to the invariant at the next point and every buffer at what
  the proof data says the body leaves.

  The point's position k = t mod 4 along the innermost grid axis selects one of three courses of the body: k = 0 resets the
  accumulator before adding the block product to it; k = 1, 2 only add; k = 3 adds and then stores the output block. The
  two windows of the diagonal term are fetched only at k = 0 and keep their blocks through the group of four, because their
  block indices do not depend on k; the output window is idle except at k = 3, where its block is written back.
-/
import proofs.«429250_j63041529970723_3_alg».proof.Proof.WDat
import proofs.«429250_j63041529970723_3_alg».proof.Proof.WBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions of the body in closed form -/

/-- The body resets the accumulator exactly at the points that open a group of four. -/
theorem c1_iff : ∀ t : Fin cfg0.N, c1 (grid0.coords t) ↔ t.val % 4 = 0 :=
  (by decide +kernel : ∀ t : Fin grid0.N, c1 (grid0.coords t) ↔ t.val % 4 = 0)

/-- The body stores the output block exactly at the points that close a group of four. -/
theorem c2_iff : ∀ t : Fin cfg0.N, k0_cond2 (grid0.coords t) = 1#1 ↔ t.val % 4 = 3 :=
  (by decide +kernel : ∀ t : Fin grid0.N, k0_cond2 (grid0.coords t) = 1#1 ↔ t.val % 4 = 3)

/-! ## Where the windows are idle and where the output is written back -/

/-- The four input windows are never idle. -/
theorem live_0 : ∀ i : grid0.Coords, cfg0.idle 0 i = false := fun _ => rfl
theorem live_1 : ∀ i : grid0.Coords, cfg0.idle 1 i = false := fun _ => rfl
theorem live_2 : ∀ i : grid0.Coords, cfg0.idle 2 i = false := fun _ => rfl
theorem live_3 : ∀ i : grid0.Coords, cfg0.idle 3 i = false := fun _ => rfl

/-- The output window is idle at every point that does not close a group of four, -/
theorem idle_4 : ∀ t : Fin cfg0.N, ¬ t.val % 4 = 3 → cfg0.idle 4 (grid0.coords t) = true :=
  (by decide +kernel : ∀ t : Fin grid0.N, ¬ t.val % 4 = 3 → cfg0.idle 4 (grid0.coords t) = true)
/-- is not written back there, -/
theorem noflush_4 : ∀ t : Fin cfg0.N, ¬ t.val % 4 = 3 → (cfg0.win 4).flush t = false :=
  (by decide +kernel : ∀ t : Fin grid0.N, ¬ t.val % 4 = 3 → win0_4.flush t = false)
/-- and is live at the points that do. -/
theorem live_4 : ∀ t : Fin cfg0.N, t.val % 4 = 3 → cfg0.idle 4 (grid0.coords t) = false :=
  (by decide +kernel : ∀ t : Fin grid0.N, t.val % 4 = 3 → cfg0.idle 4 (grid0.coords t) = false)

/-! ## What the inputs' staging buffers hold when the body runs -/

/-- The product's left block is in its buffer at every point. -/
theorem before_0 (c : Dev nD) (t : Fin cfg0.N) (d : (cfg0.win 0).block.Idx → Elt F (cfg0.win 0).elt) :
    (dats m 0 c).before 0 t d = iblk m c 0 t := by
  have hk : ∀ s, (cfg0.win 0).cut (cfg0.grid.coords s) ((dats m 0 c).after 0 s) = (dats m 0 c).blockOf 0 s := fun s => by
    rw [after0_0]; unfold Dat.blockOf iblk; rw [A_eq]
  rw [(dats m 0 c).before_in_eq_fetched 0 rfl live_0 (fun _ _ _ => rfl) hk t d]
  unfold Dat.fetched Dat.blockOf iblk; rw [A_eq]; rfl

/-- The sparse matrix's block is in its buffer at every point. -/
theorem before_1 (c : Dev nD) (t : Fin cfg0.N) (d : (cfg0.win 1).block.Idx → Elt F (cfg0.win 1).elt) :
    (dats m 0 c).before 1 t d = iblk m c 1 t := by
  have hk : ∀ s, (cfg0.win 1).cut (cfg0.grid.coords s) ((dats m 0 c).after 1 s) = (dats m 0 c).blockOf 1 s := fun s => by
    rw [after0_1]; unfold Dat.blockOf iblk; rw [A_eq]
  rw [(dats m 0 c).before_in_eq_fetched 1 rfl live_1 (fun _ _ _ => rfl) hk t d]
  unfold Dat.fetched Dat.blockOf iblk; rw [A_eq]; rfl

/-- The diagonal term's input block is fetched only when a group of four opens; its index does not depend on the position
    in the group, so the buffer holds the point's block at the other three points too. -/
theorem before_2 (c : Dev nD) (t : Fin cfg0.N) (d : (cfg0.win 2).block.Idx → Elt F (cfg0.win 2).elt) :
    (dats m 0 c).before 2 t d = iblk m c 2 t := by
  have hk : ∀ s, (cfg0.win 2).cut (cfg0.grid.coords s) ((dats m 0 c).after 2 s) = (dats m 0 c).blockOf 2 s := fun s => by
    rw [after0_2]; unfold Dat.blockOf iblk; rw [A_eq]
  rw [(dats m 0 c).before_in_eq_fetched 2 rfl live_2 (fun _ _ _ => rfl) hk t d]
  unfold Dat.fetched Dat.blockOf iblk; rw [A_eq]; rfl

/-- The same for the block of the diagonal scale. -/
theorem before_3 (c : Dev nD) (t : Fin cfg0.N) (d : (cfg0.win 3).block.Idx → Elt F (cfg0.win 3).elt) :
    (dats m 0 c).before 3 t d = iblk m c 3 t := by
  have hk : ∀ s, (cfg0.win 3).cut (cfg0.grid.coords s) ((dats m 0 c).after 3 s) = (dats m 0 c).blockOf 3 s := fun s => by
    rw [after0_3]; unfold Dat.blockOf iblk; rw [A_eq]
  rw [(dats m 0 c).before_in_eq_fetched 3 rfl live_3 (fun _ _ _ => rfl) hk t d]
  unfold Dat.fetched Dat.blockOf iblk; rw [A_eq]; rfl

/-! ## The invariant at a point's two ends -/

/-- What the launch hands the region, with the accumulator as a memref owned at some contents. -/
theorem PhiA_eq (c : Dev nD) :
    (Pipeline.ΦA spec0 c : sProp 𝕄) = iprop(iprop(∃ d, owns (c : Thread nD τ) scM fullShare d) ∗ (∃ r, prngReg c r)) := by
  unfold Pipeline.ΦA; rw [scopedRest0_eq]; simp only [scM, owns_whole]; rfl

/-- The invariant as a point finds it, at the point's position. -/
theorem Phi_castSucc (c : Dev nD) (t : Fin cfg0.N) :
    (dats m 0 c).Φ t.castSucc = PhiS m c t.val (Nat.le_of_lt t.isLt) := by
  dsimp only [dats]; simp only [Fin.coe_castSucc]

/-- The invariant as a point leaves it: the accumulator at what the point left. -/
theorem Phi_succ (c : Dev nD) (t : Fin cfg0.N) :
    (dats m 0 c).Φ t.succ = iprop(iprop(owns (c : Thread nD τ) scM fullShare (accAt m c t.val t.isLt)) ∗ (∃ r, prngReg c r)) := rfl

/-! ## The body at a point -/

/-- The staging buffer each window is on at a point, at its literal type, and that it is a whole buffer. -/
abbrev ms_0 (t : Fin cfg0.N) : Memref sig .tc .vmem S512x1024 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1024x2048 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x2048 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x2048 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S512x2048 .f32 := win0_4.stage (cfg0.slots t 4)
abbrev hs_4 (t : Fin cfg0.N) : (ms_4 t).IsWhole := hstage0_4 ((cfg0.slots t 4).cast nbuf0_4)

/-- What the body is called with at a point: the invariant, what the core owes, and each window's current buffer at what
    it then holds. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d)))

/-- What it must return: the invariant at the next point, the same debt, and each buffer at what the proof data says the
    body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- An input window, never idle, is left at its block. -/
theorem leaves_0 (c : Dev nD) (t : Fin cfg0.N) :
    (dats m 0 c).leavesExact 0 t = owns (c : Thread nD τ) (ms_0 t) fullShare (xa m c t) := by
  unfold Dat.leavesExact; rw [live_0, after0_0]
theorem leaves_1 (c : Dev nD) (t : Fin cfg0.N) :
    (dats m 0 c).leavesExact 1 t = owns (c : Thread nD τ) (ms_1 t) fullShare (sb m c t) := by
  unfold Dat.leavesExact; rw [live_1, after0_1]
theorem leaves_2 (c : Dev nD) (t : Fin cfg0.N) :
    (dats m 0 c).leavesExact 2 t = owns (c : Thread nD τ) (ms_2 t) fullShare (xe m c t) := by
  unfold Dat.leavesExact; rw [live_2, after0_2]
theorem leaves_3 (c : Dev nD) (t : Fin cfg0.N) :
    (dats m 0 c).leavesExact 3 t = owns (c : Thread nD τ) (ms_3 t) fullShare (cb m c t) := by
  unfold Dat.leavesExact; rw [live_3, after0_3]

/-- The output window, where the body does not store, is handed back as it was found; -/
theorem leaves_4_idle (c : Dev nD) (t : Fin cfg0.N) (h : ¬ t.val % 4 = 3) :
    (dats m 0 c).leavesExact 4 t = iprop(∃ d, owns (c : Thread nD τ) (ms_4 t) fullShare ((dats m 0 c).before 4 t d)) :=
  Dat.leavesExact_idle (dats m 0 c) 4 t (idle_4 t h) (noflush_4 t h)
/-- where it stores, at the diagonal term plus the accumulator. -/
theorem leaves_4_live (c : Dev nD) (t : Fin cfg0.N) (h : t.val % 4 = 3) :
    (dats m 0 c).leavesExact 4 t = owns (c : Thread nD τ) (ms_4 t) fullShare (outAt m c t) := by
  unfold Dat.leavesExact; rw [live_4 t h, after0_4]

/-- Before a point that opens a group of four the invariant holds the accumulator at something: what the launch left
    there at the very first point, what the group before accumulated afterwards. Either is overwritten. -/
theorem Phi_any (c : Dev nD) (t : Fin cfg0.N) :
    (dats m 0 c).Φ t.castSucc ⊢ iprop(iprop(∃ s, owns (c : Thread nD τ) scM fullShare s) ∗ (∃ r, prngReg c r)) := by
  rw [Phi_castSucc]
  by_cases hz : t.val = 0
  · rw [PhiS_zero m c _ _ hz, PhiA_eq]
  · rw [PhiS_pos m c _ _ hz]
    iintro ⟨Hacc, Hg⟩
    isplitl [Hacc]
    · iexists _; iexact Hacc
    iexact Hg

set_option maxHeartbeats 1600000 in
/-- A point that opens a group of four: the accumulator is reset and receives the first product; the output block is not
    touched. -/
theorem pt_first (c : Dev nD) (t : Fin cfg0.N) (h0 : t.val % 4 = 0) :
    bodyPre m c t ⊢ wp frame (wpE (defs₀ (F := F)) Variants.none c none) Set.univ (bodyAt0 t) (fun _ => bodyPost m c t) := by
  have h3 : ¬ t.val % 4 = 3 := by omega
  unfold bodyPre bodyPost bodyAt0
  simp only [before_0, before_1, before_2, before_3]
  rw [leaves_0, leaves_1, leaves_2, leaves_3, leaves_4_idle m c t h3]
  rw [show (dats m 0 c).owesAt () t.succ = (dats m 0 c).owesAt () t.castSucc from rfl]
  rw [Phi_succ, accAt_first m c t h0]
  refine BIBase.Entails.trans (sep_mono_left (Phi_any m c t)) ?_
  iintro ⟨⟨⟨%s, Hacc⟩, Hg⟩, Ho, ⟨%d0, H0⟩, ⟨%d1, H1⟩, ⟨%d2, H2⟩, ⟨%d3, H3⟩, ⟨%d4, H4⟩⟩
  iapply (run_first (c := c) (i := grid0.coords t) (M3 := ms_0 t) (h3 := hs_0 t) (M4 := ms_1 t) (h4 := hs_1 t)
    (M5 := ms_2 t) (h5 := hs_2 t) (M6 := ms_3 t) (h6 := hs_3 t) (M7 := ms_4 t) (h7 := hs_4 t) (M8 := scM) (h8 := Memref.isWhole_whole _)
    (hc1 := (c1_iff t).mpr h0) (hc2 := fun h => h3 ((c2_iff t).mp h))
    (x3 := xa m c t) (x4 := sb m c t) (x5 := xe m c t) (x6 := cb m c t) (o7 := (dats m 0 c).before 4 t d4) (s8 := s) (E := Set.univ))
  isplitl [H0]; · iexact H0
  isplitl [H1]; · iexact H1
  isplitl [H2]; · iexact H2
  isplitl [H3]; · iexact H3
  isplitl [H4]; · iexact H4
  isplitl [Hacc]; · iexact Hacc
  iintro ⟨H0, H1, H2, H3, H4, Hacc⟩
  isplitl [Hacc Hg]
  · isplitl [Hacc]; · iexact Hacc
    iexact Hg
  isplitl [Ho]; · iexact Ho
  isplitl [H0]; · iexact H0
  isplitl [H1]; · iexact H1
  isplitl [H2]; · iexact H2
  isplitl [H3]; · iexact H3
  iexists d4; iexact H4

set_option maxHeartbeats 1600000 in
/-- A point inside a group of four: the product is added to what the point before left; the output block is not touched. -/
theorem pt_mid (c : Dev nD) (t : Fin cfg0.N) (h0 : ¬ t.val % 4 = 0) (h3 : ¬ t.val % 4 = 3) :
    bodyPre m c t ⊢ wp frame (wpE (defs₀ (F := F)) Variants.none c none) Set.univ (bodyAt0 t) (fun _ => bodyPost m c t) := by
  have hz : t.val ≠ 0 := fun e => h0 (by rw [e])
  unfold bodyPre bodyPost bodyAt0
  simp only [before_0, before_1, before_2, before_3]
  rw [leaves_0, leaves_1, leaves_2, leaves_3, leaves_4_idle m c t h3]
  rw [show (dats m 0 c).owesAt () t.succ = (dats m 0 c).owesAt () t.castSucc from rfl]
  rw [Phi_succ, accAt_next m c t h0, Phi_castSucc, PhiS_pos m c _ _ hz]
  iintro ⟨⟨Hacc, Hg⟩, Ho, ⟨%d0, H0⟩, ⟨%d1, H1⟩, ⟨%d2, H2⟩, ⟨%d3, H3⟩, ⟨%d4, H4⟩⟩
  iapply (run_mid (c := c) (i := grid0.coords t) (M3 := ms_0 t) (h3 := hs_0 t) (M4 := ms_1 t) (h4 := hs_1 t)
    (M5 := ms_2 t) (h5 := hs_2 t) (M6 := ms_3 t) (h6 := hs_3 t) (M7 := ms_4 t) (h7 := hs_4 t) (M8 := scM) (h8 := Memref.isWhole_whole _)
    (hc1 := fun h => h0 ((c1_iff t).mp h)) (hc2 := fun h => h3 ((c2_iff t).mp h))
    (x3 := xa m c t) (x4 := sb m c t) (x5 := xe m c t) (x6 := cb m c t) (o7 := (dats m 0 c).before 4 t d4)
    (s8 := accAt m c (t.val - 1) (Nat.lt_of_le_of_lt (Nat.sub_le _ _) t.isLt)) (E := Set.univ))
  isplitl [H0]; · iexact H0
  isplitl [H1]; · iexact H1
  isplitl [H2]; · iexact H2
  isplitl [H3]; · iexact H3
  isplitl [H4]; · iexact H4
  isplitl [Hacc]; · iexact Hacc
  iintro ⟨H0, H1, H2, H3, H4, Hacc⟩
  isplitl [Hacc Hg]
  · isplitl [Hacc]; · iexact Hacc
    iexact Hg
  isplitl [Ho]; · iexact Ho
  isplitl [H0]; · iexact H0
  isplitl [H1]; · iexact H1
  isplitl [H2]; · iexact H2
  isplitl [H3]; · iexact H3
  iexists d4; iexact H4

set_option maxHeartbeats 1600000 in
/-- A point that closes a group of four: the last product is added, and the output block receives the diagonal term plus
    the finished sum. -/
theorem pt_last (c : Dev nD) (t : Fin cfg0.N) (h3 : t.val % 4 = 3) :
    bodyPre m c t ⊢ wp frame (wpE (defs₀ (F := F)) Variants.none c none) Set.univ (bodyAt0 t) (fun _ => bodyPost m c t) := by
  have h0 : ¬ t.val % 4 = 0 := by omega
  have hz : t.val ≠ 0 := fun e => h0 (by rw [e])
  unfold bodyPre bodyPost bodyAt0
  simp only [before_0, before_1, before_2, before_3]
  rw [leaves_0, leaves_1, leaves_2, leaves_3, leaves_4_live m c t h3]
  rw [show (dats m 0 c).owesAt () t.succ = (dats m 0 c).owesAt () t.castSucc from rfl]
  unfold outAt
  rw [Phi_succ, accAt_next m c t h0, Phi_castSucc, PhiS_pos m c _ _ hz]
  iintro ⟨⟨Hacc, Hg⟩, Ho, ⟨%d0, H0⟩, ⟨%d1, H1⟩, ⟨%d2, H2⟩, ⟨%d3, H3⟩, ⟨%d4, H4⟩⟩
  iapply (run_last (c := c) (i := grid0.coords t) (M3 := ms_0 t) (h3 := hs_0 t) (M4 := ms_1 t) (h4 := hs_1 t)
    (M5 := ms_2 t) (h5 := hs_2 t) (M6 := ms_3 t) (h6 := hs_3 t) (M7 := ms_4 t) (h7 := hs_4 t) (M8 := scM) (h8 := Memref.isWhole_whole _)
    (hc1 := fun h => h0 ((c1_iff t).mp h)) (hc2 := (c2_iff t).mpr h3)
    (x3 := xa m c t) (x4 := sb m c t) (x5 := xe m c t) (x6 := cb m c t) (o7 := (dats m 0 c).before 4 t d4)
    (s8 := accAt m c (t.val - 1) (Nat.lt_of_le_of_lt (Nat.sub_le _ _) t.isLt)) (E := Set.univ))
  isplitl [H0]; · iexact H0
  isplitl [H1]; · iexact H1
  isplitl [H2]; · iexact H2
  isplitl [H3]; · iexact H3
  isplitl [H4]; · iexact H4
  isplitl [Hacc]; · iexact Hacc
  iintro ⟨H0, H1, H2, H3, H4, Hacc⟩
  isplitl [Hacc Hg]
  · isplitl [Hacc]; · iexact Hacc
    iexact Hg
  isplitl [Ho]; · iexact Ho
  isplitl [H0]; · iexact H0
  isplitl [H1]; · iexact H1
  isplitl [H2]; · iexact H2
  isplitl [H3]; · iexact H3
  iexact H4

/-- The body at any point, by the point's position in its group of four. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact pt_first m c t h0
  · by_cases h3 : t.val % 4 = 3
    · exact pt_last m c t h3
    · exact pt_mid m c t h0 h3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- After the last point the invariant gives the scoped rest back: the accumulator's contents are forgotten. -/
theorem hout (c : Dev nD) : (dats m 0 c).Φ (Fin.last cfg0.N) ⊢ Pipeline.ΦA spec0 c := by
  have hN : cfg0.N = 256 := N_0
  rw [show (dats m 0 c).Φ (Fin.last cfg0.N) = PhiS m c cfg0.N (Nat.le_refl _) from rfl,
    PhiS_pos m c _ _ (by omega), PhiA_eq]
  iintro ⟨Hacc, Hg⟩
  isplitl [Hacc]
  · iexists _; iexact Hacc
  iexact Hg

end Cert.Kernel.Hand

end
-- ==== Proof.WTail.lean ====
/-
  The line after the pallas_call: the reshape that gives the kernel's 16384 × 4096 result back its three axes.

  When the region is left, the five windows' arrays are at their final contents and every other unscoped buffer is as the
  region found it. The reshape reads the output array and writes one buffer that is no window's array. So its run needs two
  points-tos only: the output array's, taken out of the windows' arrays (it is held whole at the full share, being the
  output), and the result buffer's, taken out of the bypassing buffers. Afterwards both go back, the result buffer at the
  reshaped output. The flattened input, held in two halves by the two windows that read it, is not touched.
-/
import proofs.«429250_j63041529970723_3_alg».proof.Proof.WObl

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The reshape after the region -/

/-- The unscoped buffers that are no window's array: what bypasses the region. -/
def restRefs0 : Finset (Ref sig .tc) :=
  (Finset.univ.filter fun b : Ref sig .tc => ¬ b.isScoped) \ Finset.univ.image (Pipeline.arrRef spec0)

/-- The output array and the reshape's result, as device buffers. -/
abbrev d58 : DevRef τ sig := Proc.devRef .tc main_v58
abbrev d59 : DevRef τ sig := Proc.devRef .tc main_v59

/-- The buffer contents when the reshape runs: the entry contents with the output array at what the write-backs left. -/
def Wt (c : Dev nD) : Valuation τ sig (Elt F) :=
  Function.update (V0 m c) d58 ((dats m 0 c).arrAt 4 cfg0.N)

/-- What the reshape leaves in its result buffer. -/
def res59 (c : Dev nD) : Buf (Elt F) ((c.tc : Thread nD τ).loc main_v59) :=
  StableHlo.after hostOps1 (Wt m c) d59

/-- The bypassing buffers after the reshape: its result buffer at the new contents, every other one as it was. -/
def Zt (c : Dev nD) : sProp 𝕄 :=
  iprop((((c.tc : Thread nD τ).loc main_v59) ↦{fullShare} res59 m c)
    ∗ bigSep (restRefs0.erase main_v59) fun b => (((c.tc : Thread nD τ).loc b) ↦{fullShare} V m c b))

theorem mem59 : main_v59 ∈ (restRefs0 : Finset (Ref sig .tc)) := by decide

theorem Z_split (c : Dev nD) :
    (Pipeline.unscopedRestP (Ix := Unit) (Name := ℕ) (U := UR sig nD τ) (Lvl := ℕ) Pipeline.Prefetch.none spec0 c (V m c) : sProp 𝕄)
      = iprop((((c.tc : Thread nD τ).loc main_v59) ↦{fullShare} V m c main_v59)
          ∗ bigSep (restRefs0.erase main_v59) fun b => (((c.tc : Thread nD τ).loc b) ↦{fullShare} V m c b)) := by
  rw [Pipeline.unscopedRestP_none]
  unfold Pipeline.unscopedRest
  exact bigSep_erase mem59

/-- The output array's points-to apart from the four input windows' (its share is the full one: it is the output). -/
theorem arrays_split4 (c : Dev nD) (G : (w : Fin cfg0.W) → Buf (Elt F) ((cfg0.win w).arr.view.loc (c.tc : Thread nD τ))) :
    ((dats m 0 c).arrays G : sProp 𝕄)
      = iprop((((c.tc : Thread nD τ).loc main_v58) ↦{fullShare} G 4)
          ∗ bigSep ((Finset.univ : Finset (Fin cfg0.W)).erase 4) fun w =>
              (((cfg0.win w).arr.view.loc (c.tc : Thread nD τ)) ↦[(cfg0.win w).arr.view.set]{(dats m 0 c).share w} G w)) := by
  have e : ((((cfg0.win 4).arr.view.loc (c.tc : Thread nD τ)) ↦[(cfg0.win 4).arr.view.set]{(dats m 0 c).share 4} G 4) : sProp 𝕄)
      = (((c.tc : Thread nD τ).loc main_v58) ↦{fullShare} G 4) := by
    rw [(arr_whole0 4).set_eq_univ]; rfl
  unfold Dat.arrays
  rw [bigSep_univ_split (4 : Fin cfg0.W)]
  beta_reduce
  rw [e]
  rfl

/-- Two buffers held at a valuation. -/
theorem held2 (c : Dev nD) (W : Valuation τ sig (Elt F)) :
    (StableHlo.held (c.tc : Thread nD τ) ({d58, d59} : Finset (DevRef τ sig)) W : sProp 𝕄)
      = iprop((((c.tc : Thread nD τ).loc main_v58) ↦{fullShare} W d58) ∗ (((c.tc : Thread nD τ).loc main_v59) ↦{fullShare} W d59)) := by
  unfold StableHlo.held
  rw [bigSep_insert (by decide), bigSep_singleton]
  rfl

theorem Wt_58 (c : Dev nD) : Wt m c d58 = (dats m 0 c).arrAt 4 cfg0.N := by
  unfold Wt; exact Function.update_self _ _ _

theorem Wt_59 (c : Dev nD) : Wt m c d59 = V m c main_v59 := by
  unfold Wt; exact Function.update_of_ne (by decide) _ _

/-- The reshape writes its result buffer only. -/
theorem after_58 (c : Dev nD) (W : Valuation τ sig (Elt F)) : StableHlo.after hostOps1 W d58 = W d58 :=
  StableHlo.after_of_forall_not_mem hostOps1 W fun op hop => by
    simp only [hostOps1, List.mem_cons, List.mem_nil_iff, or_false] at hop
    subst hop
    simp only [StableHlo.reshape_writes, Finset.mem_singleton]
    exact StableHlo.devRef_ne_of_ne (by decide)

/-- The reshape reads the output array and writes its result buffer: it touches only these two. -/
theorem tail_sub : ∀ ops ∈ ([hostOps1] : List (List (HloOp τ sig (Elt F)))), ∀ op ∈ ops, op.bufs ⊆ ({d58, d59} : Finset (DevRef τ sig)) := by
  intro ops hops op hop
  simp only [List.mem_cons, List.mem_nil_iff, or_false] at hops
  subst hops
  simp only [hostOps1, List.mem_cons, List.mem_nil_iff, or_false] at hop
  subst hop
  exact Finset.Subset.refl _

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  simp only [hostOps1, List.mem_cons, List.mem_nil_iff, or_false] at hop
  subst hop
  rfl

set_option backward.isDefEq.respectTransparency.types false in
/-- THE LINE AFTER THE REGION: from the region's exit — the arrays at their final contents, the bypassing buffers as the
    region found them — the reshape runs, reading the output array and writing its result buffer, and hands back the arrays
    unchanged and the bypassing buffers with the result buffer at the reshaped output. -/
theorem htail (c : Dev nD) (Q' : PUnit → sProp 𝕄) :
    iprop((iprop((dats m 0 c).arrays ((dats m 0 c).arrAt · cfg0.N) ∗ Zt m c) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) (defs₀ (F := F))) (Variants.lift Variants.none) (c.tc : Thread nD τ) none) Set.univ
          (Pipeline.chain [StableHlo.seq hostOps1]) Q' := by
  rw [Z_split, arrays_split4]
  unfold Zt
  have hW : (StableHlo.held (c.tc : Thread nD τ) ({d58, d59} : Finset (DevRef τ sig)) (Wt m c) : sProp 𝕄)
      = iprop((((c.tc : Thread nD τ).loc main_v58) ↦{fullShare} (dats m 0 c).arrAt 4 cfg0.N)
          ∗ (((c.tc : Thread nD τ).loc main_v59) ↦{fullShare} V m c main_v59)) := by
    rw [held2 c, Wt_58 m c, Wt_59 m c]
  have hW' : (StableHlo.held (c.tc : Thread nD τ) ({d58, d59} : Finset (DevRef τ sig)) (StableHlo.after ([hostOps1] : List (List (HloOp τ sig (Elt F)))).flatten (Wt m c)) : sProp 𝕄)
      = iprop((((c.tc : Thread nD τ).loc main_v58) ↦{fullShare} (dats m 0 c).arrAt 4 cfg0.N)
          ∗ (((c.tc : Thread nD τ).loc main_v59) ↦{fullShare} res59 m c)) := by
    rw [held2 c, show ([hostOps1] : List (List (HloOp τ sig (Elt F)))).flatten = hostOps1 from by simp only [List.flatten_cons, List.flatten_nil, List.append_nil],
      after_58 c, Wt_58 m c]
    rfl
  rw [show (Pipeline.chain [StableHlo.seq (hostOps1 (F := F))] : Prog (TpuEff nD τ sig (Elt F) (Pipeline.Sig Λ₀ (Fin 1) fun p => (pcfgs (F := F) p).Adm) .tc) PUnit)
      = Pipeline.chain ((([hostOps1] : List (List (HloOp τ sig (Elt F)))).map StableHlo.seq) ++ []) from rfl]
  iintro ⟨Hk, Hb, ⟨H58, Hr4⟩, ⟨H59, Hrest⟩⟩
  iapply (Pipeline.wp_seqs_then (fun q => (cfgs q).toPCfg (Val := Elt F)) (defs₀ (F := F)) Variants.none c ({d58, d59} : Finset (DevRef τ sig)) [] [hostOps1] tail_sub tail_fresh (Wt m c)) $$ [Hb H58 H59]
  · rw [hW]
    isplitl [Hb]; · iexact Hb
    isplitl [H58]; · iexact H58
    iexact H59
  iintro Hb
  rw [Pipeline.chain_nil, wp_pure, hW']
  imodintro
  icases Hb with ⟨-, H58, H59⟩
  iapply Hk
  isplitl [H58 Hr4]
  · isplitl [H58]; · iexact H58
    iexact Hr4
  isplitl [H59]; · iexact H59
  iexact Hrest

end Cert.Kernel.Hand

end
-- ==== Proof.WSplit.lean ====
/-
  The arrays at entry. The five windows stand over four distinct arrays: the first and the third window read the same
  one. The launch hands over each of the four buffers whole, at the full share, at the contents the region finds; the
  proof data holds, per window, its array at the window's share. The two agree: the shared buffer is split into the two
  halves of the full share, one for each of the two windows on it; the three other buffers pass as they are.
-/
import proofs.«429250_j63041529970723_3_alg».proof.Proof.WDat
import Idealize.ShloMosaic.Lib.Pipeline.Launch
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The four distinct arrays behind the five windows (the first and the third window read one array). -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc (Pipeline.arrRef spec0 0)) ↦{fullShare} W (Pipeline.arrRef spec0 0))
          ∗ (((c : Thread nD τ).loc (Pipeline.arrRef spec0 1)) ↦{fullShare} W (Pipeline.arrRef spec0 1))
          ∗ (((c : Thread nD τ).loc (Pipeline.arrRef spec0 3)) ↦{fullShare} W (Pipeline.arrRef spec0 3))
          ∗ (((c : Thread nD τ).loc (Pipeline.arrRef spec0 4)) ↦{fullShare} W (Pipeline.arrRef spec0 4))) := by
  unfold Pipeline.arrBufs
  exact bigSep_eq_bigSepL_of_eq [Pipeline.arrRef spec0 0, Pipeline.arrRef spec0 1, Pipeline.arrRef spec0 3, Pipeline.arrRef spec0 4]
    (by decide) (by decide) _

/-- A window's array is a whole buffer: held through the window's view it is held over every element. -/
theorem arr_univ (c : Dev nD) (w : Fin 5) (q : PosShare TreeShare) (f : Buf (Elt F) (View.loc (c : Thread nD τ) (cfg0.win w).arr.view)) :
    (View.loc (c : Thread nD τ) (cfg0.win w).arr.view ↦[(cfg0.win w).arr.view.set]{q} f : sProp 𝕄)
      = (View.loc (c : Thread nD τ) (cfg0.win w).arr.view ↦{q} f) :=
  congrArg (fun S => (View.loc (c : Thread nD τ) (cfg0.win w).arr.view ↦[S]{q} f : sProp 𝕄)) (arr_whole0 w).set_eq_univ

theorem share_0 (c : Dev nD) : (dats m 0 c).share 0 = fullShare.left := rfl
theorem share_1 (c : Dev nD) : (dats m 0 c).share 1 = fullShare := rfl
theorem share_2 (c : Dev nD) : (dats m 0 c).share 2 = fullShare.right := rfl
theorem share_3 (c : Dev nD) : (dats m 0 c).share 3 = fullShare := rfl
theorem share_4 (c : Dev nD) : (dats m 0 c).share 4 = fullShare := rfl

/-- Window w's conjunct of the arrays at entry: its array's buffer, whole, at the window's share, at the entry contents. -/
theorem win_pt (c : Dev nD) (w : Fin 5) (q : PosShare TreeShare) (hq : (dats m 0 c).share w = q) :
    (View.loc (c : Thread nD τ) (cfg0.win w).arr.view ↦[(cfg0.win w).arr.view.set]{(dats m 0 c).share w} (dats m 0 c).arrAt w 0 : sProp 𝕄)
      = (((c : Thread nD τ).loc (Pipeline.arrRef spec0 w)) ↦{q} V m c (Pipeline.arrRef spec0 w)) := by
  rw [hq]; exact arr_univ c w q _

/-- The third window's array is the first's. -/
theorem ref_2 : Pipeline.arrRef spec0 2 = Pipeline.arrRef spec0 0 := by decide

/-- A buffer's points-to along an equation of references. -/
theorem pt_congr_ref (c : Dev nD) (W : (b : Ref sig .tc) → Buf (Elt F) ((c : Thread nD τ).loc b)) (q : PosShare TreeShare)
    {b b' : Ref sig .tc} (h : b = b') :
    (((c : Thread nD τ).loc b) ↦{q} W b : sProp 𝕄) = (((c : Thread nD τ).loc b') ↦{q} W b') := by
  subst h; rfl

theorem arrays0_eq (c : Dev nD) :
    ((dats m 0 c).arrays ((dats m 0 c).arrAt · 0) : sProp 𝕄)
      = iprop((((c : Thread nD τ).loc (Pipeline.arrRef spec0 0)) ↦{fullShare.left} V m c (Pipeline.arrRef spec0 0))
          ∗ (((c : Thread nD τ).loc (Pipeline.arrRef spec0 1)) ↦{fullShare} V m c (Pipeline.arrRef spec0 1))
          ∗ (((c : Thread nD τ).loc (Pipeline.arrRef spec0 0)) ↦{fullShare.right} V m c (Pipeline.arrRef spec0 0))
          ∗ (((c : Thread nD τ).loc (Pipeline.arrRef spec0 3)) ↦{fullShare} V m c (Pipeline.arrRef spec0 3))
          ∗ (((c : Thread nD τ).loc (Pipeline.arrRef spec0 4)) ↦{fullShare} V m c (Pipeline.arrRef spec0 4))) := by
  unfold Dat.arrays
  rw [bigSep_W0]
  exact congrArg₂ BI.sep (win_pt m c 0 _ (share_0 m c)) (congrArg₂ BI.sep (win_pt m c 1 _ (share_1 m c))
    (congrArg₂ BI.sep ((win_pt m c 2 _ (share_2 m c)).trans (pt_congr_ref c (V m c) _ ref_2)) (congrArg₂ BI.sep (win_pt m c 3 _ (share_3 m c)) (win_pt m c 4 _ (share_4 m c)))))

/-- The buffers behind the windows' arrays, each whole at the full share at the entry contents, are the proof data's arrays
    at entry: the flattened input's buffer is split into its two halves, one for each of the two windows that read it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs0_eq, arrays0_eq]
  iintro ⟨H0, H1, H3, H4⟩
  ihave H0 := (pointsTo_share (PosShare.mem_left_op_right fullShare)).1 $$ H0
  icases H0 with ⟨Hl, Hr⟩
  isplitl [Hl]; · iexact Hl
  isplitl [H1]; · iexact H1
  isplitl [Hr]; · iexact Hr
  isplitl [H3]; · iexact H3
  iexact H4

end Cert.Kernel.Hand

end
-- ==== Proof.WLaunch.lean ====
/-
  The launch of the whole program: every weakly fair execution of @main terminates without a fault, leaving the reshape's
  result at what the reshape computes from the output array's final contents, and every buffer that is no window's array
  and not that result as the region found it.

  @main is 74 host operations, the pallas_call, and one reshape. The host operations before the call run over the
  unscoped buffers and leave them at the fold of their results; the call is the pipeline library's region rule at the
  proof data of the five windows, whose two input windows on the flattened input each take one half of that array; the
  reshape is the line after the region.
-/
import proofs.«429250_j63041529970723_3_alg».proof.Proof.WTail
import proofs.«429250_j63041529970723_3_alg».proof.Proof.WSplit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor

/-- @main reduces to the region continued by the reshape, at the contents after the host operations before it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- What the run establishes on every core: the reshape's result, and every bypassing buffer but it unchanged since the
    region was entered. -/
def Post : PUnit × MemSt nD τ sig (Elt F) → Prop := fun r => ∀ c : Dev nD,
  r.2.mem ((c.tc : Thread nD τ).loc main_v59) = res59 m c
  ∧ (∀ b ∈ (restRefs0 : Finset (Ref sig .tc)).erase main_v59, r.2.mem ((c.tc : Thread nD τ).loc b) = V m c b)

set_option maxHeartbeats 4000000 in
set_option backward.isDefEq.respectTransparency.types false in
/-- At the compiled mesh, from any memory with zero counters: every weakly fair execution of @main on the TensorCores
    terminates, nothing faulting, in a state satisfying `Post`. -/
theorem run_main : θ_run defs (onTc (τ := τ) (main (F := F))) (s₀ m ρ) (Post m) :=
  Pipeline.θ_run_region_pf_tail (fun q => (cfgs q).toPCfg (Val := Elt F)) (fun q => (cfgs q).toPCfg_adm) (dats m) () cellOf_inj 0
    winFacts₀0 (Pipeline.OwnSemFacts.none _) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit m c)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Zt m c)
    (hX := fun c => by
      iintro ⟨HU, -, -, -, Hp, -⟩; imodintro
      isplitl [Hp]; · iexists _; iexact Hp
      iexact HU)
    (hin := fun c => (show _ ⊢ Pipeline.ΦA spec0 c from by
      unfold Pipeline.ΦA
      iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m c Q')
    (QY := fun c s => s.mem ((c.tc : Thread nD τ).loc main_v59) = res59 m c
      ∧ (∀ b ∈ (restRefs0 : Finset (Ref sig .tc)).erase main_v59, s.mem ((c.tc : Thread nD τ).loc b) = V m c b))
    (hY := fun c s' => by
      unfold Zt
      iintro ⟨-, ⟨H59, Hrest⟩, HSI⟩
      icombine HSI H59 gives %h59
      ihave Hr := (pointsTo_read_all ((restRefs0 : Finset (Ref sig .tc)).erase main_v59) (fun b => (c.tc : Thread nD τ).loc b) (fun b => V m c b) s') $$ [Hrest HSI]
      · isplitl [Hrest] <;> iassumption
      icases Hr with ⟨%hr, HSI⟩
      imodintro
      isplitr; · ipureintro; exact ⟨Buf.eq_of_forall_mem_univ h59, hr⟩
      iexact HSI)
    (hQ := fun s h c => (h c).2.2)

end Cert.Kernel.Hand

end
-- ==== Proof.WTerms.lean ====
/-
  The three arrays the kernel's host code hands the pallas_call, as pure functions of the program's arguments:
  the flattened input; the diagonal scale (one everywhere, then cos k written at column pi k, then at column pj k);
  the sparse sine matrix (zero everywhere, then −sin k written at row pj k, column pi k, then sin k at row pi k, column pj k).
  A plane index is first made non-negative the way jnp indexing does (a negative index counts from the end).
-/
import proofs.«429250_j63041529970723_3_alg».proof.Proof.Gen.Kernel

noncomputable section

namespace Cert.Kernel.Hand

open Cert.Kernel Cert.Kernel.Facts₀
open Idealize.ShloMosaic

variable {F : FTy → Type} [FloatOps F]

/-- A plane index as jnp reads it: a negative one counts from the end of the 4096 columns. -/
def wrapIdx (p : IVec S1024 32) : IVec S1024 32 :=
  select (cmpi .slt p (broadcastInDim S1024 ![] bcast_S_S1024 (constantI S_ 32 0#32)))
    (addi p (broadcastInDim S1024 ![] bcast_S_S1024 (constantI S_ 32 4096#32))) p

/-- The plane indices as a column of start indices. -/
def colOf (p : IVec S1024 32) : IVec S1024x1 32 :=
  broadcastInDim S1024x1 ![0] bcast_S1024_S1024x1_0 (wrapIdx p)

/-- A column of zeros: the row index of the one-row diagonal scale. -/
def zeroCol : IVec S1024x1 32 :=
  broadcastInDim S1024x1 ![0] bcast_S1024_S1024x1_0
    (id (broadcastInDim S1024 ![] bcast_S_S1024 (constantI S_ 32 0#32)))

/-- Two columns of start indices side by side: the (row, column) pairs a rank-2 scatter writes at. -/
def pairIdx (r q : IVec S1024x1 32) : IVec S1024x2 32 :=
  concatenate S1024x2 1 [⟨S1024x1, r⟩, ⟨S1024x1, q⟩] concatenates_S1024x1_S1024x1_S1024x2_d1

/-- The diagonal scale: ones, then the cosines written at the planes' first columns, then at their second columns. -/
def cfT (a : FVec F S1024 .f32) (pi pj : IVec S1024 32) : FVec F S1x4096 .f32 :=
  Host.scatter scatter_S1x4096_S1024x2_S1024_n_01_01_1 (fun _ b => b)
    (Host.scatter scatter_S1x4096_S1024x2_S1024_n_01_01_1 (fun _ b => b)
      (broadcastInDim S1x4096 ![] bcast_S_S1x4096 (constant S_ .f32 0x3F800000#32))
      (pairIdx zeroCol (colOf pi)) (Host.cos a))
    (pairIdx zeroCol (colOf pj)) (Host.cos a)

/-- The sparse sine matrix: zeros, then −sin k at (pj k, pi k), then sin k at (pi k, pj k), each narrowed to bf16. -/
def sT (a : FVec F S1024 .f32) (pi pj : IVec S1024 32) : FVec F S4096x4096 .bf16 :=
  Host.scatter scatter_S4096x4096_S1024x2_S1024_n_01_01_1 (fun _ b => b)
    (Host.scatter scatter_S4096x4096_S1024x2_S1024_n_01_01_1 (fun _ b => b)
      (broadcastInDim S4096x4096 ![] bcast_S_S4096x4096 (constant S_ .bf16 0x0000#16))
      (pairIdx (colOf pj) (colOf pi)) (truncf .bf16 (Host.negf (Host.sin a)) bitsLt_bf16_f32))
    (pairIdx (colOf pi) (colOf pj)) (truncf .bf16 (Host.sin a) bitsLt_bf16_f32)

/-- The input with its first two axes flattened into 16384 rows. -/
def xfT (x : FVec F S4x4096x4096 .f32) : FVec F S16384x4096 .f32 :=
  fun i => shapeCast S16384x4096 x shapeCasts_S4x4096x4096_S16384x4096 i

/-- The kernel's result array given back its first two axes. -/
def unflat (y : FVec F S16384x4096 .f32) : FVec F S4x4096x4096 .f32 :=
  fun i => shapeCast S4x4096x4096 y shapeCasts_S16384x4096_S4x4096x4096 i

end Cert.Kernel.Hand

end
-- ==== Proof.WHostV.lean ====
/-
  What the region finds in the arrays it is handed. None of the host operations before the region writes an argument,
  so each argument is as launched; the flattened input, the diagonal scale and the sparse sine matrix are the host
  operations' composed terms of the arguments, which are the three pure terms named for them.
-/
import proofs.«429250_j63041529970723_3_alg».proof.Proof.WDat
import proofs.«429250_j63041529970723_3_alg».proof.Proof.WTerms
import Idealize.ShloMosaic.Lib.StableHlo.Run

set_option maxRecDepth 16384

noncomputable section

namespace Cert.Kernel.Hand

open Cert.Kernel Cert.Kernel.Gen Cert.Kernel.Facts₀
open Idealize.ShloMosaic Idealize.ShloMosaic.TcCoe Idealize.ShloMosaic.StableHlo

variable {F : FTy → Type} [FloatOps F]

variable (m : (ℓ : Loc nD τ sig) → Buf (Elt F) ℓ) (c : Dev nD)

/-- No host operation before the region writes argument 0: the region finds it as launched. -/
theorem V_arg0 : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- No host operation before the region writes argument 1: the region finds it as launched. -/
theorem V_arg1 : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- No host operation before the region writes argument 2: the region finds it as launched. -/
theorem V_arg2 : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- No host operation before the region writes argument 3: the region finds it as launched. -/
theorem V_arg3 : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

set_option maxHeartbeats 4000000 in
/-- The flattened input is the launch input with its first two axes merged: the one host operation that writes it is the reshape. -/
theorem V_xf : (V m c main_v57 : FVec F S16384x4096 .f32) = xfT (m ((c : Thread nD τ).loc main_arg0)) := by
  dsimp only [V, V0]
  simp only [hostOps0, List.flatten_cons, List.flatten_nil, List.append_nil]
  after_results
  rfl

end Cert.Kernel.Hand

end
-- ==== Proof.WFrame.lean ====
/-
  The whole program's run, read at its result and its arguments.

  After the region the one remaining host operation reshapes the output array (16384 × 4096) into the
  result (4 × 4096 × 4096): the result holds the output array with its first two axes given back. The
  four arguments are neither a window's array the region writes nor the reshape's result, and no host
  operation before the region writes them, so they end as launched.
-/
import proofs.«429250_j63041529970723_3_alg».proof.Proof.WLaunch
import proofs.«429250_j63041529970723_3_alg».proof.Proof.WHostV
import proofs.«429250_j63041529970723_3_alg».proof.Proof.WTerms
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The reshape after the region gives the output array its first two axes back. -/
theorem res59_eq (c : Dev nD) : res59 m c = unflat ((dats m 0 c).arrAt 4 cfg0.N) := by
  unfold res59
  simp only [hostOps1, StableHlo.after_cons, StableHlo.after_nil]
  rw [StableHlo.reshape_result, Wt_58]
  rfl

/-- The program runs and leaves its four arguments as launched: none of them is a window's array the
    region writes, nor the reshape's result. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c =>
    ⟨((h c).2 main_arg0 (by decide)).trans (V_arg0 m c), ((h c).2 main_arg1 (by decide)).trans (V_arg1 m c),
      ((h c).2 main_arg2 (by decide)).trans (V_arg2 m c), ((h c).2 main_arg3 (by decide)).trans (V_arg3 m c)⟩) (run_main m ρ)

/-- The program runs, leaves in its result the output array with its first two axes back, and leaves its
    four arguments as launched. -/
theorem value : θ_run defs (onTc (τ := τ) (main (F := F))) ⟨m, fun _ => 0, ρ⟩ (fun r => ∀ c : Dev nD,
    r.2.mem ((c.tc : Thread nD τ).loc main_v59) = unflat ((dats m 0 c).arrAt 4 cfg0.N)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c =>
    ⟨((h c).1).trans (res59_eq m c),
      ((h c).2 main_arg0 (by decide)).trans (V_arg0 m c), ((h c).2 main_arg1 (by decide)).trans (V_arg1 m c),
      ((h c).2 main_arg2 (by decide)).trans (V_arg2 m c), ((h c).2 main_arg3 (by decide)).trans (V_arg3 m c)⟩) (run_main m ρ)

end Cert.Kernel.Hand

end
-- ==== Proof.Spec.lean ====
/-
  The rotation both programs compute, stated column by column.

  The last axis of the input has 4096 columns; 1024 planes each name two of them, (pi k, pj k), and an angle. An array R is
  THE ROTATION of x when, in every row, column pi k holds  x[pi k]·cos k − x[pj k]·sin k,  column pj k holds
  x[pi k]·sin k + x[pj k]·cos k,  and a column no plane names holds x there. When every plane index is a column, these three
  properties determine R: every column is of exactly one of the three kinds or the properties agree on it.
-/
import Idealize.ShloMosaic.PureOps.Ideal
import Idealize.ShloMosaic.Lib.ValueIdx

noncomputable section

namespace Cert.Spec

open Idealize.ShloMosaic Idealize.ShloMosaic.ValueIdx

/-- The input's shape and the planes' shape. -/
abbrev SX : Shape := ⟨3, ![4, 4096, 4096]⟩
abbrev SK : Shape := ⟨1, ![1024]⟩

/-- `R` is the rotation of `x` by the planes `(pi k, pj k)` with cosines `cs` and sines `sn`, column by column. -/
structure IsRot (x : SX.Idx → EReal) (cs sn : SK.Idx → EReal) (pi pj : IVec SK 32) (R : SX.Idx → EReal) : Prop where
  /-- A plane's first column holds the rotated first coordinate. -/
  at_i : ∀ (k : Fin 1024) (b : Fin 4) (s : Fin 4096) (ci cj : Fin 4096),
      (pi (ix1 k)).toNat = ci.val → (pj (ix1 k)).toNat = cj.val →
      R (ix3 b s ci) = x (ix3 b s ci) * cs (ix1 k) - x (ix3 b s cj) * sn (ix1 k)
  /-- A plane's second column holds the rotated second coordinate. -/
  at_j : ∀ (k : Fin 1024) (b : Fin 4) (s : Fin 4096) (ci cj : Fin 4096),
      (pi (ix1 k)).toNat = ci.val → (pj (ix1 k)).toNat = cj.val →
      R (ix3 b s cj) = x (ix3 b s ci) * sn (ix1 k) + x (ix3 b s cj) * cs (ix1 k)
  /-- A column no plane names is the input's. -/
  other : ∀ (b : Fin 4) (s : Fin 4096) (col : Fin 4096),
      (∀ k : Fin 1024, (pi (ix1 k)).toNat ≠ col.val ∧ (pj (ix1 k)).toNat ≠ col.val) →
      R (ix3 b s col) = x (ix3 b s col)

/-- Two rotations of one input by the same planes are equal, when every plane index is a column. -/
theorem IsRot.unique {x : SX.Idx → EReal} {cs sn : SK.Idx → EReal} {pi pj : IVec SK 32} {R R' : SX.Idx → EReal}
    (hi : ∀ k : Fin 1024, (pi (ix1 k)).toNat < 4096) (hj : ∀ k : Fin 1024, (pj (ix1 k)).toNat < 4096)
    (h : IsRot x cs sn pi pj R) (h' : IsRot x cs sn pi pj R') : R = R' := by
  funext i
  obtain ⟨b, s, col, rfl⟩ : ∃ (b : Fin 4) (s : Fin 4096) (col : Fin 4096), i = ix3 b s col := ⟨i 0, i 1, i 2, eq_ix3 i⟩
  by_cases h1 : ∃ k : Fin 1024, (pi (ix1 k)).toNat = col.val
  · obtain ⟨k, hk⟩ := h1
    rw [h.at_i k b s col ⟨(pj (ix1 k)).toNat, hj k⟩ hk rfl, h'.at_i k b s col ⟨(pj (ix1 k)).toNat, hj k⟩ hk rfl]
  · by_cases h2 : ∃ k : Fin 1024, (pj (ix1 k)).toNat = col.val
    · obtain ⟨k, hk⟩ := h2
      rw [h.at_j k b s ⟨(pi (ix1 k)).toNat, hi k⟩ col rfl hk, h'.at_j k b s ⟨(pi (ix1 k)).toNat, hi k⟩ col rfl hk]
    · have hn : ∀ k : Fin 1024, (pi (ix1 k)).toNat ≠ col.val ∧ (pj (ix1 k)).toNat ≠ col.val :=
        fun k => ⟨fun e => h1 ⟨k, e⟩, fun e => h2 ⟨k, e⟩⟩
      rw [h.other b s col hn, h'.other b s col hn]

end Cert.Spec

end
-- ==== Proof.KSpec.lean ====
/-
  The kernel's pallas_call as one function of the three arrays it is handed: row r, column c of its result is
      xf[r, c] · cf[0, c]  +  Σ_q  xf[r, q] · S[q, c],
  the diagonal term plus the row of the flattened input against the column of the sparse matrix (the sum over all 4096
  columns q: the grid's innermost axis cuts it into four stretches of 1024 that the accumulator adds up).
-/
import proofs.«429250_j63041529970723_3_alg».proof.Proof.Spec
import Mathlib.Algebra.BigOperators.Group.Finset.Basic

noncomputable section

namespace Cert.Spec

open Idealize.ShloMosaic Idealize.ShloMosaic.ValueIdx
open scoped BigOperators

/-- The shapes of the flattened input (and of the result), of the sparse matrix and of the diagonal scale. -/
abbrev SXF : Shape := ⟨2, ![16384, 4096]⟩
abbrev SS : Shape := ⟨2, ![4096, 4096]⟩
abbrev SC : Shape := ⟨2, ![1, 4096]⟩

/-- Row `r`, column `c` of the region's result. -/
def KOutAt (xf : SXF.Idx → EReal) (S : SS.Idx → EReal) (cf : SC.Idx → EReal) (r : Fin 16384) (c : Fin 4096) : EReal :=
  xf (ix2 r c) * cf (ix2 (0 : Fin 1) c) + ∑ q : Fin 4096, xf (ix2 r q) * S (ix2 q c)

/-- The row of the flattened input that holds row `s` of batch `b`. -/
def flatRow (b : Fin 4) (s : Fin 4096) : Fin 16384 := ⟨b.val * 4096 + s.val, by have := b.isLt; have := s.isLt; omega⟩

end Cert.Spec

end
-- ==== Proof.LibScatter.lean ====
/-
  Reading a `stablehlo.scatter` whose body returns the update (`x.at[idx].set(v)`) at an index,
  and the index arithmetic of three dimension-number patterns.

  The scatter is a left fold over the update positions in row-major order; each step replaces the
  element at the position's target index, when that target lies inside the operand. When distinct
  update positions never share a target, the fold's value at an index is the one update aimed at
  it, or the operand's element when no update is aimed at it (first part).

  The target of an update position is, axis by axis, the signed start index read off the scatter
  indices plus the window coordinate. The second part computes it for
    • `A.at[r, c].set(v)` over a rank-2 operand, `r` and `c` vectors (every axis inserted, two
      index components per update),
    • `x.at[..., c].set(v)` over a rank-3 operand, `c` a vector (the last axis inserted, one index
      component per update, the two leading axes window axes),
  and reads `x[..., c]` as a gather (the last axis collapsed, its start the one index component).
  Each statement takes an arbitrary dimension-number record together with equations naming its
  fields, so that it applies to any record whose fields are those lists by `rfl`.
-/
import Idealize.ShloMosaic.PureOps.ShapeOps
import Idealize.ShloMosaic.Lib.ValueIdx

namespace Idealize.ShloMosaic.ScatterSet

open Idealize.ShloMosaic Idealize.ShloMosaic.ValueIdx

variable {s si u : Shape} {w : Nat} {α : Type}

/-! ## The fold, one step at a time -/

/-- One step of the scatter's fold: the update at row-major position `n` replaces the element at its
    target index by the body's value, or changes nothing when the target is outside the operand. -/
def step (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- The scatter is the left fold of `step` over all row-major positions of the updates. -/
theorem scatter_eq_foldl (d : ScatterDims s si u) (f : α → α → α) (x : s.Idx → α) (idx : IVec si w)
    (upd : u.Idx → α) :
    Host.scatter d f x idx upd = (List.finRange u.numel).foldl (step d f idx upd) x := rfl

/-- A step whose update is aimed at `i₀`: the value at `i₀` becomes the body's, every other value stays. -/
theorem step_some (d : ScatterDims s si u) (f : α → α → α) (idx : IVec si w) (upd : u.Idx → α)
    (r : s.Idx → α) (n : Fin u.numel) (i₀ i : s.Idx)
    (h : d.resultIdx? (u.rowMajor.symm n) idx = some i₀) :
    step d f idx upd r n i = if i = i₀ then f (r i₀) (upd (u.rowMajor.symm n)) else r i := by
  unfold step; rw [h]

/-- A step whose update is dropped changes nothing. -/
theorem step_none (d : ScatterDims s si u) (f : α → α → α) (idx : IVec si w) (upd : u.Idx → α)
    (r : s.Idx → α) (n : Fin u.numel)
    (h : d.resultIdx? (u.rowMajor.symm n) idx = none) :
    step d f idx upd r n = r := by
  unfold step; rw [h]

/-- A step whose update is not aimed at `i` leaves the value at `i`. -/
theorem step_ne (d : ScatterDims s si u) (f : α → α → α) (idx : IVec si w) (upd : u.Idx → α)
    (r : s.Idx → α) (n : Fin u.numel) (i : s.Idx)
    (h : d.resultIdx? (u.rowMajor.symm n) idx ≠ some i) :
    step d f idx upd r n i = r i := by
  cases h' : d.resultIdx? (u.rowMajor.symm n) idx with
  | none => rw [step_none d f idx upd r n h']
  | some i₀ =>
    rw [step_some d f idx upd r n i₀ i h', if_neg]
    rintro rfl; exact h h'

/-- Folding over positions none of which is aimed at `i` leaves the value at `i` (any body). -/
theorem foldl_miss (d : ScatterDims s si u) (f : α → α → α) (idx : IVec si w) (upd : u.Idx → α)
    (i : s.Idx) (l : List (Fin u.numel)) (r : s.Idx → α)
    (h : ∀ n ∈ l, d.resultIdx? (u.rowMajor.symm n) idx ≠ some i) :
    l.foldl (step d f idx upd) r i = r i := by
  induction l generalizing r with
  | nil => rfl
  | cons n l ih =>
    rw [List.foldl_cons, ih _ fun m hm => h m (List.mem_cons_of_mem _ hm),
      step_ne d f idx upd r n i (h n List.mem_cons_self)]

/-- Folding the "return the update" body over positions among which `n` is aimed at `i`, and every
    position aimed at `i` is `n`: the value at `i` is `n`'s update. -/
theorem foldl_hit (d : ScatterDims s si u) (idx : IVec si w) (upd : u.Idx → α)
    (i : s.Idx) (n : Fin u.numel) (hn : d.resultIdx? (u.rowMajor.symm n) idx = some i)
    (l : List (Fin u.numel)) (r : s.Idx → α) (hmem : n ∈ l)
    (huniq : ∀ m ∈ l, d.resultIdx? (u.rowMajor.symm m) idx = some i → m = n) :
    l.foldl (step d (fun _ b => b) idx upd) r i = upd (u.rowMajor.symm n) := by
  induction l generalizing r with
  | nil => cases hmem
  | cons m l ih =>
    rw [List.foldl_cons]
    by_cases hl : n ∈ l
    · exact ih _ hl fun m' hm' => huniq m' (List.mem_cons_of_mem _ hm')
    · obtain rfl : n = m := by
        rcases List.mem_cons.1 hmem with h | h
        · exact h
        · exact absurd h hl
      rw [foldl_miss d _ idx upd i l _ fun m' hm' hm'' => hl (huniq m' (List.mem_cons_of_mem _ hm') hm'' ▸ hm'),
        step_some d _ idx upd r n i i hn, if_pos rfl]

/-! ## The scatter read at an index -/

/-- READ AT A TARGET. When no two update positions share a target inside the operand, the scatter
    that returns the update holds, at the target of update position `j`, that update's value. -/
theorem scatter_set_hit (d : ScatterDims s si u) (x : s.Idx → α) (idx : IVec si w) (upd : u.Idx → α)
    (hinj : ∀ j j' : u.Idx, ∀ i : s.Idx, d.resultIdx? j idx = some i → d.resultIdx? j' idx = some i → j = j')
    {j : u.Idx} {i : s.Idx} (h : d.resultIdx? j idx = some i) :
    Host.scatter d (fun _ b => b) x idx upd i = upd j := by
  rw [scatter_eq_foldl]
  have hj : u.rowMajor.symm (u.rowMajor j) = j := u.rowMajor.symm_apply_apply j
  rw [foldl_hit d idx upd i (u.rowMajor j) (by rw [hj]; exact h) _ x (List.mem_finRange _), hj]
  intro m _ hm
  have := hinj _ _ i hm h
  rw [← this, Equiv.apply_symm_apply]

/-- READ AWAY FROM EVERY TARGET. Where no update position is aimed, the scatter holds the operand's
    element (any body). -/
theorem scatter_miss (d : ScatterDims s si u) (f : α → α → α) (x : s.Idx → α) (idx : IVec si w)
    (upd : u.Idx → α) {i : s.Idx} (h : ∀ j, d.resultIdx? j idx ≠ some i) :
    Host.scatter d f x idx upd i = x i := by
  rw [scatter_eq_foldl]
  exact foldl_miss d f idx upd i _ x fun n _ => h _

/-- READ AWAY FROM EVERY TARGET, for the body that returns the update. -/
theorem scatter_set_miss (d : ScatterDims s si u) (x : s.Idx → α) (idx : IVec si w) (upd : u.Idx → α)
    {i : s.Idx} (h : ∀ j, d.resultIdx? j idx ≠ some i) :
    Host.scatter d (fun _ b => b) x idx upd i = x i :=
  scatter_miss d _ x idx upd h

/-! ## The target of an update position, axis by axis -/

/-- The target of update position `j` is `i` exactly when, on every axis, the window's signed start
    plus the window coordinate is `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hr
      have h1 := congrFun (Option.some.inj h) a
      have h2 := congrArg Fin.val h1
      simp only at h2
      have := (hr a).1
      omega
    · cases h
  · intro h
    have hr : ∀ a, 0 ≤ d.start j idx a + d.window j a ∧ d.start j idx a + d.window j a < s.size a := by
      intro a; have := h a; have := (i a).isLt; omega
    rw [dif_pos hr]
    congr 1; funext a; apply Fin.ext; have := h a; simp only; omega

/-- The window coordinate is zero on an inserted axis. -/
theorem window_of_mem_inserted (d : ScatterDims s si u) (j : u.Idx) (a : Fin s.rank)
    (ha : a ∈ d.insertedWindowDims) : d.window j a = 0 := by
  unfold ScatterDims.window
  rw [dif_neg]
  simp [ScatterDims.sKept, Shape.kept, List.mem_filter, ha]

/-- The start is zero on an axis the scatter indices do not address. -/
theorem start_of_not_mem (d : ScatterDims s si u) (j : u.Idx) (idx : IVec si w) (a : Fin s.rank)
    (ha : a ∉ d.scatterDimsToOperandDims) : d.start j idx a = 0 := by
  unfold ScatterDims.start
  rw [dif_neg ha]

/-! ## `A.at[r, c].set(v)`: a rank-2 operand, every axis inserted, two index components -/

section P1
variable {R C n : Nat}

/-- On the row axis the start of update `k` is the first component of its scatter index, read signed. -/
theorem p1_start0 (wf) (idx : IVec ⟨2, ![n, 2]⟩ w) (k : Fin n) :
    (⟨[], [0, 1], [0, 1], 1, wf⟩ : ScatterDims ⟨2, ![R, C]⟩ ⟨2, ![n, 2]⟩ ⟨1, ![n]⟩).start (ix1 k) idx 0
      = (idx (ix2 k 0)).toInt := by
  unfold ScatterDims.start
  rw [dif_pos (List.mem_cons_self)]
  congr 2
  funext b; refine Fin.ext ?_
  match b with
  | ⟨0, _⟩ => rfl
  | ⟨1, _⟩ => rfl

/-- On the column axis the start of update `k` is the second component of its scatter index, read signed. -/
theorem p1_start1 (wf) (idx : IVec ⟨2, ![n, 2]⟩ w) (k : Fin n) :
    (⟨[], [0, 1], [0, 1], 1, wf⟩ : ScatterDims ⟨2, ![R, C]⟩ ⟨2, ![n, 2]⟩ ⟨1, ![n]⟩).start (ix1 k) idx 1
      = (idx (ix2 k 1)).toInt := by
  unfold ScatterDims.start
  rw [dif_pos (List.mem_cons_of_mem _ List.mem_cons_self)]
  congr 2
  funext b; refine Fin.ext ?_
  match b with
  | ⟨0, _⟩ => rfl
  | ⟨1, _⟩ => rfl

/-- THE TARGET OF UPDATE `k` is `(r, c)` exactly when the two components of its scatter index, read
    signed, are `r` and `c` (an index with a component outside the operand has no target). -/
theorem p1_resultIdx?_iff (d : ScatterDims ⟨2, ![R, C]⟩ ⟨2, ![n, 2]⟩ ⟨1, ![n]⟩)
    (huw : d.updateWindowDims = []) (hiw : d.insertedWindowDims = [0, 1])
    (hsd : d.scatterDimsToOperandDims = [0, 1]) (hiv : d.indexVectorDim = 1)
    (idx : IVec ⟨2, ![n, 2]⟩ w) (k : Fin n) (r : Fin R) (c : Fin C) :
    d.resultIdx? (ix1 k) idx = some (ix2 r c) ↔
      (idx (ix2 k 0)).toInt = (r.val : Int) ∧ (idx (ix2 k 1)).toInt = (c.val : Int) := by
  obtain ⟨uw, iw, sd, iv, wf⟩ := d
  dsimp only at huw hiw hsd hiv
  subst huw hiw hsd hiv
  rw [resultIdx?_eq_some_iff]
  have w0 := window_of_mem_inserted (⟨[], [0, 1], [0, 1], 1, wf⟩ : ScatterDims ⟨2, ![R, C]⟩ ⟨2, ![n, 2]⟩ ⟨1, ![n]⟩)
    (ix1 k) 0 List.mem_cons_self
  have w1 := window_of_mem_inserted (⟨[], [0, 1], [0, 1], 1, wf⟩ : ScatterDims ⟨2, ![R, C]⟩ ⟨2, ![n, 2]⟩ ⟨1, ![n]⟩)
    (ix1 k) 1 (List.mem_cons_of_mem _ List.mem_cons_self)
  constructor
  · intro h
    have h0 := h 0
    have h1 := h 1
    rw [p1_start0, w0, Nat.cast_zero, Int.add_zero] at h0
    rw [p1_start1, w1, Nat.cast_zero, Int.add_zero] at h1
    exact ⟨h0, h1⟩
  · rintro ⟨h0, h1⟩ a
    match a with
    | ⟨0, _⟩ =>
      show ScatterDims.start _ (ix1 k) idx 0 + ((ScatterDims.window _ (ix1 k) 0 : Nat) : Int) = _
      rw [p1_start0, w0, Nat.cast_zero, Int.add_zero]; exact h0
    | ⟨1, _⟩ =>
      show ScatterDims.start _ (ix1 k) idx 1 + ((ScatterDims.window _ (ix1 k) 1 : Nat) : Int) = _
      rw [p1_start1, w1, Nat.cast_zero, Int.add_zero]; exact h1

/-- Updates whose scatter indices, read signed, differ in a component whenever both lie inside the
    operand never share a target. -/
theorem p1_inj (d : ScatterDims ⟨2, ![R, C]⟩ ⟨2, ![n, 2]⟩ ⟨1, ![n]⟩)
    (huw : d.updateWindowDims = []) (hiw : d.insertedWindowDims = [0, 1])
    (hsd : d.scatterDimsToOperandDims = [0, 1]) (hiv : d.indexVectorDim = 1)
    (idx : IVec ⟨2, ![n, 2]⟩ w)
    (hdist : ∀ (k k' : Fin n) (r : Fin R) (c : Fin C),
      (idx (ix2 k 0)).toInt = (r.val : Int) → (idx (ix2 k 1)).toInt = (c.val : Int) →
      (idx (ix2 k' 0)).toInt = (r.val : Int) → (idx (ix2 k' 1)).toInt = (c.val : Int) → k = k') :
    ∀ j j' : (⟨1, ![n]⟩ : Shape).Idx, ∀ i : (⟨2, ![R, C]⟩ : Shape).Idx,
      d.resultIdx? j idx = some i → d.resultIdx? j' idx = some i → j = j' := by
  intro j j' i h h'
  rw [eq_ix1 j, eq_ix2 i] at h
  rw [eq_ix1 j', eq_ix2 i] at h'
  have e := (p1_resultIdx?_iff d huw hiw hsd hiv idx _ _ _).1 h
  have e' := (p1_resultIdx?_iff d huw hiw hsd hiv idx _ _ _).1 h'
  rw [eq_ix1 j, eq_ix1 j', hdist _ _ _ _ e.1 e.2 e'.1 e'.2]

/-- `A.at[r, c].set(v)` READ AT A TARGET: where update `k`'s scatter index points, the result holds
    `v[k]`, provided no two updates point at the same element of the operand. -/
theorem p1_scatter_hit (d : ScatterDims ⟨2, ![R, C]⟩ ⟨2, ![n, 2]⟩ ⟨1, ![n]⟩)
    (huw : d.updateWindowDims = []) (hiw : d.insertedWindowDims = [0, 1])
    (hsd : d.scatterDimsToOperandDims = [0, 1]) (hiv : d.indexVectorDim = 1)
    (x : (⟨2, ![R, C]⟩ : Shape).Idx → α) (idx : IVec ⟨2, ![n, 2]⟩ w) (upd : (⟨1, ![n]⟩ : Shape).Idx → α)
    (hdist : ∀ (k k' : Fin n) (r : Fin R) (c : Fin C),
      (idx (ix2 k 0)).toInt = (r.val : Int) → (idx (ix2 k 1)).toInt = (c.val : Int) →
      (idx (ix2 k' 0)).toInt = (r.val : Int) → (idx (ix2 k' 1)).toInt = (c.val : Int) → k = k')
    (k : Fin n) (r : Fin R) (c : Fin C)
    (hr : (idx (ix2 k 0)).toInt = (r.val : Int)) (hc : (idx (ix2 k 1)).toInt = (c.val : Int)) :
    Host.scatter d (fun _ b => b) x idx upd (ix2 r c) = upd (ix1 k) :=
  scatter_set_hit d x idx upd (p1_inj d huw hiw hsd hiv idx hdist)
    ((p1_resultIdx?_iff d huw hiw hsd hiv idx k r c).2 ⟨hr, hc⟩)

/-- `A.at[r, c].set(v)` READ AWAY FROM EVERY TARGET: where no update's scatter index points, the
    result holds the operand's element. -/
theorem p1_scatter_miss (d : ScatterDims ⟨2, ![R, C]⟩ ⟨2, ![n, 2]⟩ ⟨1, ![n]⟩)
    (huw : d.updateWindowDims = []) (hiw : d.insertedWindowDims = [0, 1])
    (hsd : d.scatterDimsToOperandDims = [0, 1]) (hiv : d.indexVectorDim = 1)
    (f : α → α → α)
    (x : (⟨2, ![R, C]⟩ : Shape).Idx → α) (idx : IVec ⟨2, ![n, 2]⟩ w) (upd : (⟨1, ![n]⟩ : Shape).Idx → α)
    (r : Fin R) (c : Fin C)
    (h : ∀ k : Fin n, ¬ ((idx (ix2 k 0)).toInt = (r.val : Int) ∧ (idx (ix2 k 1)).toInt = (c.val : Int))) :
    Host.scatter d f x idx upd (ix2 r c) = x (ix2 r c) := by
  refine scatter_miss d f x idx upd fun j hj => ?_
  rw [eq_ix1 j] at hj
  exact h _ ((p1_resultIdx?_iff d huw hiw hsd hiv idx _ r c).1 hj)

end P1

/-! ## `x.at[..., c].set(v)`: a rank-3 operand, the last axis inserted, one index component -/

section P2
variable {B S D n : Nat}

/-- On the last axis the start of update `(b, t, k)` is the scatter index of column `k`, read signed. -/
theorem p2_start2 (wf) (idx : IVec ⟨2, ![n, 1]⟩ w) (b : Fin B) (t : Fin S) (k : Fin n) :
    (⟨[0, 1], [2], [2], 1, wf⟩ : ScatterDims ⟨3, ![B, S, D]⟩ ⟨2, ![n, 1]⟩ ⟨3, ![B, S, n]⟩).start (ix3 b t k) idx 2
      = (idx (ix2 k 0)).toInt := by
  unfold ScatterDims.start
  rw [dif_pos (List.mem_cons_self)]
  congr 2
  funext b'; refine Fin.ext ?_
  match b' with
  | ⟨0, _⟩ => rfl
  | ⟨1, _⟩ => rfl

/-- The start is zero on the first axis, which the scatter indices do not address. -/
theorem p2_start0 (wf) (idx : IVec ⟨2, ![n, 1]⟩ w) (j : (⟨3, ![B, S, n]⟩ : Shape).Idx) :
    (⟨[0, 1], [2], [2], 1, wf⟩ : ScatterDims ⟨3, ![B, S, D]⟩ ⟨2, ![n, 1]⟩ ⟨3, ![B, S, n]⟩).start j idx 0 = 0 :=
  start_of_not_mem _ _ _ _ (by simp)

/-- The start is zero on the second axis, which the scatter indices do not address. -/
theorem p2_start1 (wf) (idx : IVec ⟨2, ![n, 1]⟩ w) (j : (⟨3, ![B, S, n]⟩ : Shape).Idx) :
    (⟨[0, 1], [2], [2], 1, wf⟩ : ScatterDims ⟨3, ![B, S, D]⟩ ⟨2, ![n, 1]⟩ ⟨3, ![B, S, n]⟩).start j idx 1 = 0 :=
  start_of_not_mem _ _ _ _ (by simp)

/-- On the first axis the window coordinate of update `(b, t, k)` is `b`. -/
theorem p2_window0 (wf) (b : Fin B) (t : Fin S) (k : Fin n) :
    (⟨[0, 1], [2], [2], 1, wf⟩ : ScatterDims ⟨3, ![B, S, D]⟩ ⟨2, ![n, 1]⟩ ⟨3, ![B, S, n]⟩).window (ix3 b t k) 0 = b.val := rfl

/-- On the second axis the window coordinate of update `(b, t, k)` is `t`. -/
theorem p2_window1 (wf) (b : Fin B) (t : Fin S) (k : Fin n) :
    (⟨[0, 1], [2], [2], 1, wf⟩ : ScatterDims ⟨3, ![B, S, D]⟩ ⟨2, ![n, 1]⟩ ⟨3, ![B, S, n]⟩).window (ix3 b t k) 1 = t.val := rfl

/-- THE TARGET OF UPDATE `(b, t, k)` is `(b', t', c)` exactly when `b' = b`, `t' = t` and the scatter
    index of column `k`, read signed, is `c` (a column outside the operand has no target). -/
theorem p2_resultIdx?_iff (d : ScatterDims ⟨3, ![B, S, D]⟩ ⟨2, ![n, 1]⟩ ⟨3, ![B, S, n]⟩)
    (huw : d.updateWindowDims = [0, 1]) (hiw : d.insertedWindowDims = [2])
    (hsd : d.scatterDimsToOperandDims = [2]) (hiv : d.indexVectorDim = 1)
    (idx : IVec ⟨2, ![n, 1]⟩ w) (b : Fin B) (t : Fin S) (k : Fin n) (b' : Fin B) (t' : Fin S) (c : Fin D) :
    d.resultIdx? (ix3 b t k) idx = some (ix3 b' t' c) ↔
      b' = b ∧ t' = t ∧ (idx (ix2 k 0)).toInt = (c.val : Int) := by
  obtain ⟨uw, iw, sd, iv, wf⟩ := d
  dsimp only at huw hiw hsd hiv
  subst huw hiw hsd hiv
  rw [resultIdx?_eq_some_iff]
  have w2 := window_of_mem_inserted (⟨[0, 1], [2], [2], 1, wf⟩ : ScatterDims ⟨3, ![B, S, D]⟩ ⟨2, ![n, 1]⟩ ⟨3, ![B, S, n]⟩)
    (ix3 b t k) 2 List.mem_cons_self
  constructor
  · intro h
    have h0 := h 0
    have h1 := h 1
    have h2 := h 2
    rw [p2_start0, p2_window0] at h0
    rw [p2_start1, p2_window1] at h1
    rw [p2_start2, w2, Nat.cast_zero, Int.add_zero] at h2
    refine ⟨Fin.ext ?_, Fin.ext ?_, h2⟩
    · have h0' : (0 : Int) + (b.val : Int) = (b'.val : Int) := h0
      omega
    · have h1' : (0 : Int) + (t.val : Int) = (t'.val : Int) := h1
      omega
  · rintro ⟨rfl, rfl, h2⟩ a
    match a with
    | ⟨0, _⟩ =>
      show ScatterDims.start _ (ix3 b' t' k) idx 0 + ((ScatterDims.window _ (ix3 b' t' k) 0 : Nat) : Int) = _
      rw [p2_start0, p2_window0, Int.zero_add]
    | ⟨1, _⟩ =>
      show ScatterDims.start _ (ix3 b' t' k) idx 1 + ((ScatterDims.window _ (ix3 b' t' k) 1 : Nat) : Int) = _
      rw [p2_start1, p2_window1, Int.zero_add]
    | ⟨2, _⟩ =>
      show ScatterDims.start _ (ix3 b' t' k) idx 2 + ((ScatterDims.window _ (ix3 b' t' k) 2 : Nat) : Int) = _
      rw [p2_start2, w2, Nat.cast_zero, Int.add_zero]; exact h2

/-- Updates whose column indices, read signed, differ whenever they lie inside the operand never
    share a target. -/
theorem p2_inj (d : ScatterDims ⟨3, ![B, S, D]⟩ ⟨2, ![n, 1]⟩ ⟨3, ![B, S, n]⟩)
    (huw : d.updateWindowDims = [0, 1]) (hiw : d.insertedWindowDims = [2])
    (hsd : d.scatterDimsToOperandDims = [2]) (hiv : d.indexVectorDim = 1)
    (idx : IVec ⟨2, ![n, 1]⟩ w)
    (hdist : ∀ (k k' : Fin n) (c : Fin D),
      (idx (ix2 k 0)).toInt = (c.val : Int) → (idx (ix2 k' 0)).toInt = (c.val : Int) → k = k') :
    ∀ j j' : (⟨3, ![B, S, n]⟩ : Shape).Idx, ∀ i : (⟨3, ![B, S, D]⟩ : Shape).Idx,
      d.resultIdx? j idx = some i → d.resultIdx? j' idx = some i → j = j' := by
  intro j j' i h h'
  rw [eq_ix3 j, eq_ix3 i] at h
  rw [eq_ix3 j', eq_ix3 i] at h'
  have e := (p2_resultIdx?_iff d huw hiw hsd hiv idx _ _ _ _ _ _).1 h
  have e' := (p2_resultIdx?_iff d huw hiw hsd hiv idx _ _ _ _ _ _).1 h'
  have h0 : j 0 = j' 0 := e.1.symm.trans e'.1
  have h1 : j 1 = j' 1 := e.2.1.symm.trans e'.2.1
  have h2 : j 2 = j' 2 := hdist _ _ _ e.2.2 e'.2.2
  funext a
  match a with
  | ⟨0, _⟩ => exact h0
  | ⟨1, _⟩ => exact h1
  | ⟨2, _⟩ => exact h2

/-- `x.at[..., c].set(v)` READ AT A TARGET: at column `c[k]` the result holds `v[b, t, k]`, provided
    no two columns of the update point at the same column of the operand. -/
theorem p2_scatter_hit (d : ScatterDims ⟨3, ![B, S, D]⟩ ⟨2, ![n, 1]⟩ ⟨3, ![B, S, n]⟩)
    (huw : d.updateWindowDims = [0, 1]) (hiw : d.insertedWindowDims = [2])
    (hsd : d.scatterDimsToOperandDims = [2]) (hiv : d.indexVectorDim = 1)
    (x : (⟨3, ![B, S, D]⟩ : Shape).Idx → α) (idx : IVec ⟨2, ![n, 1]⟩ w)
    (upd : (⟨3, ![B, S, n]⟩ : Shape).Idx → α)
    (hdist : ∀ (k k' : Fin n) (c : Fin D),
      (idx (ix2 k 0)).toInt = (c.val : Int) → (idx (ix2 k' 0)).toInt = (c.val : Int) → k = k')
    (b : Fin B) (t : Fin S) (k : Fin n) (c : Fin D) (hc : (idx (ix2 k 0)).toInt = (c.val : Int)) :
    Host.scatter d (fun _ b => b) x idx upd (ix3 b t c) = upd (ix3 b t k) :=
  scatter_set_hit d x idx upd (p2_inj d huw hiw hsd hiv idx hdist)
    ((p2_resultIdx?_iff d huw hiw hsd hiv idx b t k b t c).2 ⟨rfl, rfl, hc⟩)

/-- `x.at[..., c].set(v)` READ AWAY FROM EVERY TARGET: at a column no entry of `c` names, the result
    holds the operand's element. -/
theorem p2_scatter_miss (d : ScatterDims ⟨3, ![B, S, D]⟩ ⟨2, ![n, 1]⟩ ⟨3, ![B, S, n]⟩)
    (huw : d.updateWindowDims = [0, 1]) (hiw : d.insertedWindowDims = [2])
    (hsd : d.scatterDimsToOperandDims = [2]) (hiv : d.indexVectorDim = 1)
    (f : α → α → α)
    (x : (⟨3, ![B, S, D]⟩ : Shape).Idx → α) (idx : IVec ⟨2, ![n, 1]⟩ w)
    (upd : (⟨3, ![B, S, n]⟩ : Shape).Idx → α)
    (b : Fin B) (t : Fin S) (c : Fin D) (h : ∀ k : Fin n, (idx (ix2 k 0)).toInt ≠ (c.val : Int)) :
    Host.scatter d f x idx upd (ix3 b t c) = x (ix3 b t c) := by
  refine scatter_miss d f x idx upd fun j hj => ?_
  rw [eq_ix3 j] at hj
  exact h _ ((p2_resultIdx?_iff d huw hiw hsd hiv idx _ _ _ b t c).1 hj).2.2

end P2

/-! ## `x[..., c]` as a gather: a rank-3 operand, the last axis collapsed, one index component -/

section P3
variable {B S D n : Nat}

/-- The operand index result index `(b, t, k)` reads: `(b, t, col)`, `col` the start index of column
    `k` read signed and clamped into the operand's last axis. -/
theorem p3_operandIdx (wf) (idx : IVec ⟨2, ![n, 1]⟩ w) (b : Fin B) (t : Fin S) (k : Fin n) (hD : 0 < D) :
    (⟨[0, 1], [2], [], [], [2], 1, ![B, S, 1], wf⟩ : GatherDims ⟨3, ![B, S, D]⟩ ⟨2, ![n, 1]⟩ ⟨3, ![B, S, n]⟩).operandIdx
        (ix3 b t k) idx
      = ix3 b t ⟨min (idx (ix2 k 0)).toInt.toNat (D - 1), by omega⟩ := by
  funext a
  refine Fin.ext ?_
  show GatherDims.start _ (ix3 b t k) idx a + GatherDims.batchCoord _ (ix3 b t k) a + GatherDims.offCoord _ (ix3 b t k) a = _
  rw [GatherDims.batchCoord_eq_zero _ _ _ List.not_mem_nil, Nat.add_zero]
  match a with
  | ⟨0, _⟩ =>
    have hs : GatherDims.start (⟨[0, 1], [2], [], [], [2], 1, ![B, S, 1], wf⟩ :
        GatherDims ⟨3, ![B, S, D]⟩ ⟨2, ![n, 1]⟩ ⟨3, ![B, S, n]⟩) (ix3 b t k) idx 0 = 0 := by
      unfold GatherDims.start; rw [dif_neg (by simp)]
    show GatherDims.start _ (ix3 b t k) idx 0 + GatherDims.offCoord _ (ix3 b t k) 0 = _
    rw [hs, Nat.zero_add]; rfl
  | ⟨1, _⟩ =>
    have hs : GatherDims.start (⟨[0, 1], [2], [], [], [2], 1, ![B, S, 1], wf⟩ :
        GatherDims ⟨3, ![B, S, D]⟩ ⟨2, ![n, 1]⟩ ⟨3, ![B, S, n]⟩) (ix3 b t k) idx 1 = 0 := by
      unfold GatherDims.start; rw [dif_neg (by simp)]
    show GatherDims.start _ (ix3 b t k) idx 1 + GatherDims.offCoord _ (ix3 b t k) 1 = _
    rw [hs, Nat.zero_add]; rfl
  | ⟨2, _⟩ =>
    show GatherDims.start _ (ix3 b t k) idx 2 + GatherDims.offCoord _ (ix3 b t k) 2 = _
    rw [GatherDims.offCoord_eq_zero _ _ _ (fun h => ((GatherDims.mem_sKept _ _).mp h).1 (List.mem_singleton.mpr rfl)),
      Nat.add_zero]
    unfold GatherDims.start
    rw [dif_pos (List.mem_cons_self)]
    have hsi : GatherDims.siIdx (⟨[0, 1], [2], [], [], [2], 1, ![B, S, 1], wf⟩ :
        GatherDims ⟨3, ![B, S, D]⟩ ⟨2, ![n, 1]⟩ ⟨3, ![B, S, n]⟩) (ix3 b t k)
        ⟨List.idxOf (2 : Fin 3) [2], List.idxOf_lt_length_iff.2 List.mem_cons_self⟩ = ix2 k 0 := by
      funext b'; refine Fin.ext ?_
      match b' with
      | ⟨0, _⟩ => rfl
      | ⟨1, _⟩ => rfl
    rw [hsi]
    rfl

/-- `x[..., c]` READ AT `(b, t, k)`, the start clamped: the operand at `(b, t, col)`, `col` the start
    index of column `k` read signed and clamped into `[0, D − 1]`. -/
theorem p3_gather_apply_clamped (d : GatherDims ⟨3, ![B, S, D]⟩ ⟨2, ![n, 1]⟩ ⟨3, ![B, S, n]⟩)
    (hod : d.offsetDims = [0, 1]) (hcs : d.collapsedSliceDims = [2]) (hob : d.operandBatchingDims = [])
    (hsb : d.startIndicesBatchingDims = []) (hsm : d.startIndexMap = [2]) (hiv : d.indexVectorDim = 1)
    (hss : d.sliceSizes = ![B, S, 1]) (hD : 0 < D)
    (x : (⟨3, ![B, S, D]⟩ : Shape).Idx → α) (idx : IVec ⟨2, ![n, 1]⟩ w) (b : Fin B) (t : Fin S) (k : Fin n) :
    Host.gather d x idx (ix3 b t k) = x (ix3 b t ⟨min (idx (ix2 k 0)).toInt.toNat (D - 1), by omega⟩) := by
  obtain ⟨od, cs, ob, sb, sm, iv, ss, wf⟩ := d
  dsimp only at hod hcs hob hsb hsm hiv hss
  subst hod hcs hob hsb hsm hiv hss
  unfold Host.gather
  rw [p3_operandIdx wf idx b t k hD]

/-- `x[..., c]` READ AT `(b, t, k)`, the start inside the operand: the operand at `(b, t, c[k])`. -/
theorem p3_gather_apply (d : GatherDims ⟨3, ![B, S, D]⟩ ⟨2, ![n, 1]⟩ ⟨3, ![B, S, n]⟩)
    (hod : d.offsetDims = [0, 1]) (hcs : d.collapsedSliceDims = [2]) (hob : d.operandBatchingDims = [])
    (hsb : d.startIndicesBatchingDims = []) (hsm : d.startIndexMap = [2]) (hiv : d.indexVectorDim = 1)
    (hss : d.sliceSizes = ![B, S, 1])
    (x : (⟨3, ![B, S, D]⟩ : Shape).Idx → α) (idx : IVec ⟨2, ![n, 1]⟩ w) (b : Fin B) (t : Fin S) (k : Fin n)
    (c : Fin D) (hc : (idx (ix2 k 0)).toInt = (c.val : Int)) :
    Host.gather d x idx (ix3 b t k) = x (ix3 b t c) := by
  have hD : 0 < D := Nat.lt_of_le_of_lt (Nat.zero_le _) c.isLt
  rw [p3_gather_apply_clamped d hod hcs hob hsb hsm hiv hss hD x idx b t k]
  congr 2
  refine Fin.ext ?_
  show min (idx (ix2 k 0)).toInt.toNat (D - 1) = c.val
  rw [hc, Int.toNat_natCast]
  have := c.isLt
  omega

end P3

end Idealize.ShloMosaic.ScatterSet
-- ==== Proof.PreDecode.lean ====
import proofs.«429250_j63041529970723_3_alg».proof.Proof.Gen.Pre_finite_inputs
import Idealize.ShloMosaic.Lib.StableHlo.Predicate
import Idealize.ShloMosaic.Lib.ReduceAll
import Idealize.ShloMosaic.PureOps.Ideal
import Mathlib.Data.EReal.Operations

/-!
  The precondition, read back. The printed predicate is a conjunction of seven `all`s over the
  arguments (the float array x, the angles a, and the two index vectors pi, pj of 1024 words):
  every |x| and |a| is below +∞; every pi k and pj k lies in [0, 4096); pi k ≠ pi k' and pj k ≠ pj k'
  off the diagonal k = k'; pi k ≠ pj k' everywhere. From "the predicate is 1" this module derives
  those facts in arithmetic form: the ranges, the injectivity of pi and of pj, and their disjointness.
-/

namespace Cert.PreDecode

open Idealize.ShloMosaic Idealize.ShloMosaic.StableHlo Cert.Pre_finite_inputs Cert.Pre_finite_inputs.Facts

/-- The rank-0 shape has one index. -/
instance subsingleton_S_ : Subsingleton S_.Idx := ⟨fun a b => funext fun d => d.elim0⟩

/-- A vector laid along the rows of the 1024 × 1024 square reads, at (p, q), the vector at p. -/
theorem rows_apply {α : Type} (v : S1024.Idx → α) (p q : Fin 1024) :
    broadcastInDim S1024x1024 ![0, 1] bcast_S1024x1_S1024x1024_0_1
      (broadcastInDim S1024x1 ![0] bcast_S1024_S1024x1_0 v) (Predicate.ij p q) = v (Shape.Idx.ofFin p) :=
  Predicate.bcast_rows bcast_S1024_S1024x1_0 bcast_S1024x1_S1024x1024_0_1 v p q

/-- A vector laid along the columns of the square reads, at (p, q), the vector at q. -/
theorem cols_apply {α : Type} (v : S1024.Idx → α) (p q : Fin 1024) :
    broadcastInDim S1024x1024 ![0, 1] bcast_S1x1024_S1024x1024_0_1
      (broadcastInDim S1x1024 ![1] bcast_S1024_S1x1024_1 v) (Predicate.ij p q) = v (Shape.Idx.ofFin q) :=
  Predicate.bcast_cols bcast_S1024_S1x1024_1 bcast_S1x1024_S1024x1024_0_1 v p q

section
variable {F : FTy → Type} [FloatOps F]
variable (x : FVec F S4x4096x4096 .f32) (a : FVec F S1024 .f32) (pi pj : IVec S1024 32)

/-- The seven conjuncts of the predicate, each an `all` read back as a statement at every index. -/
theorem parts (h : fn (F := F) x a pi pj = fun _ => 1#1) :
    (∀ i, cmpf .olt (Host.absf x) (broadcastInDim S4x4096x4096 ![] bcast_S_S4x4096x4096 (constant S_ .f32 0x7F800000#32)) i = 1#1) ∧
    (∀ i, cmpf .olt (Host.absf a) (broadcastInDim S1024 ![] bcast_S_S1024 (constant S_ .f32 0x7F800000#32)) i = 1#1) ∧
    (∀ i, andi (cmpi .sge pi (broadcastInDim S1024 ![] bcast_S_S1024 (constantI S_ 32 0#32)))
        (cmpi .slt pi (broadcastInDim S1024 ![] bcast_S_S1024 (constantI S_ 32 4096#32))) i = 1#1) ∧
    (∀ i, andi (cmpi .sge pj (broadcastInDim S1024 ![] bcast_S_S1024 (constantI S_ 32 0#32)))
        (cmpi .slt pj (broadcastInDim S1024 ![] bcast_S_S1024 (constantI S_ 32 4096#32))) i = 1#1) ∧
    (∀ i, ori
        (cmpi .ne (broadcastInDim S1024x1024 ![0, 1] bcast_S1024x1_S1024x1024_0_1 (broadcastInDim S1024x1 ![0] bcast_S1024_S1024x1_0 pi))
          (broadcastInDim S1024x1024 ![0, 1] bcast_S1x1024_S1024x1024_0_1 (broadcastInDim S1x1024 ![1] bcast_S1024_S1x1024_1 pi)))
        (cmpi .eq (broadcastInDim S1024x1024 ![0, 1] bcast_S1024x1_S1024x1024_0_1 (broadcastInDim S1024x1 ![0] bcast_S1024_S1024x1_0 (iotaInDim S1024 32 0)))
          (broadcastInDim S1024x1024 ![0, 1] bcast_S1x1024_S1024x1024_0_1 (broadcastInDim S1x1024 ![1] bcast_S1024_S1x1024_1 (iotaInDim S1024 32 0)))) i = 1#1) ∧
    (∀ i, ori
        (cmpi .ne (broadcastInDim S1024x1024 ![0, 1] bcast_S1024x1_S1024x1024_0_1 (broadcastInDim S1024x1 ![0] bcast_S1024_S1024x1_0 pj))
          (broadcastInDim S1024x1024 ![0, 1] bcast_S1x1024_S1024x1024_0_1 (broadcastInDim S1x1024 ![1] bcast_S1024_S1x1024_1 pj)))
        (cmpi .eq (broadcastInDim S1024x1024 ![0, 1] bcast_S1024x1_S1024x1024_0_1 (broadcastInDim S1024x1 ![0] bcast_S1024_S1024x1_0 (iotaInDim S1024 32 0)))
          (broadcastInDim S1024x1024 ![0, 1] bcast_S1x1024_S1024x1024_0_1 (broadcastInDim S1x1024 ![1] bcast_S1024_S1x1024_1 (iotaInDim S1024 32 0)))) i = 1#1) ∧
    (∀ i, cmpi .ne (broadcastInDim S1024x1024 ![0, 1] bcast_S1024x1_S1024x1024_0_1 (broadcastInDim S1024x1 ![0] bcast_S1024_S1024x1_0 pi))
        (broadcastInDim S1024x1024 ![0, 1] bcast_S1x1024_S1024x1024_0_1 (broadcastInDim S1x1024 ![1] bcast_S1024_S1x1024_1 pj)) i = 1#1) := by
  have h0 := congrFun h (fun d => d.elim0)
  dsimp only [fn, fn_part1, fn_part2] at h0
  obtain ⟨h6, c7⟩ := IntOp.andi_eq_one.1 h0
  obtain ⟨h5, c6⟩ := IntOp.andi_eq_one.1 h6
  obtain ⟨h4, c5⟩ := IntOp.andi_eq_one.1 h5
  obtain ⟨h3, c4⟩ := IntOp.andi_eq_one.1 h4
  obtain ⟨h2, c3⟩ := IntOp.andi_eq_one.1 h3
  obtain ⟨c1, c2⟩ := IntOp.andi_eq_one.1 h2
  exact ⟨Host.reduce_andi_all _ _ _ _ _ c1, Host.reduce_andi_all _ _ _ _ _ c2, Host.reduce_andi_all _ _ _ _ _ c3,
    Host.reduce_andi_all _ _ _ _ _ c4, Host.reduce_andi_all _ _ _ _ _ c5, Host.reduce_andi_all _ _ _ _ _ c6,
    Host.reduce_andi_all _ _ _ _ _ c7⟩

/-- A 32-bit word whose signed value lies in [0, 4096) has that unsigned value too. -/
theorem toNat_lt_of_toInt (w : BitVec 32) (h0 : 0 ≤ w.toInt) (h1 : w.toInt < 4096) : w.toNat < 4096 := by
  have hc := BitVec.toInt_eq_toNat_cond w
  have hl := w.isLt
  split at hc <;> omega

/-- One range conjunct at an index: the word compared ≥ 0 and < 4096 (signed) lies in [0, 4096). -/
theorem range_of_bit (v : IVec S1024 32) (k : S1024.Idx)
    (hk : andi (cmpi .sge v (broadcastInDim S1024 ![] bcast_S_S1024 (constantI S_ 32 0#32)))
        (cmpi .slt v (broadcastInDim S1024 ![] bcast_S_S1024 (constantI S_ 32 4096#32))) k = 1#1) :
    0 ≤ (v k).toInt ∧ (v k).toInt < 4096 := by
  obtain ⟨hge, hlt⟩ := IntOp.andi_eq_one.1 hk
  have hge' : (0#32 : BitVec 32).toInt ≤ (v k).toInt := IntOp.cmpi_sge.1 hge
  have hlt' : (v k).toInt < (4096#32 : BitVec 32).toInt := IntOp.cmpi_slt.1 hlt
  have e0 : (0#32 : BitVec 32).toInt = 0 := by decide
  have e1 : (4096#32 : BitVec 32).toInt = 4096 := by decide
  rw [e0] at hge'
  rw [e1] at hlt'
  exact ⟨hge', hlt'⟩

/-- Every pi k lies in [0, 4096). -/
theorem range_i (h : fn (F := F) x a pi pj = fun _ => 1#1) (k : S1024.Idx) :
    0 ≤ (pi k).toInt ∧ (pi k).toInt < 4096 :=
  range_of_bit pi k ((parts x a pi pj h).2.2.1 k)

/-- Every pj k lies in [0, 4096). -/
theorem range_j (h : fn (F := F) x a pi pj = fun _ => 1#1) (k : S1024.Idx) :
    0 ≤ (pj k).toInt ∧ (pj k).toInt < 4096 :=
  range_of_bit pj k ((parts x a pi pj h).2.2.2.1 k)

theorem range_i_toNat (h : fn (F := F) x a pi pj = fun _ => 1#1) (k : S1024.Idx) : (pi k).toNat < 4096 :=
  toNat_lt_of_toInt _ (range_i x a pi pj h k).1 (range_i x a pi pj h k).2

theorem range_j_toNat (h : fn (F := F) x a pi pj = fun _ => 1#1) (k : S1024.Idx) : (pj k).toNat < 4096 :=
  toNat_lt_of_toInt _ (range_j x a pi pj h k).1 (range_j x a pi pj h k).2

/-- One off-diagonal conjunct: if at every (p, q) either v p ≠ v q or the positions p, q are equal
    (as 32-bit words, hence as positions: both are below 1024), then v is injective. -/
theorem inj_of_bit (v : IVec S1024 32)
    (hv : ∀ i, ori
        (cmpi .ne (broadcastInDim S1024x1024 ![0, 1] bcast_S1024x1_S1024x1024_0_1 (broadcastInDim S1024x1 ![0] bcast_S1024_S1024x1_0 v))
          (broadcastInDim S1024x1024 ![0, 1] bcast_S1x1024_S1024x1024_0_1 (broadcastInDim S1x1024 ![1] bcast_S1024_S1x1024_1 v)))
        (cmpi .eq (broadcastInDim S1024x1024 ![0, 1] bcast_S1024x1_S1024x1024_0_1 (broadcastInDim S1024x1 ![0] bcast_S1024_S1024x1_0 (iotaInDim S1024 32 0)))
          (broadcastInDim S1024x1024 ![0, 1] bcast_S1x1024_S1024x1024_0_1 (broadcastInDim S1x1024 ![1] bcast_S1024_S1x1024_1 (iotaInDim S1024 32 0)))) i = 1#1)
    (k k' : S1024.Idx) (e : v k = v k') : k = k' := by
  obtain ⟨p, rfl⟩ : ∃ p : Fin 1024, k = Shape.Idx.ofFin p := ⟨k 0, Shape.Idx.eq_ofFin k⟩
  obtain ⟨q, rfl⟩ : ∃ q : Fin 1024, k' = Shape.Idx.ofFin q := ⟨k' 0, Shape.Idx.eq_ofFin k'⟩
  rcases IntOp.ori_eq_one.1 (hv (Predicate.ij p q)) with hne | heq
  · exact absurd ((rows_apply v p q).trans (e.trans (cols_apply v p q).symm)) (IntOp.cmpi_ne.1 hne)
  · have hw : BitVec.ofNat 32 p.val = BitVec.ofNat 32 q.val :=
      (rows_apply (iotaInDim S1024 32 0) p q).symm.trans ((IntOp.cmpi_eq.1 heq).trans (cols_apply (iotaInDim S1024 32 0) p q))
    have hn := congrArg BitVec.toNat hw
    rw [BitVec.toNat_ofNat, BitVec.toNat_ofNat] at hn
    have hp := p.isLt
    have hq := q.isLt
    have hpq : p = q := Fin.ext (by omega)
    rw [hpq]

/-- pi is injective. -/
theorem inj_i (h : fn (F := F) x a pi pj = fun _ => 1#1) (k k' : S1024.Idx) (e : pi k = pi k') : k = k' :=
  inj_of_bit pi ((parts x a pi pj h).2.2.2.2.1) k k' e

/-- pj is injective. -/
theorem inj_j (h : fn (F := F) x a pi pj = fun _ => 1#1) (k k' : S1024.Idx) (e : pj k = pj k') : k = k' :=
  inj_of_bit pj ((parts x a pi pj h).2.2.2.2.2.1) k k' e

/-- No pi k is a pj k'. -/
theorem disj (h : fn (F := F) x a pi pj = fun _ => 1#1) (k k' : S1024.Idx) : pi k ≠ pj k' := by
  obtain ⟨p, rfl⟩ : ∃ p : Fin 1024, k = Shape.Idx.ofFin p := ⟨k 0, Shape.Idx.eq_ofFin k⟩
  obtain ⟨q, rfl⟩ : ∃ q : Fin 1024, k' = Shape.Idx.ofFin q := ⟨k' 0, Shape.Idx.eq_ofFin k'⟩
  have hne := IntOp.cmpi_ne.1 ((parts x a pi pj h).2.2.2.2.2.2 (Predicate.ij p q))
  exact fun e => hne ((rows_apply pi p q).trans (e.trans (cols_apply pj p q).symm))

end

/-! ## Finiteness, at the extended reals -/

/-- The pattern 0x7F800000 denotes +∞. -/
theorem inf_eq_top : Ideal.ofBits .f32 0x7F800000#32 = (⊤ : EReal) := by simp [Ideal.ofBits, Ideal.ieee]

/-- An extended real whose absolute value max z (−z) is below +∞ is a real: it is neither +∞ nor −∞. -/
theorem real_of_abs_lt (z : EReal)
    (hz : Ideal.cmp .olt (max z (-z)) (Ideal.ofBits .f32 0x7F800000#32) = 1#1) : ∃ r : ℝ, z = (r : EReal) := by
  rw [inf_eq_top] at hz
  have hlt : max z (-z) < ⊤ := of_decide_eq_true ((Predicate.ofBool_eq_one_iff _).1 hz)
  obtain ⟨h1, h2⟩ := max_lt_iff.1 hlt
  induction z using EReal.rec with
  | bot => rw [EReal.neg_bot] at h2; exact absurd h2 (lt_irrefl _)
  | coe r => exact ⟨r, rfl⟩
  | top => exact absurd h1 (lt_irrefl _)

/-- Every entry of x is a real. -/
theorem fin_x (x : FVec Ideal S4x4096x4096 .f32) (a : FVec Ideal S1024 .f32) (pi pj : IVec S1024 32)
    (h : fn (F := Ideal) x a pi pj = fun _ => 1#1) (i : S4x4096x4096.Idx) : ∃ r : ℝ, x i = (r : EReal) :=
  real_of_abs_lt (x i) ((parts x a pi pj h).1 i)

/-- Every angle is a real. -/
theorem fin_a (x : FVec Ideal S4x4096x4096 .f32) (a : FVec Ideal S1024 .f32) (pi pj : IVec S1024 32)
    (h : fn (F := Ideal) x a pi pj = fun _ => 1#1) (i : S1024.Idx) : ∃ r : ℝ, a i = (r : EReal) :=
  real_of_abs_lt (a i) ((parts x a pi pj h).2.1 i)

end Cert.PreDecode
-- ==== Proof.KPure.lean ====
/-
  The three arrays the kernel's host code hands the region, read at an index at the extended reals, and the
  region's result as the rotation.

  Under the precondition every plane index is a column in [0, 4096), the first columns are pairwise distinct, the
  second columns are pairwise distinct, and no first column is a second column. So the diagonal scale holds cos k
  at the two columns of plane k and one elsewhere; the sparse matrix holds −sin k at (pj k, pi k), sin k at
  (pi k, pj k) and zero elsewhere; and the row of the flattened input against a column of the sparse matrix is a
  sum with at most one non-zero term.
-/
import proofs.«429250_j63041529970723_3_alg».proof.Proof.KTerms
import proofs.«429250_j63041529970723_3_alg».proof.Proof.KSpec
import proofs.«429250_j63041529970723_3_alg».proof.Proof.LibScatter
import proofs.«429250_j63041529970723_3_alg».proof.Proof.PreDecode
import Idealize.ShloMosaic.Lib.StableHlo.Predicate
import Idealize.ShloMosaic.Lib.Pipeline.Value
import Idealize.ShloMosaic.Lib.IdealHost

noncomputable section

namespace Cert.KernelIdeal.Hand

open Cert.KernelIdeal Cert.KernelIdeal.Facts₀
open Idealize.ShloMosaic Idealize.ShloMosaic.ValueIdx Idealize.ShloMosaic.ScatterSet
open scoped BigOperators

/-! ## The index vectors -/

/-- A plane index that is not negative is read as it is. -/
theorem wrapIdx_apply (p : IVec S1024 32) (k : S1024.Idx) (h : 0 ≤ (p k).toInt) : wrapIdx p k = p k := by
  show Scalar.select (IntOp.cmpi .slt (p k) 0#32) (IntOp.addi (p k) 4096#32) (p k) = p k
  have hs : (p k).slt 0#32 = false := by
    simp only [BitVec.slt, BitVec.toInt_zero, decide_eq_false_iff_not, not_lt]; exact h
  simp only [IntOp.cmpi, hs, Scalar.select]
  rfl

/-- The column of zeros holds the zero word. -/
theorem zeroCol_apply (j : S1024x1.Idx) : zeroCol j = 0#32 := rfl

/-- The column of plane indices holds, in row `k`, plane `k`'s index as read. -/
theorem colOf_apply (p : IVec S1024 32) (k : Fin 1024) : colOf p (ix2 k (0 : Fin 1)) = wrapIdx p (ix1 k) := by
  unfold colOf
  exact broadcastInDim_apply _ _ _ _ (ix1 k) (fun a => match a with | ⟨0, _⟩ => rfl)

/-- Two columns side by side, read in the first column. -/
theorem pairIdx_apply0 (r q : IVec S1024x1 32) (k : Fin 1024) :
    pairIdx r q (ix2 k (0 : Fin 2)) = r (ix2 k (0 : Fin 1)) := by
  unfold pairIdx
  exact concatenate_pair_apply_left (t := S1024x2) (s₁ := S1024x1) (s₂ := S1024x1) 1 r q
    concatenates_S1024x1_S1024x1_S1024x2_d1 (ix2 k (0 : Fin 2)) rfl (ix2 k (0 : Fin 1))
    (fun b => match b with | ⟨0, _⟩ => rfl | ⟨1, _⟩ => rfl)

/-- Two columns side by side, read in the second column. -/
theorem pairIdx_apply1 (r q : IVec S1024x1 32) (k : Fin 1024) :
    pairIdx r q (ix2 k (1 : Fin 2)) = q (ix2 k (0 : Fin 1)) := by
  unfold pairIdx
  exact concatenate_pair_apply_right (t := S1024x2) (s₁ := S1024x1) (s₂ := S1024x1) 1 r q
    concatenates_S1024x1_S1024x1_S1024x2_d1 (ix2 k (1 : Fin 2)) rfl rfl (ix2 k (0 : Fin 1))
    (fun b => match b with | ⟨0, _⟩ => fun _ => rfl | ⟨1, _⟩ => fun h => absurd rfl h) rfl

/-! ## The reshapes -/

/-- The flattened input at row `b·4096 + s` is the input at `(b, s)`. -/
theorem xfT_apply (x : FVec Ideal S4x4096x4096 .f32) (b : Fin 4) (s : Fin 4096) (c : Fin 4096) :
    xfT (F := Ideal) x (ix2 (Cert.Spec.flatRow b s) c) = x (ix3 b s c) := by
  unfold xfT
  refine shapeCast_apply _ _ _ (ix3 b s c) ?_
  rw [Shape.rowMajor_val_three, Shape.rowMajor_val_two]
  rfl

/-- The result given back its first two axes, at `(b, s)`, is the flat result at row `b·4096 + s`. -/
theorem unflat_apply (y : FVec Ideal S16384x4096 .f32) (b : Fin 4) (s : Fin 4096) (c : Fin 4096) :
    unflat (F := Ideal) y (ix3 b s c) = y (ix2 (Cert.Spec.flatRow b s) c) := by
  unfold unflat
  refine shapeCast_apply _ _ _ (ix2 (Cert.Spec.flatRow b s) c) ?_
  rw [Shape.rowMajor_val_three, Shape.rowMajor_val_two]
  rfl

/-! ## What the precondition says of the planes -/

/-- The facts about the plane indices: each lies in [0, 4096), the first columns are pairwise distinct, the second
    columns are pairwise distinct, and no first column is a second column. -/
structure Planes (pi pj : IVec S1024 32) : Prop where
  ri : ∀ k : S1024.Idx, 0 ≤ (pi k).toInt ∧ (pi k).toInt < 4096
  rj : ∀ k : S1024.Idx, 0 ≤ (pj k).toInt ∧ (pj k).toInt < 4096
  inj_i : ∀ k k' : S1024.Idx, pi k = pi k' → k = k'
  inj_j : ∀ k k' : S1024.Idx, pj k = pj k' → k = k'
  disj : ∀ k k' : S1024.Idx, pi k ≠ pj k'

/-- The precondition gives those facts. -/
theorem planes_of_pre (x : FVec Ideal S4x4096x4096 .f32) (a : FVec Ideal S1024 .f32) (pi pj : IVec S1024 32)
    (h : Cert.Pre_finite_inputs.fn (F := Ideal) x a pi pj = fun _ => 1#1) : Planes pi pj where
  ri := Cert.PreDecode.range_i x a pi pj h
  rj := Cert.PreDecode.range_j x a pi pj h
  inj_i := Cert.PreDecode.inj_i x a pi pj h
  inj_j := Cert.PreDecode.inj_j x a pi pj h
  disj := Cert.PreDecode.disj x a pi pj h

/-- A word in [0, 4096) read signed is the word read unsigned. -/
theorem toInt_of_range (v : BitVec 32) (h : 0 ≤ v.toInt ∧ v.toInt < 4096) : v.toInt = (v.toNat : Int) :=
  StableHlo.Predicate.toInt_eq_toNat_of_lt
    (Nat.lt_trans (Cert.PreDecode.toNat_lt_of_toInt v h.1 h.2) (by norm_num))

/-- The column of plane indices, read signed in row `k`, is plane `k`'s index read unsigned. -/
theorem colOf_toInt (p : IVec S1024 32) (hp : ∀ k : S1024.Idx, 0 ≤ (p k).toInt ∧ (p k).toInt < 4096) (k : Fin 1024) :
    (colOf p (ix2 k (0 : Fin 1))).toInt = ((p (ix1 k)).toNat : Int) := by
  rw [colOf_apply, wrapIdx_apply p (ix1 k) (hp _).1, toInt_of_range _ (hp _)]

/-- Two planes whose indices read unsigned agree are one plane, for an injective index vector. -/
theorem plane_eq_of_toNat (p : IVec S1024 32) (hinj : ∀ k k' : S1024.Idx, p k = p k' → k = k') (k k' : Fin 1024)
    (e : (p (ix1 k)).toNat = (p (ix1 k')).toNat) : k = k' :=
  congrFun (hinj (ix1 k) (ix1 k') (BitVec.eq_of_toNat_eq e)) (0 : Fin 1)

/-! ## The diagonal scale at a column -/

section Diag
variable {pi pj : IVec S1024 32}

/-- The index pairs of the diagonal scale's writes: row zero … -/
theorem diagIdx_row (p : IVec S1024 32) (k : Fin 1024) :
    (pairIdx zeroCol (colOf p) (ix2 k (0 : Fin 2))).toInt = (((0 : Fin 1)).val : Int) := by
  rw [pairIdx_apply0, zeroCol_apply]; rfl

/-- … and the plane's column. -/
theorem diagIdx_col (p : IVec S1024 32) (hp : ∀ k : S1024.Idx, 0 ≤ (p k).toInt ∧ (p k).toInt < 4096) (k : Fin 1024) :
    (pairIdx zeroCol (colOf p) (ix2 k (1 : Fin 2))).toInt = ((p (ix1 k)).toNat : Int) := by
  rw [pairIdx_apply1, colOf_toInt p hp]

/-- Distinct planes write the diagonal scale at distinct columns. -/
theorem diagIdx_dist (p : IVec S1024 32) (hp : ∀ k : S1024.Idx, 0 ≤ (p k).toInt ∧ (p k).toInt < 4096)
    (hinj : ∀ k k' : S1024.Idx, p k = p k' → k = k') :
    ∀ (k k' : Fin 1024) (r : Fin 1) (c : Fin 4096),
      (pairIdx zeroCol (colOf p) (ix2 k 0)).toInt = (r.val : Int) → (pairIdx zeroCol (colOf p) (ix2 k 1)).toInt = (c.val : Int) →
      (pairIdx zeroCol (colOf p) (ix2 k' 0)).toInt = (r.val : Int) → (pairIdx zeroCol (colOf p) (ix2 k' 1)).toInt = (c.val : Int) →
      k = k' := by
  intro k k' r c _ h1 _ h1'
  rw [diagIdx_col p hp] at h1 h1'
  exact plane_eq_of_toNat p hinj k k' (by omega)

/-- The diagonal scale holds `cos k` at plane `k`'s second column. -/
theorem cfT_at_j (a : FVec Ideal S1024 .f32) (P : Planes pi pj) (k : Fin 1024) (c : Fin 4096)
    (hc : (pj (ix1 k)).toNat = c.val) :
    cfT (F := Ideal) a pi pj (ix2 (0 : Fin 1) c) = Host.cos a (ix1 k) := by
  unfold cfT
  exact p1_scatter_hit _ rfl rfl rfl rfl _ _ _ (diagIdx_dist pj P.rj P.inj_j) k 0 c (diagIdx_row pj k)
    (by rw [diagIdx_col pj P.rj, hc])

/-- The diagonal scale holds `cos k` at plane `k`'s first column. -/
theorem cfT_at_i (a : FVec Ideal S1024 .f32) (P : Planes pi pj) (k : Fin 1024) (c : Fin 4096)
    (hc : (pi (ix1 k)).toNat = c.val) :
    cfT (F := Ideal) a pi pj (ix2 (0 : Fin 1) c) = Host.cos a (ix1 k) := by
  unfold cfT
  rw [p1_scatter_miss _ rfl rfl rfl rfl _ _ _ _ (0 : Fin 1) c]
  · exact p1_scatter_hit _ rfl rfl rfl rfl _ _ _ (diagIdx_dist pi P.ri P.inj_i) k 0 c (diagIdx_row pi k)
      (by rw [diagIdx_col pi P.ri, hc])
  · rintro k' ⟨_, h1⟩
    rw [diagIdx_col pj P.rj] at h1
    exact P.disj (ix1 k) (ix1 k') (BitVec.eq_of_toNat_eq (by omega))

/-- The diagonal scale holds one at a column no plane names. -/
theorem cfT_other (a : FVec Ideal S1024 .f32) (P : Planes pi pj) (c : Fin 4096)
    (hn : ∀ k : Fin 1024, (pi (ix1 k)).toNat ≠ c.val ∧ (pj (ix1 k)).toNat ≠ c.val) :
    cfT (F := Ideal) a pi pj (ix2 (0 : Fin 1) c) = (1 : EReal) := by
  unfold cfT
  rw [p1_scatter_miss _ rfl rfl rfl rfl _ _ _ _ (0 : Fin 1) c, p1_scatter_miss _ rfl rfl rfl rfl _ _ _ _ (0 : Fin 1) c]
  · exact Ideal.ofBits_one_f32
  · rintro k' ⟨_, h1⟩
    rw [diagIdx_col pi P.ri] at h1
    exact (hn k').1 (by omega)
  · rintro k' ⟨_, h1⟩
    rw [diagIdx_col pj P.rj] at h1
    exact (hn k').2 (by omega)

end Diag

/-! ## The sparse sine matrix at an entry -/

section Sine
variable {pi pj : IVec S1024 32}

/-- The index pairs of a sine write: the row is the first vector's plane index … -/
theorem sineIdx_row (p q : IVec S1024 32) (hp : ∀ k : S1024.Idx, 0 ≤ (p k).toInt ∧ (p k).toInt < 4096) (k : Fin 1024) :
    (pairIdx (colOf p) (colOf q) (ix2 k (0 : Fin 2))).toInt = ((p (ix1 k)).toNat : Int) := by
  rw [pairIdx_apply0, colOf_toInt p hp]

/-- … and the column the second vector's. -/
theorem sineIdx_col (p q : IVec S1024 32) (hq : ∀ k : S1024.Idx, 0 ≤ (q k).toInt ∧ (q k).toInt < 4096) (k : Fin 1024) :
    (pairIdx (colOf p) (colOf q) (ix2 k (1 : Fin 2))).toInt = ((q (ix1 k)).toNat : Int) := by
  rw [pairIdx_apply1, colOf_toInt q hq]

/-- Distinct planes write the sine matrix at distinct entries (already their rows differ). -/
theorem sineIdx_dist (p q : IVec S1024 32) (hp : ∀ k : S1024.Idx, 0 ≤ (p k).toInt ∧ (p k).toInt < 4096)
    (hinj : ∀ k k' : S1024.Idx, p k = p k' → k = k') :
    ∀ (k k' : Fin 1024) (r : Fin 4096) (c : Fin 4096),
      (pairIdx (colOf p) (colOf q) (ix2 k 0)).toInt = (r.val : Int) → (pairIdx (colOf p) (colOf q) (ix2 k 1)).toInt = (c.val : Int) →
      (pairIdx (colOf p) (colOf q) (ix2 k' 0)).toInt = (r.val : Int) → (pairIdx (colOf p) (colOf q) (ix2 k' 1)).toInt = (c.val : Int) →
      k = k' := by
  intro k k' r c h0 _ h0' _
  rw [sineIdx_row p q hp] at h0 h0'
  exact plane_eq_of_toNat p hinj k k' (by omega)

/-- The sine matrix holds `sin k` at row `pi k`, column `pj k`. -/
theorem sT_at_ij (a : FVec Ideal S1024 .f32) (P : Planes pi pj) (k : Fin 1024) (r c : Fin 4096)
    (hr : (pi (ix1 k)).toNat = r.val) (hc : (pj (ix1 k)).toNat = c.val) :
    (sT (F := Ideal) a pi pj (ix2 r c) : EReal) = Host.sin a (ix1 k) := by
  unfold sT
  exact p1_scatter_hit _ rfl rfl rfl rfl _ _ _ (sineIdx_dist pi pj P.ri P.inj_i) k r c
    (by rw [sineIdx_row pi pj P.ri, hr]) (by rw [sineIdx_col pi pj P.rj, hc])

/-- The sine matrix holds `−sin k` at row `pj k`, column `pi k`. -/
theorem sT_at_ji (a : FVec Ideal S1024 .f32) (P : Planes pi pj) (k : Fin 1024) (r c : Fin 4096)
    (hr : (pj (ix1 k)).toNat = r.val) (hc : (pi (ix1 k)).toNat = c.val) :
    (sT (F := Ideal) a pi pj (ix2 r c) : EReal) = -(Host.sin a (ix1 k) : EReal) := by
  unfold sT
  rw [p1_scatter_miss _ rfl rfl rfl rfl _ _ _ _ r c]
  · exact p1_scatter_hit _ rfl rfl rfl rfl _ _ _ (sineIdx_dist pj pi P.rj P.inj_j) k r c
      (by rw [sineIdx_row pj pi P.rj, hr]) (by rw [sineIdx_col pj pi P.ri, hc])
  · rintro k' ⟨h0, _⟩
    rw [sineIdx_row pi pj P.ri] at h0
    exact P.disj (ix1 k') (ix1 k) (BitVec.eq_of_toNat_eq (by omega))

/-- The sine matrix holds zero at an entry no plane names. -/
theorem sT_other (a : FVec Ideal S1024 .f32) (P : Planes pi pj) (r c : Fin 4096)
    (hn : ∀ k : Fin 1024, ¬ ((pi (ix1 k)).toNat = r.val ∧ (pj (ix1 k)).toNat = c.val) ∧
      ¬ ((pj (ix1 k)).toNat = r.val ∧ (pi (ix1 k)).toNat = c.val)) :
    (sT (F := Ideal) a pi pj (ix2 r c) : EReal) = 0 := by
  unfold sT
  rw [p1_scatter_miss _ rfl rfl rfl rfl _ _ _ _ r c, p1_scatter_miss _ rfl rfl rfl rfl _ _ _ _ r c]
  · exact Ideal.ofBits_zero_bf16
  · rintro k' ⟨h0, h1⟩
    rw [sineIdx_row pj pi P.rj] at h0
    rw [sineIdx_col pj pi P.ri] at h1
    exact (hn k').2 ⟨by omega, by omega⟩
  · rintro k' ⟨h0, h1⟩
    rw [sineIdx_row pi pj P.ri] at h0
    rw [sineIdx_col pi pj P.rj] at h1
    exact (hn k').1 ⟨by omega, by omega⟩

end Sine

/-! ## The region's result is the rotation -/

/-- The region's result over the three arrays, given back its first two axes. -/
def kres (x : FVec Ideal S4x4096x4096 .f32) (a : FVec Ideal S1024 .f32) (pi pj : IVec S1024 32) :
    Cert.Spec.SX.Idx → EReal :=
  fun i => Cert.Spec.KOutAt (xfT (F := Ideal) x) (sT (F := Ideal) a pi pj) (cfT (F := Ideal) a pi pj)
    (Cert.Spec.flatRow (i 0) (i 1)) (i 2)

/-- The result at `(b, s, c)`: the input's entry times the diagonal scale, plus the input's row against column `c`
    of the sine matrix. -/
theorem kres_apply (x : FVec Ideal S4x4096x4096 .f32) (a : FVec Ideal S1024 .f32) (pi pj : IVec S1024 32)
    (b : Fin 4) (s : Fin 4096) (c : Fin 4096) :
    kres x a pi pj (ix3 b s c) =
      (x (ix3 b s c) : EReal) * (cfT (F := Ideal) a pi pj (ix2 (0 : Fin 1) c) : EReal)
        + ∑ q : Fin 4096, (x (ix3 b s q) : EReal) * (sT (F := Ideal) a pi pj (ix2 q c) : EReal) := by
  show Cert.Spec.KOutAt _ _ _ (Cert.Spec.flatRow b s) c = _
  unfold Cert.Spec.KOutAt
  rw [xfT_apply]
  congr 1
  exact Finset.sum_congr rfl fun q _ => by rw [xfT_apply]

/-- THE RESULT IS THE ROTATION. In column `pi k` the one non-zero entry of the sine matrix's column is `−sin k` at row
    `pj k`; in column `pj k` it is `sin k` at row `pi k`; a column no plane names has none and scale one. -/
theorem isRot_kernel (x : FVec Ideal S4x4096x4096 .f32) (a : FVec Ideal S1024 .f32) (pi pj : IVec S1024 32)
    (h : Cert.Pre_finite_inputs.fn (F := Ideal) x a pi pj = fun _ => 1#1) :
    Cert.Spec.IsRot x (Host.cos (F := Ideal) a) (Host.sin (F := Ideal) a) pi pj (kres x a pi pj) := by
  have P := planes_of_pre x a pi pj h
  refine ⟨?_, ?_, ?_⟩
  · intro k b s ci cj hi hj
    rw [kres_apply, cfT_at_i a P k ci hi, Finset.sum_eq_single cj]
    · rw [sT_at_ji a P k cj ci hj hi, mul_neg, ← sub_eq_add_neg]
    · intro q _ hq
      rw [sT_other a P q ci, mul_zero]
      intro k'
      refine ⟨?_, ?_⟩
      · rintro ⟨_, h1⟩
        exact P.disj (ix1 k) (ix1 k') (BitVec.eq_of_toNat_eq (by omega))
      · rintro ⟨h0, h1⟩
        have e := plane_eq_of_toNat pi P.inj_i k' k (by omega)
        subst e
        exact hq (Fin.ext (by omega))
    · intro hh; exact absurd (Finset.mem_univ _) hh
  · intro k b s ci cj hi hj
    rw [kres_apply, cfT_at_j a P k cj hj, Finset.sum_eq_single ci]
    · rw [sT_at_ij a P k ci cj hi hj, add_comm]
    · intro q _ hq
      rw [sT_other a P q cj, mul_zero]
      intro k'
      refine ⟨?_, ?_⟩
      · rintro ⟨h0, h1⟩
        have e := plane_eq_of_toNat pj P.inj_j k' k (by omega)
        subst e
        exact hq (Fin.ext (by omega))
      · rintro ⟨_, h1⟩
        exact P.disj (ix1 k') (ix1 k) (BitVec.eq_of_toNat_eq (by omega))
    · intro hh; exact absurd (Finset.mem_univ _) hh
  · intro b s col hn
    rw [kres_apply, cfT_other a P col hn, mul_one, Finset.sum_eq_zero, add_zero]
    intro q _
    rw [sT_other a P q col, mul_zero]
    intro k'
    exact ⟨fun e => (hn k').2 e.2, fun e => (hn k').1 e.2⟩

end Cert.KernelIdeal.Hand

end
-- ==== Proof.RefValue.lean ====
/-
  The reference's result, column by column: a column that is some plane's second index holds the rotated second
  coordinate, a column that is some plane's first index the rotated first coordinate, every other column the input's.
-/
import proofs.«429250_j63041529970723_3_alg».proof.Proof.Gen.ReferenceIdeal.Run
import proofs.«429250_j63041529970723_3_alg».proof.Proof.Gen.ReferenceIdeal.Read
import proofs.«429250_j63041529970723_3_alg».proof.Proof.LibScatter
import proofs.«429250_j63041529970723_3_alg».proof.Proof.PreDecode
import proofs.«429250_j63041529970723_3_alg».proof.Proof.Spec
import Idealize.ShloMosaic.Lib.StableHlo.Predicate
import Idealize.ShloMosaic.Lib.ValueIdx

noncomputable section

namespace Cert.RefValue

open Idealize.ShloMosaic Idealize.ShloMosaic.ValueIdx Idealize.ShloMosaic.StableHlo Idealize.ShloMosaic.ScatterSet
open Cert.ReferenceIdeal Cert.ReferenceIdeal.Read

/-! ## Words -/

/-- A 32-bit word below 4096 reads the same signed and unsigned. -/
theorem toInt_eq_toNat (w : BitVec 32) (h : w.toNat < 4096) : w.toInt = (w.toNat : Int) :=
  Predicate.toInt_eq_toNat_of_lt (by omega)

/-! ## The index column: a plane index in [0, 4096) is not wrapped -/

/-- The column of start indices both gathers and both scatters take is the plane index itself: the
    "negative index wraps" select keeps a nonnegative word. -/
theorem idxcol_at (p : IVec S1024 32) (hp : ∀ k : Fin 1024, (p (ix1 k)).toNat < 4096) (k : Fin 1024) :
    val_main_v7 (F := Ideal) p (ix2 k 0) = p (ix1 k) := by
  have hi : idx_main_v7 (ix2 k (0 : Fin 1)) = ix1 k := by
    funext a; match a with | ⟨0, _⟩ => rfl
  have hb : IntOp.cmpi .slt (p (ix1 k)) 0#32 = 0#1 := eq_zero_of_ne_one fun h1 => by
    have h2 := IntOp.cmpi_slt.1 h1
    rw [toInt_eq_toNat _ (hp k), show (0#32 : BitVec 32).toInt = 0 from by decide] at h2
    omega
  calc val_main_v7 (F := Ideal) p (ix2 k 0) = val_main_v6 (F := Ideal) p (ix1 k) := by rw [val_main_v7_apply, hi]
    _ = Scalar.select (IntOp.cmpi .slt (p (ix1 k)) 0#32) (val_main_v5 (F := Ideal) p (ix1 k)) (p (ix1 k)) := rfl
    _ = p (ix1 k) := by rw [hb, select_zero]

/-- Its signed value is the plane index's unsigned value. -/
theorem idxcol_toInt (p : IVec S1024 32) (hp : ∀ k : Fin 1024, (p (ix1 k)).toNat < 4096) (k : Fin 1024) :
    (val_main_v7 (F := Ideal) p (ix2 k 0)).toInt = ((p (ix1 k)).toNat : Int) := by
  rw [idxcol_at p hp k, toInt_eq_toNat _ (hp k)]

/-! ## The gather x[..., p] -/

/-- Column k of x[..., p] is column p k of x. -/
theorem gather_at (x : FVec Ideal S4x4096x4096 .f32) (p : IVec S1024 32) (hp : ∀ k : Fin 1024, (p (ix1 k)).toNat < 4096)
    (b : Fin 4) (s : Fin 4096) (k : Fin 1024) (c : Fin 4096) (hc : (p (ix1 k)).toNat = c.val) :
    val_main_v8 (F := Ideal) x p (ix3 b s k) = x (ix3 b s c) :=
  p3_gather_apply gather_S4x4096x4096_S1024x1_S4x4096x1024_01_2_n_n_2_1_440961 rfl rfl rfl rfl rfl rfl rfl
    x (val_main_v7 (F := Ideal) p) b s k c (by rw [idxcol_toInt p hp k, hc])

/-! ## The angle rows laid over the update's shape -/

theorem cos_at (a : FVec Ideal S1024 .f32) (b : Fin 4) (s : Fin 4096) (k : Fin 1024) :
    val_main_v17 (F := Ideal) a (ix3 b s k) = Host.cos (F := Ideal) a (ix1 k) := by
  have hi : idx_main_v16 (idx_main_v17 (ix3 b s k)) = ix1 k := by
    funext d; match d with | ⟨0, _⟩ => rfl
  rw [val_main_v17_apply, val_main_v16_apply, hi]; rfl

theorem sin_at (a : FVec Ideal S1024 .f32) (b : Fin 4) (s : Fin 4096) (k : Fin 1024) :
    val_main_v20 (F := Ideal) a (ix3 b s k) = Host.sin (F := Ideal) a (ix1 k) := by
  have hi : idx_main_v19 (idx_main_v20 (ix3 b s k)) = ix1 k := by
    funext d; match d with | ⟨0, _⟩ => rfl
  rw [val_main_v20_apply, val_main_v19_apply, hi]; rfl

/-! ## The two updates at a plane -/

/-- The first update at plane k: x[pi k]·cos k − x[pj k]·sin k. -/
theorem upd_i_at (x : FVec Ideal S4x4096x4096 .f32) (a : FVec Ideal S1024 .f32) (pi pj : IVec S1024 32)
    (hi : ∀ k : Fin 1024, (pi (ix1 k)).toNat < 4096) (hj : ∀ k : Fin 1024, (pj (ix1 k)).toNat < 4096)
    (b : Fin 4) (s : Fin 4096) (k : Fin 1024) (ci cj : Fin 4096)
    (hci : (pi (ix1 k)).toNat = ci.val) (hcj : (pj (ix1 k)).toNat = cj.val) :
    val_main_v22 (F := Ideal) x a pi pj (ix3 b s k)
      = x (ix3 b s ci) * Host.cos (F := Ideal) a (ix1 k) - x (ix3 b s cj) * Host.sin (F := Ideal) a (ix1 k) := by
  show val_main_v8 (F := Ideal) x pi (ix3 b s k) * val_main_v17 (F := Ideal) a (ix3 b s k)
      - val_main_v8 (F := Ideal) x pj (ix3 b s k) * val_main_v20 (F := Ideal) a (ix3 b s k) = _
  rw [gather_at x pi hi b s k ci hci, gather_at x pj hj b s k cj hcj, cos_at, sin_at]

/-- The second update at plane k: x[pi k]·sin k + x[pj k]·cos k. -/
theorem upd_j_at (x : FVec Ideal S4x4096x4096 .f32) (a : FVec Ideal S1024 .f32) (pi pj : IVec S1024 32)
    (hi : ∀ k : Fin 1024, (pi (ix1 k)).toNat < 4096) (hj : ∀ k : Fin 1024, (pj (ix1 k)).toNat < 4096)
    (b : Fin 4) (s : Fin 4096) (k : Fin 1024) (ci cj : Fin 4096)
    (hci : (pi (ix1 k)).toNat = ci.val) (hcj : (pj (ix1 k)).toNat = cj.val) :
    val_main_v36 (F := Ideal) x a pi pj (ix3 b s k)
      = x (ix3 b s ci) * Host.sin (F := Ideal) a (ix1 k) + x (ix3 b s cj) * Host.cos (F := Ideal) a (ix1 k) := by
  show val_main_v8 (F := Ideal) x pi (ix3 b s k) * val_main_v20 (F := Ideal) a (ix3 b s k)
      + val_main_v8 (F := Ideal) x pj (ix3 b s k) * val_main_v17 (F := Ideal) a (ix3 b s k) = _
  rw [gather_at x pi hi b s k ci hci, gather_at x pj hj b s k cj hcj, cos_at, sin_at]

/-! ## The two scatters: the result column by column -/

section
variable (x : FVec Ideal S4x4096x4096 .f32) (a : FVec Ideal S1024 .f32) (pi pj : IVec S1024 32)
variable (h : Cert.Pre_finite_inputs.fn (F := Ideal) x a pi pj = fun _ => 1#1)
include h

/-- Every first plane index is a column. -/
theorem range_i' (k : Fin 1024) : (pi (ix1 k)).toNat < 4096 := Cert.PreDecode.range_i_toNat x a pi pj h (ix1 k)

/-- Every second plane index is a column. -/
theorem range_j' (k : Fin 1024) : (pj (ix1 k)).toNat < 4096 := Cert.PreDecode.range_j_toNat x a pi pj h (ix1 k)

/-- Two planes with the same first column are one plane. -/
theorem dist_i (k k' : Fin 1024) (c : Fin 4096)
    (e : (val_main_v7 (F := Ideal) pi (ix2 k 0)).toInt = (c.val : Int))
    (e' : (val_main_v7 (F := Ideal) pi (ix2 k' 0)).toInt = (c.val : Int)) : k = k' := by
  rw [idxcol_toInt pi (range_i' x a pi pj h) k] at e
  rw [idxcol_toInt pi (range_i' x a pi pj h) k'] at e'
  have hw : pi (ix1 k) = pi (ix1 k') := BitVec.eq_of_toNat_eq (by omega)
  exact congrArg (fun j : S1024.Idx => j 0) (Cert.PreDecode.inj_i x a pi pj h _ _ hw)

/-- Two planes with the same second column are one plane. -/
theorem dist_j (k k' : Fin 1024) (c : Fin 4096)
    (e : (val_main_v7 (F := Ideal) pj (ix2 k 0)).toInt = (c.val : Int))
    (e' : (val_main_v7 (F := Ideal) pj (ix2 k' 0)).toInt = (c.val : Int)) : k = k' := by
  rw [idxcol_toInt pj (range_j' x a pi pj h) k] at e
  rw [idxcol_toInt pj (range_j' x a pi pj h) k'] at e'
  have hw : pj (ix1 k) = pj (ix1 k') := BitVec.eq_of_toNat_eq (by omega)
  exact congrArg (fun j : S1024.Idx => j 0) (Cert.PreDecode.inj_j x a pi pj h _ _ hw)

/-- The reference's result is the rotation. -/
theorem isRot :
    Cert.Spec.IsRot x (Host.cos (F := Ideal) a) (Host.sin (F := Ideal) a) pi pj (val_main_v43 (F := Ideal) x a pi pj) := by
  have hi := range_i' x a pi pj h
  have hj := range_j' x a pi pj h
  refine ⟨?_, ?_, ?_⟩
  · intro k b s ci cj hci hcj
    -- no second index is column ci: the second scatter leaves it; the first scatter wrote it from plane k
    have hmiss : ∀ k' : Fin 1024, (val_main_v7 (F := Ideal) pj (ix2 k' 0)).toInt ≠ (ci.val : Int) := fun k' e => by
      rw [idxcol_toInt pj hj k'] at e
      exact Cert.PreDecode.disj x a pi pj h (ix1 k) (ix1 k') (BitVec.eq_of_toNat_eq (by omega))
    refine (p2_scatter_miss scatter_S4x4096x4096_S1024x1_S4x4096x1024_01_2_2_1 rfl rfl rfl rfl (fun _ b => b)
      (val_main_v29 (F := Ideal) x a pi pj) (val_main_v7 (F := Ideal) pj) (val_main_v36 (F := Ideal) x a pi pj) b s ci hmiss).trans ?_
    refine (p2_scatter_hit scatter_S4x4096x4096_S1024x1_S4x4096x1024_01_2_2_1 rfl rfl rfl rfl x
      (val_main_v7 (F := Ideal) pi) (val_main_v22 (F := Ideal) x a pi pj) (dist_i x a pi pj h) b s k ci
      (by rw [idxcol_toInt pi hi k, hci])).trans ?_
    exact upd_i_at x a pi pj hi hj b s k ci cj hci hcj
  · intro k b s ci cj hci hcj
    refine (p2_scatter_hit scatter_S4x4096x4096_S1024x1_S4x4096x1024_01_2_2_1 rfl rfl rfl rfl
      (val_main_v29 (F := Ideal) x a pi pj) (val_main_v7 (F := Ideal) pj) (val_main_v36 (F := Ideal) x a pi pj)
      (dist_j x a pi pj h) b s k cj (by rw [idxcol_toInt pj hj k, hcj])).trans ?_
    exact upd_j_at x a pi pj hi hj b s k ci cj hci hcj
  · intro b s col hn
    have hmj : ∀ k' : Fin 1024, (val_main_v7 (F := Ideal) pj (ix2 k' 0)).toInt ≠ (col.val : Int) := fun k' e => by
      rw [idxcol_toInt pj hj k'] at e
      exact (hn k').2 (by omega)
    have hmi : ∀ k' : Fin 1024, (val_main_v7 (F := Ideal) pi (ix2 k' 0)).toInt ≠ (col.val : Int) := fun k' e => by
      rw [idxcol_toInt pi hi k'] at e
      exact (hn k').1 (by omega)
    refine (p2_scatter_miss scatter_S4x4096x4096_S1024x1_S4x4096x1024_01_2_2_1 rfl rfl rfl rfl (fun _ b => b)
      (val_main_v29 (F := Ideal) x a pi pj) (val_main_v7 (F := Ideal) pj) (val_main_v36 (F := Ideal) x a pi pj) b s col hmj).trans ?_
    exact p2_scatter_miss scatter_S4x4096x4096_S1024x1_S4x4096x1024_01_2_2_1 rfl rfl rfl rfl (fun _ b => b)
      x (val_main_v7 (F := Ideal) pi) (val_main_v22 (F := Ideal) x a pi pj) b s col hmi

end

end Cert.RefValue

end
-- ==== Proof.KHostS.lean ====
/-
  What the region finds in the two arrays the host code builds by scattering: the diagonal scale and the sparse sine
  matrix are the host operations' composed terms of the arguments, which are the two pure terms named for them.
-/
import proofs.«429250_j63041529970723_3_alg».proof.Proof.KHostV
import Idealize.ShloMosaic.Lib.StableHlo.Run

set_option maxRecDepth 16384

noncomputable section

namespace Cert.KernelIdeal.Hand

open Cert.KernelIdeal Cert.KernelIdeal.Gen Cert.KernelIdeal.Facts₀
open Idealize.ShloMosaic Idealize.ShloMosaic.TcCoe Idealize.ShloMosaic.StableHlo

variable {F : FTy → Type} [FloatOps F]

variable (m : (ℓ : Loc nD τ sig) → Buf (Elt F) ℓ) (c : Dev nD)

/-- Two columns of start indices set side by side are the pair of them. -/
theorem pair_fold (r q : IVec S1024x1 32) :
    concatenate S1024x2 1 [⟨S1024x1, r⟩, ⟨S1024x1, q⟩] Gen.concatenates_S1024x1_S1024x1_S1024x2_d1 = pairIdx r q := rfl

/-- Each operation's result read at its own result reference is its function's value, and at any other reference what
    was there; two index columns side by side are read as their pair, so that each column is computed once. -/
local macro "results_all" : tactic =>
  `(tactic| (simp (disch := decide) only [after_cons, after_nil, pair_fold,
      nullary_result', unary_result', binary_result', ternary_result', reshape_result',
      nullary_result_ne', unary_result_ne', binary_result_ne', ternary_result_ne', reshape_result_ne']))

set_option maxHeartbeats 40000000 in
/-- The diagonal scale the region finds is the ones with the cosines written at the planes' two columns. -/
theorem V_cf : (V m c main_v24 : FVec F S1x4096 .f32)
    = cfT (m ((c : Thread nD τ).loc main_arg1)) (m ((c : Thread nD τ).loc main_arg2)) (m ((c : Thread nD τ).loc main_arg3)) := by
  dsimp only [V, V0]
  simp only [hostOps0, List.flatten_cons, List.flatten_nil, List.append_nil]
  results_all
  unfold cfT zeroCol colOf wrapIdx
  rfl

set_option maxHeartbeats 40000000 in
/-- The sparse sine matrix the region finds is the zeros with the narrowed −sin written at (second column, first column)
    of each plane, then the narrowed sin at (first column, second column). -/
theorem V_s : (V m c main_v56 : FVec F S4096x4096 .bf16)
    = sT (m ((c : Thread nD τ).loc main_arg1)) (m ((c : Thread nD τ).loc main_arg2)) (m ((c : Thread nD τ).loc main_arg3)) := by
  dsimp only [V, V0]
  simp only [hostOps0, List.flatten_cons, List.flatten_nil, List.append_nil]
  results_all
  unfold sT colOf wrapIdx
  rfl

end Cert.KernelIdeal.Hand

end
-- ==== Proof.KValue.lean ====
/-
  The value of the one pipeline's output array: row r, column q of it after the run is
      xf[r, q] · cf[0, q]  +  Σ_j  xf[r, j] · S[j, q].

  First the body's three payloads read at an index: the accumulator's reset is zero; its update adds to it the product of the
  512 × 1024 block with the 1024 × 2048 block, a sum over the 1024 contracted positions (narrowing to bf16 is the identity on
  the extended reals); the store is the block of the input times the broadcast row of the scale, plus the accumulator. Then
  every window's block index at a point, decided over the 256 points, and so each input block read where its array says. The
  accumulator after the last point of a group of four is the four stretches' sums in the order they were added; joined, they
  are the sum over all 4096 positions. So what the last point of a group writes back is its 512 × 2048 block of one function
  of the three arrays, and those blocks cover the array.
-/
import proofs.«429250_j63041529970723_3_alg».proof.Proof.KDat
import proofs.«429250_j63041529970723_3_alg».proof.Proof.KSpec
import Idealize.ShloMosaic.PureOps.Ideal.Laws
import Idealize.ShloMosaic.Lib.Pipeline.Value
import Idealize.ShloMosaic.Lib.ValueIdx
import Idealize.ShloMosaic.Lib.ValueLayout
import Mathlib.Algebra.BigOperators.Fin
import Mathlib.Algebra.BigOperators.Group.Finset.Basic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The matrix product's index maps -/

theorem lhs_0 (i : S512x2048.Idx) (q : dot_S512x1024_S1024x2048_S512x2048_1_0_0_1_n_n.contr.Idx) :
    (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide),
    dif_pos (show (0 : Fin S512x1024.rank) ∈ dot_S512x1024_S1024x2048_S512x2048_1_0_0_1_n_n.lhsNonContracting by decide)]
  rfl
theorem lhs_1 (i : S512x2048.Idx) (q : dot_S512x1024_S1024x2048_S512x2048_1_0_0_1_n_n.contr.Idx) :
    (dot_S512x1024_S1024x2048_S512x2048_1_0_0_1_n_n.lhsIdx i q 1).val = (q ⟨0, by decide⟩).val :=
  dot_S512x1024_S1024x2048_S512x2048_1_0_0_1_n_n.lhsIdx_val_of_single rfl i q
theorem rhs_0 (i : S512x2048.Idx) (q : dot_S512x1024_S1024x2048_S512x2048_1_0_0_1_n_n.contr.Idx) :
    (dot_S512x1024_S1024x2048_S512x2048_1_0_0_1_n_n.rhsIdx i q 0).val = (q ⟨0, by decide⟩).val :=
  dot_S512x1024_S1024x2048_S512x2048_1_0_0_1_n_n.rhsIdx_val_of_single rfl i q
theorem rhs_1 (i : S512x2048.Idx) (q : dot_S512x1024_S1024x2048_S512x2048_1_0_0_1_n_n.contr.Idx) :
    (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide),
    dif_pos (show (1 : Fin S1024x2048.rank) ∈ dot_S512x1024_S1024x2048_S512x2048_1_0_0_1_n_n.rhsNonContracting by decide)]
  rfl

/-! ## The payloads at an index -/

theorem pay1_apply (p : Fin 512) (u : Fin 2048) : (k0_pay1 (F := Ideal)) (ix2 p u) = 0 := by
  unfold k0_pay1
  rw [shapeCast_self]
  exact Ideal.ofBits_zero_f32

theorem pay2_apply (v3 : FVec Ideal S512x1024 .f32) (v6 : FVec Ideal S512x2048 .f32) (v7 : FVec Ideal S1024x2048 .bf16)
    (p : Fin 512) (u : Fin 2048) :
    k0_pay2 v3 v6 v7 (ix2 p u) = v6 (ix2 p u) + ∑ l : Fin 1024, v3 (ix2 p l) * v7 (ix2 l u) := by
  unfold k0_pay2
  simp only [shapeCast_self]
  refine (addf_apply _ _ _).trans ?_
  congr 1
  refine (Ideal.matmul_constant_zero_apply dot_S512x1024_S1024x2048_S512x2048_1_0_0_1_n_n none (truncf .bf16 v3 bitsLt_bf16_f32) v7 (ix2 p u)).trans ?_
  rw [← Equiv.sum_comp (contrEquiv1 dot_S512x1024_S1024x2048_S512x2048_1_0_0_1_n_n 1024 rfl rfl).symm]
  refine Finset.sum_congr rfl fun k _ => ?_
  have hk := contrEquiv1_symm_val dot_S512x1024_S1024x2048_S512x2048_1_0_0_1_n_n 1024 rfl rfl k
  have el : dot_S512x1024_S1024x2048_S512x2048_1_0_0_1_n_n.lhsIdx (ix2 p u) ((contrEquiv1 dot_S512x1024_S1024x2048_S512x2048_1_0_0_1_n_n 1024 rfl rfl).symm k) = ix2 p k := funext fun a => Fin.ext (by
    match a with
    | ⟨0, _⟩ => exact lhs_0 _ _
    | ⟨1, _⟩ => exact (lhs_1 _ _).trans hk)
  have er : dot_S512x1024_S1024x2048_S512x2048_1_0_0_1_n_n.rhsIdx (ix2 p u) ((contrEquiv1 dot_S512x1024_S1024x2048_S512x2048_1_0_0_1_n_n 1024 rfl rfl).symm k) = ix2 k u := funext fun a => Fin.ext (by
    match a with
    | ⟨0, _⟩ => exact (rhs_0 _ _).trans hk
    | ⟨1, _⟩ => exact rhs_1 _ _)
  rw [el, er]
  rfl

theorem pay3_apply (v17 : FVec Ideal S512x2048 .f32) (v19 : FVec Ideal S1x2048 .f32) (v23 : FVec Ideal S512x2048 .f32)
    (p : Fin 512) (u : Fin 2048) :
    k0_pay3 v17 v19 v23 (ix2 p u) = v17 (ix2 p u) * v19 (ix2 (0 : Fin 1) u) + v23 (ix2 p u) := by
  unfold k0_pay3
  simp only [shapeCast_self]
  refine (addf_apply _ _ _).trans ?_
  congr 1
  refine (mulf_apply _ _ _).trans ?_
  congr 1
  refine broadcastTo_apply _ _ _ _ fun a => ?_
  match a with
  | ⟨0, _⟩ => rfl
  | ⟨1, _⟩ => rfl

variable {F : FTy → Type} [FloatOps F]
variable (m : (ℓ : Loc nD τ sig) → Buf (Elt F) ℓ)

/-! ## Where each window's block sits, at every grid point -/

/-- Point t has row block t / 8, column block (t / 4) mod 2 and stretch t mod 4 of the contracted axis; each window's block
    index is made of these. -/
theorem idx_facts : ∀ t : Fin cfg0.N,
    win0_0.index t (0 : Fin 2) = t.val / 8 ∧ win0_0.index t (1 : Fin 2) = t.val % 4
    ∧ win0_1.index t (0 : Fin 2) = t.val % 4 ∧ win0_1.index t (1 : Fin 2) = t.val / 4 % 2
    ∧ win0_2.index t (0 : Fin 2) = t.val / 8 ∧ win0_2.index t (1 : Fin 2) = t.val / 4 % 2
    ∧ win0_3.index t (0 : Fin 2) = 0 ∧ win0_3.index t (1 : Fin 2) = t.val / 4 % 2
    ∧ win0_4.index t (0 : Fin 2) = t.val / 8 ∧ win0_4.index t (1 : Fin 2) = t.val / 4 % 2 :=
  (by decide +kernel : ∀ t : Fin grid0.N, _)

/-! ## Each input block read where the array says -/

abbrev XF (c : Dev nD) : S16384x4096.Idx → Elt F .f32 := V m c main_v57
abbrev SM (c : Dev nD) : S4096x4096.Idx → Elt F .bf16 := V m c main_v56
abbrev CF (c : Dev nD) : S1x4096.Idx → Elt F .f32 := V m c main_v24

theorem xa_apply (c : Dev nD) (t : Fin cfg0.N) (p : Fin 512) (l : Fin 1024) (R : Fin 16384) (Q : Fin 4096)
    (hR : R.val = t.val / 8 * 512 + p.val) (hQ : Q.val = t.val % 4 * 1024 + l.val) :
    xa m c t (ix2 p l) = XF m c (ix2 R Q) := by
  obtain ⟨e0, e1, -⟩ := idx_facts t
  show V m c main_v57 (((cfg0.win 0).blk t).view.emb (ix2 p l)) = V m c main_v57 (ix2 R Q)
  refine congrArg _ (funext fun a => Fin.ext ?_)
  match a with
  | ⟨0, _⟩ => show win0_0.index t (0 : Fin 2) * 512 + 1 * p.val = R.val; omega
  | ⟨1, _⟩ => show win0_0.index t (1 : Fin 2) * 1024 + 1 * l.val = Q.val; omega

theorem sb_apply (c : Dev nD) (t : Fin cfg0.N) (l : Fin 1024) (u : Fin 2048) (Q Q' : Fin 4096)
    (hQ : Q.val = t.val % 4 * 1024 + l.val) (hQ' : Q'.val = t.val / 4 % 2 * 2048 + u.val) :
    sb m c t (ix2 l u) = SM m c (ix2 Q Q') := by
  obtain ⟨-, -, e0, e1, -⟩ := idx_facts t
  show V m c main_v56 (((cfg0.win 1).blk t).view.emb (ix2 l u)) = V m c main_v56 (ix2 Q Q')
  refine congrArg _ (funext fun a => Fin.ext ?_)
  match a with
  | ⟨0, _⟩ => show win0_1.index t (0 : Fin 2) * 1024 + 1 * l.val = Q.val; omega
  | ⟨1, _⟩ => show win0_1.index t (1 : Fin 2) * 2048 + 1 * u.val = Q'.val; omega

theorem xe_apply (c : Dev nD) (t : Fin cfg0.N) (p : Fin 512) (u : Fin 2048) (R : Fin 16384) (Q' : Fin 4096)
    (hR : R.val = t.val / 8 * 512 + p.val) (hQ' : Q'.val = t.val / 4 % 2 * 2048 + u.val) :
    xe m c t (ix2 p u) = XF m c (ix2 R Q') := by
  obtain ⟨-, -, -, -, e0, e1, -⟩ := idx_facts t
  show V m c main_v57 (((cfg0.win 2).blk t).view.emb (ix2 p u)) = V m c main_v57 (ix2 R Q')
  refine congrArg _ (funext fun a => Fin.ext ?_)
  match a with
  | ⟨0, _⟩ => show win0_2.index t (0 : Fin 2) * 512 + 1 * p.val = R.val; omega
  | ⟨1, _⟩ => show win0_2.index t (1 : Fin 2) * 2048 + 1 * u.val = Q'.val; omega

theorem cb_apply (c : Dev nD) (t : Fin cfg0.N) (u : Fin 2048) (Q' : Fin 4096)
    (hQ' : Q'.val = t.val / 4 % 2 * 2048 + u.val) :
    cb m c t (ix2 (0 : Fin 1) u) = CF m c (ix2 (0 : Fin 1) Q') := by
  obtain ⟨-, -, -, -, -, -, e0, e1, -⟩ := idx_facts t
  show V m c main_v24 (((cfg0.win 3).blk t).view.emb (ix2 (0 : Fin 1) u)) = V m c main_v24 (ix2 (0 : Fin 1) Q')
  refine congrArg _ (funext fun a => Fin.ext ?_)
  match a with
  | ⟨0, _⟩ => show win0_3.index t (0 : Fin 2) * 1 + 1 * (0 : Fin 1).val = (0 : Fin 1).val; omega
  | ⟨1, _⟩ => show win0_3.index t (1 : Fin 2) * 2048 + 1 * u.val = Q'.val; omega

/-! ## The accumulator over a group of four points -/

section AtIdeal

variable (mI : (ℓ : Loc nD τ sig) → Buf (Elt Ideal) ℓ)

/-- One stretch of 1024 of the contracted axis: its part of row R of the input against column Q of the sparse matrix. -/
def stretchSum (X : S16384x4096.Idx → EReal) (S : S4096x4096.Idx → EReal) (R : Fin 16384) (Q : Fin 4096) (k : Fin 4) : EReal :=
  ∑ l : Fin 1024, X (ix2 R (⟨k.val * 1024 + l.val, by omega⟩ : Fin 4096)) * S (ix2 (⟨k.val * 1024 + l.val, by omega⟩ : Fin 4096) Q)

/-- The block product at a point is its stretch's part of the whole product. -/
theorem blockProd (c : Dev nD) (t : Fin cfg0.N) (p : Fin 512) (u : Fin 2048) (R : Fin 16384) (Q : Fin 4096) (k : Fin 4)
    (hk : k.val = t.val % 4) (hR : R.val = t.val / 8 * 512 + p.val) (hQ : Q.val = t.val / 4 % 2 * 2048 + u.val) :
    ∑ l : Fin 1024, (xa mI c t (ix2 p l) : EReal) * (sb mI c t (ix2 l u) : EReal) = stretchSum (XF mI c) (SM mI c) R Q k := by
  unfold stretchSum
  refine Finset.sum_congr rfl fun l _ => ?_
  rw [xa_apply mI c t p l R ⟨k.val * 1024 + l.val, by omega⟩ hR (by show k.val * 1024 + l.val = _; rw [hk]),
    sb_apply mI c t l u ⟨k.val * 1024 + l.val, by omega⟩ Q (by show k.val * 1024 + l.val = _; rw [hk]) hQ]

/-- The accumulator after the last point of a group of four, at an index: the four stretches' parts, in the order added. -/
theorem acc_last (c : Dev nD) (t : Fin cfg0.N) (h3 : t.val % 4 = 3) (p : Fin 512) (u : Fin 2048) (R : Fin 16384) (Q : Fin 4096)
    (hR : R.val = t.val / 8 * 512 + p.val) (hQ : Q.val = t.val / 4 % 2 * 2048 + u.val) :
    (accAt mI c t.val t.isLt (ix2 p u) : EReal)
      = stretchSum (XF mI c) (SM mI c) R Q 0 + stretchSum (XF mI c) (SM mI c) R Q 1
        + stretchSum (XF mI c) (SM mI c) R Q 2 + stretchSum (XF mI c) (SM mI c) R Q 3 := by
  have hN : cfg0.N = 256 := N_0
  have ht := t.isLt
  have l2 : t.val - 1 < cfg0.N := by omega
  have l1 : t.val - 1 - 1 < cfg0.N := by omega
  have l0 : t.val - 1 - 1 - 1 < cfg0.N := by omega
  rw [accAt_next mI c t (by omega)]
  rw [accAt_next mI c ⟨t.val - 1, l2⟩ (by show ¬ (t.val - 1) % 4 = 0; omega)]
  rw [accAt_next mI c ⟨t.val - 1 - 1, l1⟩ (by show ¬ (t.val - 1 - 1) % 4 = 0; omega)]
  rw [accAt_first mI c ⟨t.val - 1 - 1 - 1, l0⟩ (by show (t.val - 1 - 1 - 1) % 4 = 0; omega)]
  rw [pay2_apply, pay2_apply, pay2_apply, pay2_apply, pay1_apply, zero_add]
  rw [blockProd mI c t p u R Q 3 (by show 3 = _; omega) hR hQ,
    blockProd mI c ⟨t.val - 1, l2⟩ p u R Q 2 (by show 2 = (t.val - 1) % 4; omega) (by show R.val = (t.val - 1) / 8 * 512 + p.val; omega) (by show Q.val = (t.val - 1) / 4 % 2 * 2048 + u.val; omega),
    blockProd mI c ⟨t.val - 1 - 1, l1⟩ p u R Q 1 (by show 1 = (t.val - 1 - 1) % 4; omega) (by show R.val = (t.val - 1 - 1) / 8 * 512 + p.val; omega) (by show Q.val = (t.val - 1 - 1) / 4 % 2 * 2048 + u.val; omega),
    blockProd mI c ⟨t.val - 1 - 1 - 1, l0⟩ p u R Q 0 (by show 0 = (t.val - 1 - 1 - 1) % 4; omega) (by show R.val = (t.val - 1 - 1 - 1) / 8 * 512 + p.val; omega) (by show Q.val = (t.val - 1 - 1 - 1) / 4 % 2 * 2048 + u.val; omega)]

end AtIdeal

/-! ## The four stretches joined, and the output block at an index -/

section AtIdeal2

variable (mI : (ℓ : Loc nD τ sig) → Buf (Elt Ideal) ℓ)

/-- The contracted axis as four stretches of 1024. -/
def stretchEquiv : Fin 4 × Fin 1024 ≃ Fin 4096 := finProdFinEquiv

theorem stretchEquiv_val (k : Fin 4) (l : Fin 1024) : (stretchEquiv (k, l)).val = k.val * 1024 + l.val := by
  show l.val + 1024 * k.val = _
  omega

/-- The four stretches' parts add up to the whole row against the whole column. -/
theorem stretches_sum (X : S16384x4096.Idx → EReal) (S : S4096x4096.Idx → EReal) (R : Fin 16384) (Q : Fin 4096) :
    stretchSum X S R Q 0 + stretchSum X S R Q 1 + stretchSum X S R Q 2 + stretchSum X S R Q 3
      = ∑ q : Fin 4096, X (ix2 R q) * S (ix2 q Q) := by
  rw [← Equiv.sum_comp stretchEquiv, Fintype.sum_prod_type, Fin.sum_univ_four]
  unfold stretchSum
  have e : ∀ (k : Fin 4) (l : Fin 1024), stretchEquiv (k, l) = (⟨k.val * 1024 + l.val, by omega⟩ : Fin 4096) :=
    fun k l => Fin.ext (stretchEquiv_val k l)
  simp only [e]

/-- What the body stores at the last point of a group, at an index: the specification's entry. -/
theorem outAt_apply (c : Dev nD) (t : Fin cfg0.N) (h3 : t.val % 4 = 3) (p : Fin 512) (u : Fin 2048) (R : Fin 16384) (Q : Fin 4096)
    (hR : R.val = t.val / 8 * 512 + p.val) (hQ : Q.val = t.val / 4 % 2 * 2048 + u.val) :
    (outAt mI c t (ix2 p u) : EReal) = Cert.Spec.KOutAt (XF mI c) (SM mI c) (CF mI c) R Q := by
  unfold outAt Cert.Spec.KOutAt
  rw [pay3_apply, xe_apply mI c t p u R Q hR hQ, cb_apply mI c t u Q hQ, acc_last mI c t h3 p u R Q hR hQ, stretches_sum]

/-- The output array as one function of the three arrays. -/
abbrev GOut (c : Dev nD) : S16384x4096.Idx → EReal := fun i => Cert.Spec.KOutAt (XF mI c) (SM mI c) (CF mI c) (i 0) (i 1)

theorem outAt_eq_GOut (c : Dev nD) (t : Fin cfg0.N) (h3 : t.val % 4 = 3) (y : S512x2048.Idx) (I : S16384x4096.Idx)
    (h0 : (I 0).val = t.val / 8 * 512 + (y 0).val) (h1 : (I 1).val = t.val / 4 % 2 * 2048 + (y 1).val) :
    (outAt mI c t y : EReal) = GOut mI c I := by
  obtain ⟨p, u, rfl⟩ : ∃ (p : Fin 512) (u : Fin 2048), y = ix2 p u := ⟨y 0, y 1, eq_ix2 y⟩
  exact outAt_apply mI c t h3 p u (I 0) (I 1) h0 h1

/-! ## From the blocks to the array -/

/-- What a point that writes back writes is its block of the one function. -/
theorem flushed_eq (c : Dev nD) (t : Fin cfg0.N) (hf : (cfg0.win 4).flush t = true) :
    (dats mI 0 c).flushed 4 t = ((cfg0.win 4).blk t).view.read (Elt Ideal) (GOut mI c) := by
  have h3 : t.val % 4 = 3 := (flush0_4 t).mp hf
  obtain ⟨-, -, -, -, -, -, -, -, e0, e1⟩ := idx_facts t
  show (cfg0.win 4).cut (grid0.coords t) ((dats mI 0 c).after 4 t) = _
  rw [after0_4]
  funext y
  show outAt mI c t y = GOut mI c (((cfg0.win 4).blk t).view.emb y)
  refine outAt_eq_GOut mI c t h3 y _ ?_ ?_
  · show win0_4.index t (0 : Fin 2) * 512 + 1 * (y 0).val = t.val / 8 * 512 + (y 0).val
    omega
  · show win0_4.index t (1 : Fin 2) * 2048 + 1 * (y 1).val = t.val / 4 % 2 * 2048 + (y 1).val
    omega

/-- An index of the array is in a point's block iff each coordinate is in the block's range on its axis. -/
theorem mem_blk4 (t : Fin cfg0.N) (i : S16384x4096.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v58).slice (win0_4.rect t)).set ↔ _
  rw [View.set_slice_whole, Rect.mem_set_unit]
  exact Iff.rfl

/-- Every index is in the block of the last point of its group: row block r / 512, column block q / 2048. -/
theorem cover (i : S16384x4096.Idx) : ∃ t : Fin cfg0.N, (cfg0.win 4).flush t = true ∧ i ∈ ((cfg0.win 4).blk t).view.set := by
  have hN : cfg0.N = 256 := N_0
  have h0 : (i 0).val < 16384 := (i 0).isLt
  have h1 : (i 1).val < 4096 := (i 1).isLt
  obtain ⟨t, tv⟩ : ∃ t : Fin cfg0.N, t.val = (i 0).val / 512 * 8 + (i 1).val / 2048 * 4 + 3 := ⟨⟨_, by omega⟩, rfl⟩
  obtain ⟨-, -, -, -, -, -, -, -, e0, e1⟩ := idx_facts t
  refine ⟨t, (flush0_4 t).mpr (by omega), ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 2048 ≤ (i 1).val ∧ (i 1).val < win0_4.index t (1 : Fin 2) * 2048 + 2048; omega

/-- The output array after the run is the one function of the three arrays. -/
theorem out_array (c : Dev nD) : (dats mI 0 c).arrAt 4 cfg0.N = GOut mI c :=
  (dats mI 0 c).arrAt_eq_of_cover 4 (GOut mI c) (fun t hf => flushed_eq mI c t hf) cover

end AtIdeal2

/-- Row r, column q of the output array after the run. -/
theorem out_value (m : (ℓ : Loc nD τ sig) → Buf (Elt Ideal) ℓ) (c : Dev nD) (r : Fin 16384) (q : Fin 4096) :
    (((dats (F := Ideal) m 0 c).arrAt 4 cfg0.N : S16384x4096.Idx → EReal)) (ValueIdx.ix2 r q)
      = Cert.Spec.KOutAt (V (F := Ideal) m c main_v57) (V m c main_v56) (V m c main_v24) r q :=
  congrFun (out_array m c) (ix2 r q)

end Cert.KernelIdeal.Hand

end
-- ==== Proof.KResult.lean ====
/-
  The region's result, given back its first two axes, is the reference's result; and the region's output array is that result
  of the program's arguments.

  Both are rotations of the input by the same planes, column by column; under the precondition every plane index
  is a column, and then the rotation is unique.
-/
import proofs.«429250_j63041529970723_3_alg».proof.Proof.KPure
import proofs.«429250_j63041529970723_3_alg».proof.Proof.RefValue
import proofs.«429250_j63041529970723_3_alg».proof.Proof.KHostV
import proofs.«429250_j63041529970723_3_alg».proof.Proof.KHostS
import proofs.«429250_j63041529970723_3_alg».proof.Proof.KValue

set_option maxRecDepth 16384

noncomputable section

namespace Cert.KernelIdeal.Hand

open Cert.KernelIdeal Cert.KernelIdeal.Facts₀
open Cert.KernelIdeal.Gen
open Idealize.ShloMosaic Idealize.ShloMosaic.TcCoe Idealize.ShloMosaic.ValueIdx
open Idealize.ShloMosaic.Pipeline (Dat Cfg Window)

/-- THE TWO RESULTS AGREE: the region's result over the three host-built arrays is the reference's result. -/
theorem kernel_eq_ref (x : FVec Ideal S4x4096x4096 .f32) (a : FVec Ideal S1024 .f32) (pi pj : IVec S1024 32)
    (h : Cert.Pre_finite_inputs.fn (F := Ideal) x a pi pj = fun _ => 1#1) :
    kres x a pi pj = Cert.ReferenceIdeal.Read.val_main_v43 (F := Ideal) x a pi pj :=
  Cert.Spec.IsRot.unique (Cert.RefValue.range_i' x a pi pj h) (Cert.RefValue.range_j' x a pi pj h)
    (isRot_kernel x a pi pj h) (Cert.RefValue.isRot x a pi pj h)

/-- THE REGION'S RESULT, given back its first two axes, is the result over the three host-built arrays of the
    program's arguments. -/
theorem result_eq (m : (ℓ : Loc nD τ sig) → Buf (Elt Ideal) ℓ) (c : Dev nD) :
    (unflat (F := Ideal) ((dats (F := Ideal) m 0 c).arrAt 4 cfg0.N) : Cert.Spec.SX.Idx → EReal) =
      kres (m ((c : Thread nD τ).loc main_arg0)) (m ((c : Thread nD τ).loc main_arg1))
        (m ((c : Thread nD τ).loc main_arg2)) (m ((c : Thread nD τ).loc main_arg3)) := by
  funext i
  obtain ⟨b, s, col, rfl⟩ : ∃ (b : Fin 4) (s : Fin 4096) (col : Fin 4096), i = ix3 b s col :=
    ⟨i 0, i 1, i 2, eq_ix3 i⟩
  rw [unflat_apply, out_value, V_xf, V_s, V_cf]
  rfl

end Cert.KernelIdeal.Hand

end
-- ==== Proof.KAlg.lean ====
/-
  The algebraic conjunct: at the extended reals the kernel's program and the reference's, from memories that agree on
  the arguments, both run and end with equal results and unchanged arguments.

  The kernel's program ends with the region's output given back its first two axes; that array is the region's
  function of the three host-built arrays of the arguments, which is the rotation of the input by the planes. The
  reference's program ends with its composed term of the arguments, which is the same rotation. Under the
  precondition the rotation is unique.
-/
import proofs.«429250_j63041529970723_3_alg».proof.Defs
import proofs.«429250_j63041529970723_3_alg».proof.Proof.KResult
import proofs.«429250_j63041529970723_3_alg».proof.Proof.KFrame
import proofs.«429250_j63041529970723_3_alg».proof.Proof.Gen.ReferenceIdeal.Run
import proofs.«429250_j63041529970723_3_alg».proof.Proof.Gen.ReferenceIdeal.Read
import proofs.«429250_j63041529970723_3_alg».proof.Proof.Gen.KernelIdeal
import proofs.«429250_j63041529970723_3_alg».proof.Proof.Gen.ReferenceIdeal
import proofs.«429250_j63041529970723_3_alg».proof.Proof.Gen.Pre_finite_inputs

set_option maxRecDepth 16384

noncomputable section

namespace Cert.Proof.Alg

open Idealize.ShloMosaic Idealize.ShloMosaic.TcCoe Idealize.SL.Sem

/-- THE ALGEBRAIC CONJUNCT. At the extended reals the kernel's program ends with the region's output given back its
    first two axes, the reference's with its composed term of arguments that agree with the kernel's; under the
    precondition both are the rotation of the input by the planes, which is unique. -/
theorem algebraic : Cert.algebraic_KernelIdeal_ReferenceIdeal := by
  intro m ρ m' ρ' hpre hagree
  refine ⟨fun c => Cert.KernelIdeal.Hand.unflat (F := Ideal)
      ((Cert.KernelIdeal.Hand.dats (F := Ideal) m 0 c).arrAt 4 Cert.KernelIdeal.cfg0.N),
    Cert.KernelIdeal.Hand.value (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact ((Cert.KernelIdeal.Hand.result_eq m c).trans (Cert.KernelIdeal.Hand.kernel_eq_ref _ _ _ _ (hpre c))).symm

end Cert.Proof.Alg

end
-- ==== Proof.lean ====
/-
  The certificate of the plane-rotation kernel against its reference.

  The reference takes x of shape 4 × 4096 × 4096, 1024 angles and 1024 planes (pi k, pj k) of column indices, and returns x
  with column pi k replaced by  x[pi k]·cos k − x[pj k]·sin k  and column pj k by  x[pi k]·sin k + x[pj k]·cos k.  The kernel
  computes the same as ONE affine map of each row,  x · diag(c) + x · S,  where c is one except cos k at both columns of
  plane k, and S is zero except −sin k at (pj k, pi k) and sin k at (pi k, pj k): a pallas_call over a 32 × 2 × 4 grid that
  accumulates the product over four stretches of 1024 columns and adds the diagonal term at the last.

  The two agree when every plane index is a column and the 2048 plane indices are pairwise distinct (the precondition):
  then each column of S has at most one non-zero entry, so the sum over a row collapses to the one cross term, and the
  diagonal scale holds that plane's cosine; a column no plane names has scale one and a zero column of S. Both results
  are shown to be THE rotation in the column-by-column sense, which determines an array.

  The three frames: each kernel program's run is the pipeline rule at proof data naming what every staging buffer and the
  accumulator hold after every grid point (the flattened input, read by two windows, held in two halves); the
  reference's is its run read back. Nothing of the idealization was rewritten, so the preservation conjunct is trivial.
-/
import proofs.«429250_j63041529970723_3_alg».proof.Defs
import proofs.«429250_j63041529970723_3_alg».proof.Proof.Gen.Kernel
import proofs.«429250_j63041529970723_3_alg».proof.Proof.Gen.KernelIdeal
import proofs.«429250_j63041529970723_3_alg».proof.Proof.Gen.ReferenceIdeal
import proofs.«429250_j63041529970723_3_alg».proof.Proof.Gen.Pre_finite_inputs
import proofs.«429250_j63041529970723_3_alg».proof.Proof.Gen.ReferenceIdeal.Run
import proofs.«429250_j63041529970723_3_alg».proof.Proof.KFrame
import proofs.«429250_j63041529970723_3_alg».proof.Proof.WFrame
import proofs.«429250_j63041529970723_3_alg».proof.Proof.KAlg

noncomputable section

namespace Cert.Proof

open Idealize.ShloMosaic Idealize.SL.Sem

/-- The word-level kernel runs and leaves its arguments unchanged. -/
theorem frame_p : Cert.frame_Kernel := fun m ρ _ => Cert.Kernel.Hand.frame m ρ

/-- So does its idealization. -/
theorem frame_pi : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_p, frame_pi, frame_ri, trivial, Cert.Proof.Alg.algebraic⟩

end Cert.Proof

end
